-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64x64 .f32) (main_arg7 : FVec F S64x64 .f32) (main_arg8 : FVec F S64 .f32) (main_arg9 : FVec F S64x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x32 .f32) (main_arg10 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S1x32 : Shape := ⟨2, ![1, 32]⟩
abbrev S100000x1 : Shape := ⟨2, ![100000, 1]⟩
abbrev S10000x64 : Shape := ⟨2, ![10000, 64]⟩
abbrev S1600000x64 : Shape := ⟨2, ![1600000, 64]⟩
abbrev S10000x1 : Shape := ⟨2, ![10000, 1]⟩
abbrev S64x1 : Shape := ⟨2, ![64, 1]⟩

abbrev nBuf : Space → Nat
  | .hbm => 92
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S1x64, .f32⟩
  | .hbm, ⟨52, _⟩ => ⟨S1x64, .f32⟩
  | .hbm, ⟨53, _⟩ => ⟨S1x32, .f32⟩
  | .hbm, ⟨54, _⟩ => ⟨S100000x1, .i32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S1600000x1, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1600000x1, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S100000x64, .f32⟩
  | .hbm, ⟨91, _⟩ => ⟨S64x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x1, .i32⟩
  | .local _ .vmem, ⟨27, _⟩ => ⟨S10000x1, .i32⟩
  | .local _ .vmem, ⟨28, _⟩ => ⟨S64x32, .f32⟩
  | .local _ .vmem, ⟨29, _⟩ => ⟨S1x32, .f32⟩
  | .local _ .vmem, ⟨30, _⟩ => ⟨S64x32, .f32⟩
  | .local _ .vmem, ⟨31, _⟩ => ⟨S64x64, .f32⟩
  | .local _ .vmem, ⟨32, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_scratch0 : Ref sig .tc := ⟨.vmem, 31, rfl⟩
abbrev cc3_scratch1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  shapeCasts_S32_S1x32 : S32.ShapeCasts S1x32
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S10000x64_d1_w32 : S10000x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_0) S10000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v47_1) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47_1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S64x32.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x1, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x1, .f32⟩
  | .hbm, ⟨87, _⟩ => ⟨S1600000x64, .f32⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S64, .f32⟩
  | .hbm, ⟨105, _⟩ => ⟨S100000x1, .i32⟩
  | .hbm, ⟨106, _⟩ => ⟨S64, .f32⟩
  | .hbm, ⟨107, _⟩ => ⟨S_, .f32⟩
  | .hbm, ⟨108, _⟩ => ⟨S64x64, .f32⟩
  | .hbm, ⟨109, _⟩ => ⟨S100000x1, .i32⟩
  | .hbm, ⟨110, _⟩ => ⟨S64x64, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64x1, .f32⟩
  | .hbm, ⟨115, _⟩ => ⟨S64x64, .f32⟩
  | .hbm, ⟨116, _⟩ => ⟨S64x64, .f32⟩
  | .hbm, ⟨117, _⟩ => ⟨S64x32, .f32⟩
  | .hbm, ⟨118, _⟩ => ⟨S1x32, .f32⟩
  | .hbm, ⟨119, _⟩ => ⟨S64x32, .f32⟩
  | .hbm, ⟨120, _⟩ => ⟨S64x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x32_S64x32_1_0_0_1_n_n_wf : DotDims.WF S64x64 S64x32 S64x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.KReg0.lean ====
/-
  The first launch: a row tile of the node features times a weight matrix.
  Grid of 10 points; point t reads rows [10000 t, 10000 (t+1)) of the features (window 0), the whole
  64 x 64 weight (window 1, the same block at every point), and writes the product tile (window 2).
  Stated at a parameter V: the contents of the core's buffers when the launch is entered.
-/
import proofs.«413494_j10737418240589_3_alg».proof.Proof.Gen.Kernel.Launch
import proofs.«413494_j10737418240589_3_alg».proof.Proof.Gen.Kernel.Skeleton
import proofs.«413494_j10737418240589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S10000x64 := Rect.unit (s := S10000x64) ![0, 0] S10000x64.size inb_S10000x64_S10000x64_0_0
abbrev r0_w : Rect S64x64 := Rect.unit (s := S64x64) ![0, 0] S64x64.size inb_S64x64_S64x64_0_0

/-- The product tile the body leaves in the output's staging buffer: one store of the whole buffer. -/
def out0_2 (x0 : Vec F S10000x64 .f32) (x1 : Vec F S64x64 .f32) : Vec F S10000x64 .f32 :=
  View.canon [⟨r0_x, k0_pay1 (View.ld x0 r0_x) (View.ld x1 r0_w)⟩]

theorem cover0_2 (p0 : Vec F S10000x64 .f32) (y : S10000x64.Idx) :
    ∃ pc ∈ ([⟨r0_x, p0⟩] : List (View.Piece (Elt F) S10000x64 .f32)), y ∈ pc.1.set :=
  View.cover_of_tiled [⟨r0_x, p0⟩] S10000x64.size (by rfl) y

/-! ## The body's triple -/

set_option maxHeartbeats 1000000 in
/-- The body on whole staging buffers: the two inputs are read and handed back, the output ends at the product tile. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- After the body at point t: each input's buffer at its block, the output's at the product tile of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  The second launch: the first layer's combination and both projections of the second layer.
  Grid of 10 points; point t reads rows [10000 t, 10000 (t+1)) of the features (window 0) and of the
  first aggregate (window 1), the whole root weight (window 2), the bias row (window 3) and the second
  layer's two weights (windows 4, 5), and writes two product tiles (windows 6, 7): with
  h = max (agg + x · w_root + b) 0 they are h · w2_init and h · w2_root.
  Stated at a parameter V: the contents of the core's buffers when the launch is entered.
-/
import proofs.«413494_j10737418240589_3_alg».proof.Proof.Gen.Kernel.Launch
import proofs.«413494_j10737418240589_3_alg».proof.Proof.Gen.Kernel.Skeleton
import proofs.«413494_j10737418240589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a block fetched once
    keeps its index). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S10000x64 := Rect.unit (s := S10000x64) ![0, 0] S10000x64.size inb_S10000x64_S10000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

/-- The tile h · w2_init the body leaves in window 6's staging buffer (x0 features, x1 aggregate, x2 root weight,
    x3 bias row, x4 the second layer's initial weight). -/
def out1_6 (x0 x1 : Vec F S10000x64 .f32) (x2 : Vec F S64x64 .f32) (x3 : Vec F S1x64 .f32) (x4 : Vec F S64x64 .f32) : Vec F S10000x64 .f32 :=
  View.canon [⟨r1_x, k1_pay2 (View.ld x0 r1_x) (View.ld x2 r1_w) (View.ld x1 r1_x) (View.ld x3 r1_b) (View.ld x4 r1_w)⟩]
/-- The tile h · w2_root the body leaves in window 7's staging buffer (x5 the second layer's root weight). -/
def out1_7 (x0 x1 : Vec F S10000x64 .f32) (x2 : Vec F S64x64 .f32) (x3 : Vec F S1x64 .f32) (x5 : Vec F S64x64 .f32) : Vec F S10000x64 .f32 :=
  View.canon [⟨r1_x, k1_pay3 (View.ld x0 r1_x) (View.ld x2 r1_w) (View.ld x1 r1_x) (View.ld x3 r1_b) (View.ld x5 r1_w)⟩]

theorem cover1_x (p0 : Vec F S10000x64 .f32) (y : S10000x64.Idx) :
    ∃ pc ∈ ([⟨r1_x, p0⟩] : List (View.Piece (Elt F) S10000x64 .f32)), y ∈ pc.1.set :=
  View.cover_of_tiled [⟨r1_x, p0⟩] S10000x64.size (by rfl) y

/-! ## The body's triple -/

set_option maxHeartbeats 2000000 in
/-- The body on whole staging buffers: the six inputs are read and handed back, the two outputs end at their tiles. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 x5 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4) ∗ owns (c : Thread nD τ) arg8 fullShare (out1_7 x0 x1 x2 x3 x5)) -∗ K ⟨⟩))
      ⊢ wp frame (wpE (defs₀ (F := F)) Variants.none c none) E (cc1__combine1_kernel i arg1 harg1 arg2 harg2 arg3 harg3 arg4 harg4 arg5 harg5 arg6 harg6 arg7 harg7 arg8 harg8) K := by
  simp only [cc1__combine1_kernel_eq_skeleton]; unfold cc1__combine1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_x _)
  iexists _; isplitr
  swap; · iexact H7
  ipureintro
  exact View.read_writes_eq_canon _ _ _ (cover1_x _)

/-! ## The launch's proof data -/

/-- After the body at point t: each input's buffer at its block, each output's at its tile of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  The third launch: the second layer's combination.
  Grid of 10 points; point t reads rows [10000 t, 10000 (t+1)) of the second aggregate (window 0) and of
  the root projection (window 1), the bias row (window 2), and writes max (agg + s + b) 0 on those rows
  (window 3). Stated at a parameter V: the contents of the core's buffers when the launch is entered.
-/
import proofs.«413494_j10737418240589_3_alg».proof.Proof.Gen.Kernel.Launch
import proofs.«413494_j10737418240589_3_alg».proof.Proof.Gen.Kernel.Skeleton
import proofs.«413494_j10737418240589_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S10000x64 := Rect.unit (s := S10000x64) ![0, 0] S10000x64.size inb_S10000x64_S10000x64_0_0
abbrev r2_b : Rect S1x64 := Rect.unit (s := S1x64) ![0, 0] S1x64.size inb_S1x64_S1x64_0_0

/-- The tile the body leaves in the output's staging buffer (x0 aggregate, x1 root projection, x2 bias row). -/
def out2_3 (x0 x1 : Vec F S10000x64 .f32) (x2 : Vec F S1x64 .f32) : Vec F S10000x64 .f32 :=
  View.canon [⟨r2_x, k2_pay1 (View.ld x0 r2_x) (View.ld x1 r2_x) (View.ld x2 r2_b)⟩]

theorem cover2_x (p0 : Vec F S10000x64 .f32) (y : S10000x64.Idx) :
    ∃ pc ∈ ([⟨r2_x, p0⟩] : List (View.Piece (Elt F) S10000x64 .f32)), y ∈ pc.1.set :=
  View.cover_of_tiled [⟨r2_x, p0⟩] S10000x64.size (by rfl) y

/-! ## The body's triple -/

set_option maxHeartbeats 1000000 in
/-- The body on whole staging buffers: the three inputs are read and handed back, the output ends at its tile. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S10000x64 .f32) (harg4 : arg4.IsWhole)
    (x0 x1 : Vec F S10000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine2_kernel i arg1 harg1 arg2 harg2 arg3 harg3 arg4 harg4) K := by
  simp only [cc2__combine2_kernel_eq_skeleton]; unfold cc2__combine2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_x _)

/-! ## The launch's proof data -/

/-- After the body at point t: each input's buffer at its block, the output's at its tile of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
/-
  The fourth launch: the mean over each graph's nodes, then the final linear map.
  Grid of 10 points, run in order. Two buffers of the kernel's own are carried from point to point: a 64 x 64
  sum of node rows per graph and a 64 x 1 count of nodes per graph. The first point zeroes both; every point
  adds its 10000 rows' contribution (a one-hot matrix of the rows' graph ids, transposed, times the rows; times a
  column of ones for the count); the last point divides sum by max count 1, multiplies by the final weight, adds
  the bias, and stores the 64 x 32 result, which is written back only there.
  Stated at a parameter V: the contents of the core's buffers when the launch is entered.
-/
import proofs.«413494_j10737418240589_3_alg».proof.Proof.Gen.Kernel.Launch
import proofs.«413494_j10737418240589_3_alg».proof.Proof.Gen.Kernel.Skeleton
import proofs.«413494_j10737418240589_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it: 0 the node rows, 1 their graph ids,
    2 the final weight, 3 the final bias row, 4 the result. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The carried buffers -/

/-- The two buffers of the kernel's own, whole. -/
abbrev scM3_0 : Memref sig .tc .vmem S64x64 .f32 := Memref.whole cc3_scratch0
abbrev scM3_1 : Memref sig .tc .vmem S64x1 .f32 := Memref.whole cc3_scratch1

/-- What the sum and the count hold after point n: the first point starts from zeros, every later one from what
    the point before left; each adds its own rows' contribution. -/
def acc3 (c : Dev nD) : (n : ℕ) → n < cfg3.N → Vec F S64x64 .f32 × Vec F S64x1 .f32
  | 0, hn => (k3_pay4 (iblk3 V c 1 ⟨0, hn⟩) (iblk3 V c 0 ⟨0, hn⟩) k3_pay1, k3_pay5 (iblk3 V c 1 ⟨0, hn⟩) k3_pay2)
  | n + 1, hn => (k3_pay4 (iblk3 V c 1 ⟨n + 1, hn⟩) (iblk3 V c 0 ⟨n + 1, hn⟩) (acc3 c n (Nat.lt_of_succ_lt hn)).1,
      k3_pay5 (iblk3 V c 1 ⟨n + 1, hn⟩) (acc3 c n (Nat.lt_of_succ_lt hn)).2)

theorem acc3_zero (c : Dev nD) (hn : 0 < cfg3.N) :
    acc3 V c 0 hn = (k3_pay4 (iblk3 V c 1 ⟨0, hn⟩) (iblk3 V c 0 ⟨0, hn⟩) k3_pay1, k3_pay5 (iblk3 V c 1 ⟨0, hn⟩) k3_pay2) := rfl
theorem acc3_succ (c : Dev nD) (n : ℕ) (hn : n + 1 < cfg3.N) :
    acc3 V c (n + 1) hn = (k3_pay4 (iblk3 V c 1 ⟨n + 1, hn⟩) (iblk3 V c 0 ⟨n + 1, hn⟩) (acc3 V c n (Nat.lt_of_succ_lt hn)).1,
      k3_pay5 (iblk3 V c 1 ⟨n + 1, hn⟩) (acc3 V c n (Nat.lt_of_succ_lt hn)).2) := rfl

/-- The result tile computed from the sum and count after point t (stored, and written back, at the last point only). -/
def out3_4 (c : Dev nD) (t : Fin cfg3.N) : Vec F S64x32 .f32 :=
  k3_pay6 (acc3 V c t.val t.isLt).1 (acc3 V c t.val t.isLt).2 (iblk3 V c 2 t) (iblk3 V c 3 t)

/-- The launch's invariant before point n: before the first point every buffer of the kernel's own at anything;
    afterwards the sum and the count at what the point before left, the other scoped buffers at anything. -/
def PhiS3 (c : Dev nD) : (n : ℕ) → n ≤ cfg3.N → sProp 𝕄
  | 0, _ => Pipeline.ΦA spec3 c
  | n + 1, hn => iprop(iprop(owns (c : Thread nD τ) scM3_0 fullShare ((acc3 V c n hn).1) ∗ owns (c : Thread nD τ) scM3_1 fullShare ((acc3 V c n hn).2))
      ∗ Pipeline.scopedRestBut (Ix := Unit) (Name := ℕ) (U := UR sig nD τ) (Lvl := ℕ) (Val := Elt F) spec3 c [cc3_scratch0, cc3_scratch1] ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((acc3 V c n hn).1) ∗ owns (c : Thread nD τ) scM3_1 fullShare ((acc3 V c n hn).2))
      ∗ Pipeline.scopedRestBut (Ix := Unit) (Name := ℕ) (U := UR sig nD τ) (Lvl := ℕ) (Val := Elt F) spec3 c [cc3_scratch0, cc3_scratch1] ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((acc3 V c (n - 1) (by omega)).1) ∗ owns (c : Thread nD τ) scM3_1 fullShare ((acc3 V c (n - 1) (by omega)).2))
      ∗ Pipeline.scopedRestBut (Ix := Unit) (Name := ℕ) (U := UR sig nD τ) (Lvl := ℕ) (Val := Elt F) spec3 c [cc3_scratch0, cc3_scratch1] ∗ (∃ r, prngReg c r)) := by
  cases n with
  | zero => exact absurd rfl hz
  | succ n => rfl

/-- The class invariant with the two carried buffers split out of the scoped rest. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## The launch's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body's two branch conditions, in closed form over the grid -/

/-- The first branch (zero the carried buffers) is taken at the first point only. -/
abbrev cond3_A (i : grid3.Coords) : Prop := (Scalar.cmpi .ne (Scalar.extui (Scalar.cmpi .eq (BitVec.ofNat 32 (i 0).val) 0#32)) 0#32) = 1#1
theorem hcond3_A : ∀ t : Fin cfg3.N, cond3_A (grid3.coords t) ↔ t.val % 10 = 0 :=
  (by decide +kernel : ∀ t : Fin grid3.N, cond3_A (grid3.coords t) ↔ t.val % 10 = 0)
/-- The second branch (finish and store the result) is taken at the last point only. -/
abbrev cond3_C (i : grid3.Coords) : Prop := k3_cond2 i = 1#1
theorem hcond3_C : ∀ t : Fin cfg3.N, cond3_C (grid3.coords t) ↔ t.val % 10 = 9 :=
  (by decide +kernel : ∀ t : Fin grid3.N, cond3_C (grid3.coords t) ↔ t.val % 10 = 9)

/-- The inputs are never idle; the result window is idle, and not written back, exactly off the last point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_C (grid3.coords t) → cfg3.idle 4 (grid3.coords t) = true := by decide +kernel
theorem noFlush3_4 : ∀ t : Fin cfg3.N, ¬cond3_C (grid3.coords t) → (cfg3.win 4).flush t = false := by decide +kernel
theorem liveAt3_4 : ∀ t : Fin cfg3.N, cond3_C (grid3.coords t) → cfg3.idle 4 (grid3.coords t) = false := by decide +kernel

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-! ## The body's three runs, on whole buffers

Every access is of a whole buffer: the rectangle at zero offsets of the buffer's own sizes, through which a load
reads the contents and one store leaves its payload. -/

theorem hz3 : (![0, 0] : Fin 2 → Nat) = fun _ => 0 := funext fun a => by fin_cases a <;> rfl

/-- A list of stores whose last is of the whole buffer covers it. -/
theorem cov3_a (p : Vec F S64x64 .f32) (L : List (View.Piece (Elt F) S64x64 .f32)) (y : S64x64.Idx) :
    ∃ pc ∈ ((⟨Rect.unit (s := S64x64) ![0, 0] S64x64.size inb_S64x64_S64x64_0_0, p⟩ : View.Piece (Elt F) S64x64 .f32) :: L), y ∈ pc.1.set :=
  ⟨_, List.mem_cons_self .., View.mem_set_unit_zero hz3 inb_S64x64_S64x64_0_0 y⟩
theorem cov3_n (p : Vec F S64x1 .f32) (L : List (View.Piece (Elt F) S64x1 .f32)) (y : S64x1.Idx) :
    ∃ pc ∈ ((⟨Rect.unit (s := S64x1) ![0, 0] S64x1.size inb_S64x1_S64x1_0_0, p⟩ : View.Piece (Elt F) S64x1 .f32) :: L), y ∈ pc.1.set :=
  ⟨_, List.mem_cons_self .., View.mem_set_unit_zero hz3 inb_S64x1_S64x1_0_0 y⟩
theorem cov3_o (p : Vec F S64x32 .f32) (L : List (View.Piece (Elt F) S64x32 .f32)) (y : S64x32.Idx) :
    ∃ pc ∈ ((⟨Rect.unit (s := S64x32) ![0, 0] S64x32.size inb_S64x32_S64x32_0_0, p⟩ : View.Piece (Elt F) S64x32 .f32) :: L), y ∈ pc.1.set :=
  ⟨_, List.mem_cons_self .., View.mem_set_unit_zero hz3 inb_S64x32_S64x32_0_0 y⟩

/-! ## The carried contents at a point, by whether it is the first -/

theorem acc3_fst_zero (c : Dev nD) (t : Fin cfg3.N) (hz : t.val = 0) :
    (acc3 V c t.val t.isLt).1 = k3_pay4 (iblk3 V c 1 t) (iblk3 V c 0 t) k3_pay1 := by
  obtain ⟨n, hn⟩ := t
  cases n with
  | zero => rfl
  | succ n => exact absurd hz (Nat.succ_ne_zero n)
theorem acc3_snd_zero (c : Dev nD) (t : Fin cfg3.N) (hz : t.val = 0) :
    (acc3 V c t.val t.isLt).2 = k3_pay5 (iblk3 V c 1 t) k3_pay2 := by
  obtain ⟨n, hn⟩ := t
  cases n with
  | zero => rfl
  | succ n => exact absurd hz (Nat.succ_ne_zero n)
theorem acc3_fst_pos (c : Dev nD) (t : Fin cfg3.N) (hz : t.val ≠ 0) :
    (acc3 V c t.val t.isLt).1 = k3_pay4 (iblk3 V c 1 t) (iblk3 V c 0 t) (acc3 V c (t.val - 1) (Nat.lt_of_le_of_lt (Nat.sub_le _ _) t.isLt)).1 := by
  obtain ⟨n, hn⟩ := t
  cases n with
  | zero => exact absurd rfl hz
  | succ n => rfl
theorem acc3_snd_pos (c : Dev nD) (t : Fin cfg3.N) (hz : t.val ≠ 0) :
    (acc3 V c t.val t.isLt).2 = k3_pay5 (iblk3 V c 1 t) (acc3 V c (t.val - 1) (Nat.lt_of_le_of_lt (Nat.sub_le _ _) t.isLt)).2 := by
  obtain ⟨n, hn⟩ := t
  cases n with
  | zero => exact absurd rfl hz
  | succ n => rfl

set_option maxHeartbeats 1000000 in
/-- The body at the first point, on whole buffers: the two carried buffers, found at anything, end at the first
    point's contribution over zeros; the row block and the graph ids are read and handed back; the other three windows'
    buffers are not touched. -/
theorem run3_A (c : Dev nD) (E : Set ℕ) (i : grid3.Coords) (hA : cond3_A i) (hC : ¬cond3_C i) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x64 .f32) (harg6 : arg6.IsWhole) (arg7 : Memref sig .tc .vmem S64x1 .f32) (harg7 : arg7.IsWhole)
    (x0 : Vec F S10000x64 .f32) (x1 : Vec F S10000x1 .i32) (K : PUnit → sProp 𝕄) :
    iprop(owns (c : Thread nD τ) arg1 fullShare x0 ∗ owns (c : Thread nD τ) arg2 fullShare x1 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg6 fullShare (k3_pay4 x1 x0 k3_pay1) ∗ owns (c : Thread nD τ) arg7 fullShare (k3_pay5 x1 k3_pay2)) -∗ K ⟨⟩))
      ⊢ wp frame (wpE (defs₀ (F := F)) Variants.none c none) E (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    refine (View.read_writes_eq_canon _ _ _ (cov3_a _ _)).trans ?_
    refine (View.canon_cons_unit_zero (S := S64x64) hz3 _ _ _).trans ?_
    sl_unfold_words
    rw [View.readCov_unit_zero (S := S64x64) _ hz3]
    simp only [View.readAt_eq_ld, View.ld_unit_zero (S := S10000x1) hz3, View.ld_unit_zero (S := S10000x64) hz3]
  iexists _; isplitr
  swap; · iexact H7
  ipureintro
  refine (View.read_writes_eq_canon _ _ _ (cov3_n _ _)).trans ?_
  refine (View.canon_cons_unit_zero (S := S64x1) hz3 _ _ _).trans ?_
  sl_unfold_words
  rw [View.readCov_unit_zero (S := S64x1) _ hz3]
  simp only [View.readAt_eq_ld, View.ld_unit_zero (S := S10000x1) hz3]

set_option maxHeartbeats 1000000 in
/-- The body at a middle point: the two carried buffers, found at a and n, end at a and n plus this point's
    contribution; the other three windows' buffers are not touched. -/
theorem run3_B (c : Dev nD) (E : Set ℕ) (i : grid3.Coords) (hA : ¬cond3_A i) (hC : ¬cond3_C i) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x64 .f32) (harg6 : arg6.IsWhole) (arg7 : Memref sig .tc .vmem S64x1 .f32) (harg7 : arg7.IsWhole)
    (x0 : Vec F S10000x64 .f32) (x1 : Vec F S10000x1 .i32) (a : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg6 fullShare (k3_pay4 x1 x0 a) ∗ owns (c : Thread nD τ) arg7 fullShare (k3_pay5 x1 n)) -∗ K ⟨⟩))
      ⊢ wp frame (wpE (defs₀ (F := F)) Variants.none c none) E (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    refine (View.read_writes_eq_canon _ _ _ (cov3_a _ _)).trans ?_
    refine (View.canon_cons_unit_zero (S := S64x64) hz3 _ _ _).trans ?_
    simp only [View.readAt_eq_ld, View.ld_unit_zero (S := S10000x1) hz3, View.ld_unit_zero (S := S10000x64) hz3, View.ld_unit_zero (S := S64x64) hz3]
  iexists _; isplitr
  swap; · iexact H7
  ipureintro
  refine (View.read_writes_eq_canon _ _ _ (cov3_n _ _)).trans ?_
  refine (View.canon_cons_unit_zero (S := S64x1) hz3 _ _ _).trans ?_
  simp only [View.readAt_eq_ld, View.ld_unit_zero (S := S10000x1) hz3, View.ld_unit_zero (S := S64x1) hz3]

set_option maxHeartbeats 1000000 in
/-- The body at the last point: the carried buffers as at a middle point, and the result's buffer, found at anything,
    ends at the result computed from them, the final weight and the bias row. -/
theorem run3_C (c : Dev nD) (E : Set ℕ) (i : grid3.Coords) (hA : ¬cond3_A i) (hC : cond3_C i) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x64 .f32) (harg6 : arg6.IsWhole) (arg7 : Memref sig .tc .vmem S64x1 .f32) (harg7 : arg7.IsWhole)
    (x0 : Vec F S10000x64 .f32) (x1 : Vec F S10000x1 .i32) (x2 : Vec F S64x32 .f32) (x3 : Vec F S1x32 .f32) (a : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k3_pay6 (k3_pay4 x1 x0 a) (k3_pay5 x1 n) x2 x3) ∗ owns (c : Thread nD τ) arg6 fullShare (k3_pay4 x1 x0 a) ∗ owns (c : Thread nD τ) arg7 fullShare (k3_pay5 x1 n)) -∗ K ⟨⟩))
      ⊢ wp frame (wpE (defs₀ (F := F)) Variants.none c none) E (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  subst hf0; subst hf1; subst hf2; subst hf3; subst hf6; subst hf7
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    refine (View.read_writes_eq_canon _ _ _ (cov3_o _ _)).trans ?_
    refine (View.canon_cons_unit_zero (S := S64x32) hz3 _ _ _).trans ?_
    rw [View.readCov_unit_zero (S := S64x64) _ hz3, View.readCov_unit_zero (S := S64x1) _ hz3]
    simp only [View.readAt_eq_ld, View.ld_unit_zero (S := S10000x1) hz3, View.ld_unit_zero (S := S10000x64) hz3, View.ld_unit_zero (S := S64x64) hz3, View.ld_unit_zero (S := S64x1) hz3, View.ld_unit_zero (S := S64x32) hz3, View.ld_unit_zero (S := S1x32) hz3]
  isplitl [H6]
  · iexists _; isplitr
    swap; · iexact H6
    ipureintro
    sl_unfold_words
    refine (View.read_writes_eq_canon _ _ _ (cov3_a _ _)).trans ?_
    refine (View.canon_cons_unit_zero (S := S64x64) hz3 _ _ _).trans ?_
    simp only [View.readAt_eq_ld, View.ld_unit_zero (S := S10000x1) hz3, View.ld_unit_zero (S := S10000x64) hz3, View.ld_unit_zero (S := S64x64) hz3]
  iexists _; isplitr
  swap; · iexact H7
  ipureintro
  sl_unfold_words
  refine (View.read_writes_eq_canon _ _ _ (cov3_n _ _)).trans ?_
  refine (View.canon_cons_unit_zero (S := S64x1) hz3 _ _ _).trans ?_
  simp only [View.readAt_eq_ld, View.ld_unit_zero (S := S10000x1) hz3, View.ld_unit_zero (S := S64x1) hz3]

set_option maxHeartbeats 1000000 in
/-- The body at any point, by the three cases of its two branches. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  by_cases h0 : t.val % 10 = 0
  · -- the first point: both carried buffers are zeroed, then this point's rows are added
    have hz : t.val = 0 := by omega
    have hAp : cond3_A (grid3.coords t) := (hcond3_A t).mpr h0
    have hCn : ¬cond3_C (grid3.coords t) := fun h => by have := (hcond3_C t).mp h; omega
    rw [Dat.leavesExact_idle (dat3 V c) 4 t (idleAt3_4 t hCn) (noFlush3_4 t hCn)]
    rw [acc3_fst_zero V c t hz, acc3_snd_zero V c t hz]
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, H4⟩
    iapply (run3_A c Set.univ (grid3.coords t) hAp hCn _ _ _ _ _ _ _ _ _ _ _ _ _ _ (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hAn : ¬cond3_A (grid3.coords t) := fun h => h0 ((hcond3_A t).mp h)
    by_cases h1 : t.val % 10 = 9
    · -- the last point: this point's rows are added, then the result is computed and stored
      have hCp : cond3_C (grid3.coords t) := (hcond3_C t).mpr h1
      rw [show (dat3 V c).leavesExact 4 t = owns (c : Thread nD τ) (st3_4 t) fullShare ((dat3 V c).after 4 t) from by
        unfold Dat.leavesExact; rw [liveAt3_4 t hCp], after3_4]
      unfold out3_4
      rw [acc3_fst_pos V c t hz, acc3_snd_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, ⟨%d4, H4⟩⟩
      iapply (run3_C c Set.univ (grid3.coords t) hAn hCp _ _ _ _ _ _ _ _ _ _ _ _ _ _ (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · -- a middle point: this point's rows are added; the result's buffer is handed back untouched
      have hCn : ¬cond3_C (grid3.coords t) := fun h => h1 ((hcond3_C t).mp h)
      rw [Dat.leavesExact_idle (dat3 V c) 4 t (idleAt3_4 t hCn) (noFlush3_4 t hCn)]
      rw [acc3_fst_pos V c t hz, acc3_snd_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, H4⟩
      iapply (run3_B c Set.univ (grid3.coords t) hAn hCn _ _ _ _ _ _ _ _ _ _ _ _ _ _ (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the carried contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 10 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HS1⟩, Hrest, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.KRun.lean ====
/-
  The whole program as a chain of segments: three stretches of host operations (the degree normalisation,
  its where-select, the gathers of the edge weights and the reshapes), the first launch, the first propagation,
  the second launch, the second propagation, the third launch and the fourth. Between two segments the core holds
  every unscoped buffer at known contents: a fold from the launch memory (W0 … W9).
-/
import proofs.«413494_j10737418240589_3_alg».proof.Proof.KReg0
import proofs.«413494_j10737418240589_3_alg».proof.Proof.KReg1
import proofs.«413494_j10737418240589_3_alg».proof.Proof.KReg2
import proofs.«413494_j10737418240589_3_alg».proof.Proof.KReg3
import proofs.«413494_j10737418240589_3_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => m (c, b)
/-- After the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h

/-- After the host stretch hostOps0_1. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c r = W1 m c r :=
  StableHlo.after_of_writes_sub hostOps0_1 _ hostOps0_1_writes h

/-- After the host stretch hostOps0_2. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c r = W2 m c r :=
  StableHlo.after_of_writes_sub hostOps0_2 _ hostOps0_2_writes h

/-- After launch 0: its arrays at what the write-backs leave (the inputs as entered), every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array is as entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch hostOps1. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h

/-- After launch 1: its arrays at what the write-backs leave (the inputs as entered), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array is as entered. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch hostOps2. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
theorem W7_of (c : Dev nD) (r : Ref sig .tc) (h : r ∉ hostOps2_W) : W7 m c r = W6 m c r :=
  StableHlo.after_of_writes_sub hostOps2 _ hostOps2_writes h

/-- After launch 2: its arrays at what the write-backs leave (the inputs as entered), every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- An input window's array is as entered. -/
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After launch 3: its arrays at what the write-backs leave (the inputs as entered), every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- An input window's array is as entered. -/
theorem W9_in (c : Dev nD) (w : Fin cfg3.W) (hw : (cfg3.win w).isOut = false) :
    W9 m c (Proc.devRef .tc (Pipeline.arrRef spec3 w)) = W8 m c (Proc.devRef .tc (Pipeline.arrRef spec3 w)) :=
  (W9_arr m c w).trans (((dat3 (V8 m) c).arrAt_in w hw _).trans (A_eq3 (V8 m) c w))
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-! ## The arguments end as launched -/

theorem W9_main_arg0 (c : Dev nD) : W9 m c (Proc.devRef .tc main_arg0) = m ((c : Thread nD τ).loc main_arg0) :=
  (W9_of_ne m c main_arg0 (by decide)).trans <| (W8_of_ne m c main_arg0 (by decide)).trans <| (W7_of m c main_arg0 (by decide)).trans <| (W6_in m c 0 rfl).trans <|
    (W5_of m c main_arg0 (by decide)).trans <| (W4_in m c 0 rfl).trans <| (W3_of m c main_arg0 (by decide)).trans <|
    (W2_of m c main_arg0 (by decide)).trans <| (W1_of m c main_arg0 (by decide)).trans rfl
theorem W9_main_arg1 (c : Dev nD) : W9 m c (Proc.devRef .tc main_arg1) = m ((c : Thread nD τ).loc main_arg1) :=
  (W9_of_ne m c main_arg1 (by decide)).trans <| (W8_of_ne m c main_arg1 (by decide)).trans <| (W7_of m c main_arg1 (by decide)).trans <| (W6_of_ne m c main_arg1 (by decide)).trans <|
    (W5_of m c main_arg1 (by decide)).trans <| (W4_of_ne m c main_arg1 (by decide)).trans <| (W3_of m c main_arg1 (by decide)).trans <|
    (W2_of m c main_arg1 (by decide)).trans <| (W1_of m c main_arg1 (by decide)).trans rfl
theorem W9_main_arg2 (c : Dev nD) : W9 m c (Proc.devRef .tc main_arg2) = m ((c : Thread nD τ).loc main_arg2) :=
  (W9_of_ne m c main_arg2 (by decide)).trans <| (W8_of_ne m c main_arg2 (by decide)).trans <| (W7_of m c main_arg2 (by decide)).trans <| (W6_of_ne m c main_arg2 (by decide)).trans <|
    (W5_of m c main_arg2 (by decide)).trans <| (W4_of_ne m c main_arg2 (by decide)).trans <| (W3_of m c main_arg2 (by decide)).trans <|
    (W2_of m c main_arg2 (by decide)).trans <| (W1_of m c main_arg2 (by decide)).trans rfl
theorem W9_main_arg3 (c : Dev nD) : W9 m c (Proc.devRef .tc main_arg3) = m ((c : Thread nD τ).loc main_arg3) :=
  (W9_of_ne m c main_arg3 (by decide)).trans <| (W8_of_ne m c main_arg3 (by decide)).trans <| (W7_of m c main_arg3 (by decide)).trans <| (W6_of_ne m c main_arg3 (by decide)).trans <|
    (W5_of m c main_arg3 (by decide)).trans <| (W4_in m c 1 rfl).trans <| (W3_of m c main_arg3 (by decide)).trans <|
    (W2_of m c main_arg3 (by decide)).trans <| (W1_of m c main_arg3 (by decide)).trans rfl
theorem W9_main_arg4 (c : Dev nD) : W9 m c (Proc.devRef .tc main_arg4) = m ((c : Thread nD τ).loc main_arg4) :=
  (W9_of_ne m c main_arg4 (by decide)).trans <| (W8_of_ne m c main_arg4 (by decide)).trans <| (W7_of m c main_arg4 (by decide)).trans <| (W6_in m c 2 rfl).trans <|
    (W5_of m c main_arg4 (by decide)).trans <| (W4_of_ne m c main_arg4 (by decide)).trans <| (W3_of m c main_arg4 (by decide)).trans <|
    (W2_of m c main_arg4 (by decide)).trans <| (W1_of m c main_arg4 (by decide)).trans rfl
theorem W9_main_arg5 (c : Dev nD) : W9 m c (Proc.devRef .tc main_arg5) = m ((c : Thread nD τ).loc main_arg5) :=
  (W9_of_ne m c main_arg5 (by decide)).trans <| (W8_of_ne m c main_arg5 (by decide)).trans <| (W7_of m c main_arg5 (by decide)).trans <| (W6_of_ne m c main_arg5 (by decide)).trans <|
    (W5_of m c main_arg5 (by decide)).trans <| (W4_of_ne m c main_arg5 (by decide)).trans <| (W3_of m c main_arg5 (by decide)).trans <|
    (W2_of m c main_arg5 (by decide)).trans <| (W1_of m c main_arg5 (by decide)).trans rfl
theorem W9_main_arg6 (c : Dev nD) : W9 m c (Proc.devRef .tc main_arg6) = m ((c : Thread nD τ).loc main_arg6) :=
  (W9_of_ne m c main_arg6 (by decide)).trans <| (W8_of_ne m c main_arg6 (by decide)).trans <| (W7_of m c main_arg6 (by decide)).trans <| (W6_in m c 4 rfl).trans <|
    (W5_of m c main_arg6 (by decide)).trans <| (W4_of_ne m c main_arg6 (by decide)).trans <| (W3_of m c main_arg6 (by decide)).trans <|
    (W2_of m c main_arg6 (by decide)).trans <| (W1_of m c main_arg6 (by decide)).trans rfl
theorem W9_main_arg7 (c : Dev nD) : W9 m c (Proc.devRef .tc main_arg7) = m ((c : Thread nD τ).loc main_arg7) :=
  (W9_of_ne m c main_arg7 (by decide)).trans <| (W8_of_ne m c main_arg7 (by decide)).trans <| (W7_of m c main_arg7 (by decide)).trans <| (W6_in m c 5 rfl).trans <|
    (W5_of m c main_arg7 (by decide)).trans <| (W4_of_ne m c main_arg7 (by decide)).trans <| (W3_of m c main_arg7 (by decide)).trans <|
    (W2_of m c main_arg7 (by decide)).trans <| (W1_of m c main_arg7 (by decide)).trans rfl
theorem W9_main_arg8 (c : Dev nD) : W9 m c (Proc.devRef .tc main_arg8) = m ((c : Thread nD τ).loc main_arg8) :=
  (W9_of_ne m c main_arg8 (by decide)).trans <| (W8_of_ne m c main_arg8 (by decide)).trans <| (W7_of m c main_arg8 (by decide)).trans <| (W6_of_ne m c main_arg8 (by decide)).trans <|
    (W5_of m c main_arg8 (by decide)).trans <| (W4_of_ne m c main_arg8 (by decide)).trans <| (W3_of m c main_arg8 (by decide)).trans <|
    (W2_of m c main_arg8 (by decide)).trans <| (W1_of m c main_arg8 (by decide)).trans rfl
theorem W9_main_arg9 (c : Dev nD) : W9 m c (Proc.devRef .tc main_arg9) = m ((c : Thread nD τ).loc main_arg9) :=
  (W9_in m c 2 rfl).trans <| (W8_of_ne m c main_arg9 (by decide)).trans <| (W7_of m c main_arg9 (by decide)).trans <| (W6_of_ne m c main_arg9 (by decide)).trans <|
    (W5_of m c main_arg9 (by decide)).trans <| (W4_of_ne m c main_arg9 (by decide)).trans <| (W3_of m c main_arg9 (by decide)).trans <|
    (W2_of m c main_arg9 (by decide)).trans <| (W1_of m c main_arg9 (by decide)).trans rfl
theorem W9_main_arg10 (c : Dev nD) : W9 m c (Proc.devRef .tc main_arg10) = m ((c : Thread nD τ).loc main_arg10) :=
  (W9_of_ne m c main_arg10 (by decide)).trans <| (W8_of_ne m c main_arg10 (by decide)).trans <| (W7_of m c main_arg10 (by decide)).trans <| (W6_of_ne m c main_arg10 (by decide)).trans <|
    (W5_of m c main_arg10 (by decide)).trans <| (W4_of_ne m c main_arg10 (by decide)).trans <| (W3_of m c main_arg10 (by decide)).trans <|
    (W2_of m c main_arg10 (by decide)).trans <| (W1_of m c main_arg10 (by decide)).trans rfl

/-! ## The proof data family and the thread state -/

/-- Every launch's proof data, each at its entry contents. -/
def hpdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V8 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W9 m c) ∗ ∃ r, prngReg c r)

/-! ## The launches as segments -/

/-- The fourth launch's class invariant, handed back at its exit, split as the launch theorem takes it. -/
theorem phiA3_out (c : Dev nD) : (Pipeline.ΦA spec3 c : sProp 𝕄) ⊢ iprop((∃ r, prngReg c r) ∗ BI.emp ∗ Pipeline.scopedRest spec3 c) := by
  unfold Pipeline.ΦA
  iintro ⟨Hr, Hp⟩
  isplitl [Hp]; · iexact Hp
  isplitr; · iempintro
  iexact Hr

set_option backward.isDefEq.respectTransparency.types false in
/-- Launch 0 as a segment: entered with every unscoped buffer at the contents before it, left with the launch's
    arrays at what its write-backs made of them and every other buffer as entered. -/
def reg0 : Pipeline.RegionSeg (pcfgs (F := F)) adm (hpdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (V3 m c) (V4 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at the contents before it, left with the launch's
    arrays at what its write-backs made of them and every other buffer as entered. -/
def reg1 : Pipeline.RegionSeg (pcfgs (F := F)) adm (hpdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (V5 m c) (V6 m c) ((hpdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at the contents before it, left with the launch's
    arrays at what its write-backs made of them and every other buffer as entered. -/
def reg2 : Pipeline.RegionSeg (pcfgs (F := F)) adm (hpdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (hpdats m) launch2.win launch2.arr_whole c
      ((hpdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hpdats m) ((hpdats m 2 c).share_full fun _ => rfl)
      (V7 m c) (V8 m c) ((hpdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered with every unscoped buffer at the contents before it, left with the launch's
    arrays at what its write-backs made of them and every other buffer as entered. -/
def reg3 : Pipeline.RegionSeg (pcfgs (F := F)) adm (hpdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (hpdats m) launch3.win launch3.arr_whole c
      ((hpdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    exact (hout3 (V8 m) c).trans (phiA3_out c)
  hexit c := by
    have hjoin := Pipeline.unscopedBufs_of_arrays (p := 3) (pcfgs (F := F)) adm (Ix := Unit) (Name := ℕ) (U := UR sig nD τ) (Lvl := ℕ)
      launch3.win launch3.arr_whole c (hpdats m) ((hpdats m 3 c).share_full fun _ => rfl)
      (V8 m c) (V9 m c) ((hpdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev hsegs : List (Pipeline.Seg (pcfgs (F := F)) adm (hpdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .region (reg3 m) ]

set_option backward.isDefEq.respectTransparency.types false in
/-- Every weakly fair execution of the program from memory m terminates, nothing faulting, and every final memory
    holds every unscoped buffer at the last boundary's contents W9. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (hpdats m) () cellOf_inj emb₁ defs₀ 𝒱₀ L lv m ρ main (hsegs m)
    (fun c Q => by
      rewrite [main_chain c, Pipeline.Seg.run_eq_chain,
        show (hsegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c)⟩) (run_all m ρ)

end Cert.Kernel.Hand

end
-- ==== Proof.KIReg0.lean ====
/-
  The first launch: a row tile of the node features times a weight matrix.
  Grid of 10 points; point t reads rows [10000 t, 10000 (t+1)) of the features (window 0), the whole
  64 x 64 weight (window 1, the same block at every point), and writes the product tile (window 2).
  Stated at a parameter V: the contents of the core's buffers when the launch is entered.
-/
import proofs.«413494_j10737418240589_3_alg».proof.Proof.Gen.KernelIdeal.Launch
import proofs.«413494_j10737418240589_3_alg».proof.Proof.Gen.KernelIdeal.Skeleton
import proofs.«413494_j10737418240589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S10000x64 := Rect.unit (s := S10000x64) ![0, 0] S10000x64.size inb_S10000x64_S10000x64_0_0
abbrev r0_w : Rect S64x64 := Rect.unit (s := S64x64) ![0, 0] S64x64.size inb_S64x64_S64x64_0_0

/-- The product tile the body leaves in the output's staging buffer: one store of the whole buffer. -/
def out0_2 (x0 : Vec F S10000x64 .f32) (x1 : Vec F S64x64 .f32) : Vec F S10000x64 .f32 :=
  View.canon [⟨r0_x, k0_pay1 (View.ld x0 r0_x) (View.ld x1 r0_w)⟩]

theorem cover0_2 (p0 : Vec F S10000x64 .f32) (y : S10000x64.Idx) :
    ∃ pc ∈ ([⟨r0_x, p0⟩] : List (View.Piece (Elt F) S10000x64 .f32)), y ∈ pc.1.set :=
  View.cover_of_tiled [⟨r0_x, p0⟩] S10000x64.size (by rfl) y

/-! ## The body's triple -/

set_option maxHeartbeats 1000000 in
/-- The body on whole staging buffers: the two inputs are read and handed back, the output ends at the product tile. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- After the body at point t: each input's buffer at its block, the output's at the product tile of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  The second launch: the first layer's combination and both projections of the second layer.
  Grid of 10 points; point t reads rows [10000 t, 10000 (t+1)) of the features (window 0) and of the
  first aggregate (window 1), the whole root weight (window 2), the bias row (window 3) and the second
  layer's two weights (windows 4, 5), and writes two product tiles (windows 6, 7): with
  h = max (agg + x · w_root + b) 0 they are h · w2_init and h · w2_root.
  Stated at a parameter V: the contents of the core's buffers when the launch is entered.
-/
import proofs.«413494_j10737418240589_3_alg».proof.Proof.Gen.KernelIdeal.Launch
import proofs.«413494_j10737418240589_3_alg».proof.Proof.Gen.KernelIdeal.Skeleton
import proofs.«413494_j10737418240589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a block fetched once
    keeps its index). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S10000x64 := Rect.unit (s := S10000x64) ![0, 0] S10000x64.size inb_S10000x64_S10000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

/-- The tile h · w2_init the body leaves in window 6's staging buffer (x0 features, x1 aggregate, x2 root weight,
    x3 bias row, x4 the second layer's initial weight). -/
def out1_6 (x0 x1 : Vec F S10000x64 .f32) (x2 : Vec F S64x64 .f32) (x3 : Vec F S1x64 .f32) (x4 : Vec F S64x64 .f32) : Vec F S10000x64 .f32 :=
  View.canon [⟨r1_x, k1_pay2 (View.ld x0 r1_x) (View.ld x2 r1_w) (View.ld x1 r1_x) (View.ld x3 r1_b) (View.ld x4 r1_w)⟩]
/-- The tile h · w2_root the body leaves in window 7's staging buffer (x5 the second layer's root weight). -/
def out1_7 (x0 x1 : Vec F S10000x64 .f32) (x2 : Vec F S64x64 .f32) (x3 : Vec F S1x64 .f32) (x5 : Vec F S64x64 .f32) : Vec F S10000x64 .f32 :=
  View.canon [⟨r1_x, k1_pay3 (View.ld x0 r1_x) (View.ld x2 r1_w) (View.ld x1 r1_x) (View.ld x3 r1_b) (View.ld x5 r1_w)⟩]

theorem cover1_x (p0 : Vec F S10000x64 .f32) (y : S10000x64.Idx) :
    ∃ pc ∈ ([⟨r1_x, p0⟩] : List (View.Piece (Elt F) S10000x64 .f32)), y ∈ pc.1.set :=
  View.cover_of_tiled [⟨r1_x, p0⟩] S10000x64.size (by rfl) y

/-! ## The body's triple -/

set_option maxHeartbeats 2000000 in
/-- The body on whole staging buffers: the six inputs are read and handed back, the two outputs end at their tiles. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S10000x64 .f32) (harg7 : arg7.IsWhole) (arg8 : Memref sig .tc .vmem S10000x64 .f32) (harg8 : arg8.IsWhole)
    (x0 x1 : Vec F S10000x64 .f32) (x2 : Vec F S64x64 .f32) (x3 : Vec F S1x64 .f32) (x4 x5 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4) ∗ owns (c : Thread nD τ) arg8 fullShare (out1_7 x0 x1 x2 x3 x5)) -∗ K ⟨⟩))
      ⊢ wp frame (wpE (defs₀ (F := F)) Variants.none c none) E (cc1__combine1_kernel i arg1 harg1 arg2 harg2 arg3 harg3 arg4 harg4 arg5 harg5 arg6 harg6 arg7 harg7 arg8 harg8) K := by
  simp only [cc1__combine1_kernel_eq_skeleton]; unfold cc1__combine1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_x _)
  iexists _; isplitr
  swap; · iexact H7
  ipureintro
  exact View.read_writes_eq_canon _ _ _ (cover1_x _)

/-! ## The launch's proof data -/

/-- After the body at point t: each input's buffer at its block, each output's at its tile of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  The third launch: the second layer's combination.
  Grid of 10 points; point t reads rows [10000 t, 10000 (t+1)) of the second aggregate (window 0) and of
  the root projection (window 1), the bias row (window 2), and writes max (agg + s + b) 0 on those rows
  (window 3). Stated at a parameter V: the contents of the core's buffers when the launch is entered.
-/
import proofs.«413494_j10737418240589_3_alg».proof.Proof.Gen.KernelIdeal.Launch
import proofs.«413494_j10737418240589_3_alg».proof.Proof.Gen.KernelIdeal.Skeleton
import proofs.«413494_j10737418240589_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S10000x64 := Rect.unit (s := S10000x64) ![0, 0] S10000x64.size inb_S10000x64_S10000x64_0_0
abbrev r2_b : Rect S1x64 := Rect.unit (s := S1x64) ![0, 0] S1x64.size inb_S1x64_S1x64_0_0

/-- The tile the body leaves in the output's staging buffer (x0 aggregate, x1 root projection, x2 bias row). -/
def out2_3 (x0 x1 : Vec F S10000x64 .f32) (x2 : Vec F S1x64 .f32) : Vec F S10000x64 .f32 :=
  View.canon [⟨r2_x, k2_pay1 (View.ld x0 r2_x) (View.ld x1 r2_x) (View.ld x2 r2_b)⟩]

theorem cover2_x (p0 : Vec F S10000x64 .f32) (y : S10000x64.Idx) :
    ∃ pc ∈ ([⟨r2_x, p0⟩] : List (View.Piece (Elt F) S10000x64 .f32)), y ∈ pc.1.set :=
  View.cover_of_tiled [⟨r2_x, p0⟩] S10000x64.size (by rfl) y

/-! ## The body's triple -/

set_option maxHeartbeats 1000000 in
/-- The body on whole staging buffers: the three inputs are read and handed back, the output ends at its tile. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S10000x64 .f32) (harg4 : arg4.IsWhole)
    (x0 x1 : Vec F S10000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__combine2_kernel i arg1 harg1 arg2 harg2 arg3 harg3 arg4 harg4) K := by
  simp only [cc2__combine2_kernel_eq_skeleton]; unfold cc2__combine2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_x _)

/-! ## The launch's proof data -/

/-- After the body at point t: each input's buffer at its block, the output's at its tile of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
/-
  The fourth launch: the mean over each graph's nodes, then the final linear map.
  Grid of 10 points, run in order. Two buffers of the kernel's own are carried from point to point: a 64 x 64
  sum of node rows per graph and a 64 x 1 count of nodes per graph. The first point zeroes both; every point
  adds its 10000 rows' contribution (a one-hot matrix of the rows' graph ids, transposed, times the rows; times a
  column of ones for the count); the last point divides sum by max count 1, multiplies by the final weight, adds
  the bias, and stores the 64 x 32 result, which is written back only there.
  Stated at a parameter V: the contents of the core's buffers when the launch is entered.
-/
import proofs.«413494_j10737418240589_3_alg».proof.Proof.Gen.KernelIdeal.Launch
import proofs.«413494_j10737418240589_3_alg».proof.Proof.Gen.KernelIdeal.Skeleton
import proofs.«413494_j10737418240589_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it: 0 the node rows, 1 their graph ids,
    2 the final weight, 3 the final bias row, 4 the result. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The carried buffers -/

/-- The two buffers of the kernel's own, whole. -/
abbrev scM3_0 : Memref sig .tc .vmem S64x64 .f32 := Memref.whole cc3_scratch0
abbrev scM3_1 : Memref sig .tc .vmem S64x1 .f32 := Memref.whole cc3_scratch1

/-- What the sum and the count hold after point n: the first point starts from zeros, every later one from what
    the point before left; each adds its own rows' contribution. -/
def acc3 (c : Dev nD) : (n : ℕ) → n < cfg3.N → Vec F S64x64 .f32 × Vec F S64x1 .f32
  | 0, hn => (k3_pay4 (iblk3 V c 1 ⟨0, hn⟩) (iblk3 V c 0 ⟨0, hn⟩) k3_pay1, k3_pay5 (iblk3 V c 1 ⟨0, hn⟩) k3_pay2)
  | n + 1, hn => (k3_pay4 (iblk3 V c 1 ⟨n + 1, hn⟩) (iblk3 V c 0 ⟨n + 1, hn⟩) (acc3 c n (Nat.lt_of_succ_lt hn)).1,
      k3_pay5 (iblk3 V c 1 ⟨n + 1, hn⟩) (acc3 c n (Nat.lt_of_succ_lt hn)).2)

theorem acc3_zero (c : Dev nD) (hn : 0 < cfg3.N) :
    acc3 V c 0 hn = (k3_pay4 (iblk3 V c 1 ⟨0, hn⟩) (iblk3 V c 0 ⟨0, hn⟩) k3_pay1, k3_pay5 (iblk3 V c 1 ⟨0, hn⟩) k3_pay2) := rfl
theorem acc3_succ (c : Dev nD) (n : ℕ) (hn : n + 1 < cfg3.N) :
    acc3 V c (n + 1) hn = (k3_pay4 (iblk3 V c 1 ⟨n + 1, hn⟩) (iblk3 V c 0 ⟨n + 1, hn⟩) (acc3 V c n (Nat.lt_of_succ_lt hn)).1,
      k3_pay5 (iblk3 V c 1 ⟨n + 1, hn⟩) (acc3 V c n (Nat.lt_of_succ_lt hn)).2) := rfl

/-- The result tile computed from the sum and count after point t (stored, and written back, at the last point only). -/
def out3_4 (c : Dev nD) (t : Fin cfg3.N) : Vec F S64x32 .f32 :=
  k3_pay6 (acc3 V c t.val t.isLt).1 (acc3 V c t.val t.isLt).2 (iblk3 V c 2 t) (iblk3 V c 3 t)

/-- The launch's invariant before point n: before the first point every buffer of the kernel's own at anything;
    afterwards the sum and the count at what the point before left, the other scoped buffers at anything. -/
def PhiS3 (c : Dev nD) : (n : ℕ) → n ≤ cfg3.N → sProp 𝕄
  | 0, _ => Pipeline.ΦA spec3 c
  | n + 1, hn => iprop(iprop(owns (c : Thread nD τ) scM3_0 fullShare ((acc3 V c n hn).1) ∗ owns (c : Thread nD τ) scM3_1 fullShare ((acc3 V c n hn).2))
      ∗ Pipeline.scopedRestBut (Ix := Unit) (Name := ℕ) (U := UR sig nD τ) (Lvl := ℕ) (Val := Elt F) spec3 c [cc3_scratch0, cc3_scratch1] ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((acc3 V c n hn).1) ∗ owns (c : Thread nD τ) scM3_1 fullShare ((acc3 V c n hn).2))
      ∗ Pipeline.scopedRestBut (Ix := Unit) (Name := ℕ) (U := UR sig nD τ) (Lvl := ℕ) (Val := Elt F) spec3 c [cc3_scratch0, cc3_scratch1] ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((acc3 V c (n - 1) (by omega)).1) ∗ owns (c : Thread nD τ) scM3_1 fullShare ((acc3 V c (n - 1) (by omega)).2))
      ∗ Pipeline.scopedRestBut (Ix := Unit) (Name := ℕ) (U := UR sig nD τ) (Lvl := ℕ) (Val := Elt F) spec3 c [cc3_scratch0, cc3_scratch1] ∗ (∃ r, prngReg c r)) := by
  cases n with
  | zero => exact absurd rfl hz
  | succ n => rfl

/-- The class invariant with the two carried buffers split out of the scoped rest. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## The launch's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body's two branch conditions, in closed form over the grid -/

/-- The first branch (zero the carried buffers) is taken at the first point only. -/
abbrev cond3_A (i : grid3.Coords) : Prop := (Scalar.cmpi .ne (Scalar.extui (Scalar.cmpi .eq (BitVec.ofNat 32 (i 0).val) 0#32)) 0#32) = 1#1
theorem hcond3_A : ∀ t : Fin cfg3.N, cond3_A (grid3.coords t) ↔ t.val % 10 = 0 :=
  (by decide +kernel : ∀ t : Fin grid3.N, cond3_A (grid3.coords t) ↔ t.val % 10 = 0)
/-- The second branch (finish and store the result) is taken at the last point only. -/
abbrev cond3_C (i : grid3.Coords) : Prop := k3_cond2 i = 1#1
theorem hcond3_C : ∀ t : Fin cfg3.N, cond3_C (grid3.coords t) ↔ t.val % 10 = 9 :=
  (by decide +kernel : ∀ t : Fin grid3.N, cond3_C (grid3.coords t) ↔ t.val % 10 = 9)

/-- The inputs are never idle; the result window is idle, and not written back, exactly off the last point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_C (grid3.coords t) → cfg3.idle 4 (grid3.coords t) = true := by decide +kernel
theorem noFlush3_4 : ∀ t : Fin cfg3.N, ¬cond3_C (grid3.coords t) → (cfg3.win 4).flush t = false := by decide +kernel
theorem liveAt3_4 : ∀ t : Fin cfg3.N, cond3_C (grid3.coords t) → cfg3.idle 4 (grid3.coords t) = false := by decide +kernel

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-! ## The body's three runs, on whole buffers

Every access is of a whole buffer: the rectangle at zero offsets of the buffer's own sizes, through which a load
reads the contents and one store leaves its payload. -/

theorem hz3 : (![0, 0] : Fin 2 → Nat) = fun _ => 0 := funext fun a => by fin_cases a <;> rfl

/-- A list of stores whose last is of the whole buffer covers it. -/
theorem cov3_a (p : Vec F S64x64 .f32) (L : List (View.Piece (Elt F) S64x64 .f32)) (y : S64x64.Idx) :
    ∃ pc ∈ ((⟨Rect.unit (s := S64x64) ![0, 0] S64x64.size inb_S64x64_S64x64_0_0, p⟩ : View.Piece (Elt F) S64x64 .f32) :: L), y ∈ pc.1.set :=
  ⟨_, List.mem_cons_self .., View.mem_set_unit_zero hz3 inb_S64x64_S64x64_0_0 y⟩
theorem cov3_n (p : Vec F S64x1 .f32) (L : List (View.Piece (Elt F) S64x1 .f32)) (y : S64x1.Idx) :
    ∃ pc ∈ ((⟨Rect.unit (s := S64x1) ![0, 0] S64x1.size inb_S64x1_S64x1_0_0, p⟩ : View.Piece (Elt F) S64x1 .f32) :: L), y ∈ pc.1.set :=
  ⟨_, List.mem_cons_self .., View.mem_set_unit_zero hz3 inb_S64x1_S64x1_0_0 y⟩
theorem cov3_o (p : Vec F S64x32 .f32) (L : List (View.Piece (Elt F) S64x32 .f32)) (y : S64x32.Idx) :
    ∃ pc ∈ ((⟨Rect.unit (s := S64x32) ![0, 0] S64x32.size inb_S64x32_S64x32_0_0, p⟩ : View.Piece (Elt F) S64x32 .f32) :: L), y ∈ pc.1.set :=
  ⟨_, List.mem_cons_self .., View.mem_set_unit_zero hz3 inb_S64x32_S64x32_0_0 y⟩

/-! ## The carried contents at a point, by whether it is the first -/

theorem acc3_fst_zero (c : Dev nD) (t : Fin cfg3.N) (hz : t.val = 0) :
    (acc3 V c t.val t.isLt).1 = k3_pay4 (iblk3 V c 1 t) (iblk3 V c 0 t) k3_pay1 := by
  obtain ⟨n, hn⟩ := t
  cases n with
  | zero => rfl
  | succ n => exact absurd hz (Nat.succ_ne_zero n)
theorem acc3_snd_zero (c : Dev nD) (t : Fin cfg3.N) (hz : t.val = 0) :
    (acc3 V c t.val t.isLt).2 = k3_pay5 (iblk3 V c 1 t) k3_pay2 := by
  obtain ⟨n, hn⟩ := t
  cases n with
  | zero => rfl
  | succ n => exact absurd hz (Nat.succ_ne_zero n)
theorem acc3_fst_pos (c : Dev nD) (t : Fin cfg3.N) (hz : t.val ≠ 0) :
    (acc3 V c t.val t.isLt).1 = k3_pay4 (iblk3 V c 1 t) (iblk3 V c 0 t) (acc3 V c (t.val - 1) (Nat.lt_of_le_of_lt (Nat.sub_le _ _) t.isLt)).1 := by
  obtain ⟨n, hn⟩ := t
  cases n with
  | zero => exact absurd rfl hz
  | succ n => rfl
theorem acc3_snd_pos (c : Dev nD) (t : Fin cfg3.N) (hz : t.val ≠ 0) :
    (acc3 V c t.val t.isLt).2 = k3_pay5 (iblk3 V c 1 t) (acc3 V c (t.val - 1) (Nat.lt_of_le_of_lt (Nat.sub_le _ _) t.isLt)).2 := by
  obtain ⟨n, hn⟩ := t
  cases n with
  | zero => exact absurd rfl hz
  | succ n => rfl

set_option maxHeartbeats 1000000 in
/-- The body at the first point, on whole buffers: the two carried buffers, found at anything, end at the first
    point's contribution over zeros; the row block and the graph ids are read and handed back; the other three windows'
    buffers are not touched. -/
theorem run3_A (c : Dev nD) (E : Set ℕ) (i : grid3.Coords) (hA : cond3_A i) (hC : ¬cond3_C i) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x64 .f32) (harg6 : arg6.IsWhole) (arg7 : Memref sig .tc .vmem S64x1 .f32) (harg7 : arg7.IsWhole)
    (x0 : Vec F S10000x64 .f32) (x1 : Vec F S10000x1 .i32) (K : PUnit → sProp 𝕄) :
    iprop(owns (c : Thread nD τ) arg1 fullShare x0 ∗ owns (c : Thread nD τ) arg2 fullShare x1 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg6 fullShare (k3_pay4 x1 x0 k3_pay1) ∗ owns (c : Thread nD τ) arg7 fullShare (k3_pay5 x1 k3_pay2)) -∗ K ⟨⟩))
      ⊢ wp frame (wpE (defs₀ (F := F)) Variants.none c none) E (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    refine (View.read_writes_eq_canon _ _ _ (cov3_a _ _)).trans ?_
    refine (View.canon_cons_unit_zero (S := S64x64) hz3 _ _ _).trans ?_
    sl_unfold_words
    rw [View.readCov_unit_zero (S := S64x64) _ hz3]
    simp only [View.readAt_eq_ld, View.ld_unit_zero (S := S10000x1) hz3, View.ld_unit_zero (S := S10000x64) hz3]
  iexists _; isplitr
  swap; · iexact H7
  ipureintro
  refine (View.read_writes_eq_canon _ _ _ (cov3_n _ _)).trans ?_
  refine (View.canon_cons_unit_zero (S := S64x1) hz3 _ _ _).trans ?_
  sl_unfold_words
  rw [View.readCov_unit_zero (S := S64x1) _ hz3]
  simp only [View.readAt_eq_ld, View.ld_unit_zero (S := S10000x1) hz3]

set_option maxHeartbeats 1000000 in
/-- The body at a middle point: the two carried buffers, found at a and n, end at a and n plus this point's
    contribution; the other three windows' buffers are not touched. -/
theorem run3_B (c : Dev nD) (E : Set ℕ) (i : grid3.Coords) (hA : ¬cond3_A i) (hC : ¬cond3_C i) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x64 .f32) (harg6 : arg6.IsWhole) (arg7 : Memref sig .tc .vmem S64x1 .f32) (harg7 : arg7.IsWhole)
    (x0 : Vec F S10000x64 .f32) (x1 : Vec F S10000x1 .i32) (a : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg6 fullShare (k3_pay4 x1 x0 a) ∗ owns (c : Thread nD τ) arg7 fullShare (k3_pay5 x1 n)) -∗ K ⟨⟩))
      ⊢ wp frame (wpE (defs₀ (F := F)) Variants.none c none) E (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    refine (View.read_writes_eq_canon _ _ _ (cov3_a _ _)).trans ?_
    refine (View.canon_cons_unit_zero (S := S64x64) hz3 _ _ _).trans ?_
    simp only [View.readAt_eq_ld, View.ld_unit_zero (S := S10000x1) hz3, View.ld_unit_zero (S := S10000x64) hz3, View.ld_unit_zero (S := S64x64) hz3]
  iexists _; isplitr
  swap; · iexact H7
  ipureintro
  refine (View.read_writes_eq_canon _ _ _ (cov3_n _ _)).trans ?_
  refine (View.canon_cons_unit_zero (S := S64x1) hz3 _ _ _).trans ?_
  simp only [View.readAt_eq_ld, View.ld_unit_zero (S := S10000x1) hz3, View.ld_unit_zero (S := S64x1) hz3]

set_option maxHeartbeats 1000000 in
/-- The body at the last point: the carried buffers as at a middle point, and the result's buffer, found at anything,
    ends at the result computed from them, the final weight and the bias row. -/
theorem run3_C (c : Dev nD) (E : Set ℕ) (i : grid3.Coords) (hA : ¬cond3_A i) (hC : cond3_C i) (arg1 : Memref sig .tc .vmem S10000x64 .f32) (harg1 : arg1.IsWhole) (arg2 : Memref sig .tc .vmem S10000x1 .i32) (harg2 : arg2.IsWhole) (arg3 : Memref sig .tc .vmem S64x32 .f32) (harg3 : arg3.IsWhole) (arg4 : Memref sig .tc .vmem S1x32 .f32) (harg4 : arg4.IsWhole) (arg5 : Memref sig .tc .vmem S64x32 .f32) (harg5 : arg5.IsWhole) (arg6 : Memref sig .tc .vmem S64x64 .f32) (harg6 : arg6.IsWhole) (arg7 : Memref sig .tc .vmem S64x1 .f32) (harg7 : arg7.IsWhole)
    (x0 : Vec F S10000x64 .f32) (x1 : Vec F S10000x1 .i32) (x2 : Vec F S64x32 .f32) (x3 : Vec F S1x32 .f32) (a : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k3_pay6 (k3_pay4 x1 x0 a) (k3_pay5 x1 n) x2 x3) ∗ owns (c : Thread nD τ) arg6 fullShare (k3_pay4 x1 x0 a) ∗ owns (c : Thread nD τ) arg7 fullShare (k3_pay5 x1 n)) -∗ K ⟨⟩))
      ⊢ wp frame (wpE (defs₀ (F := F)) Variants.none c none) E (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  subst hf0; subst hf1; subst hf2; subst hf3; subst hf6; subst hf7
  sl_exec (disch := first | exact hA | exact hC)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    refine (View.read_writes_eq_canon _ _ _ (cov3_o _ _)).trans ?_
    refine (View.canon_cons_unit_zero (S := S64x32) hz3 _ _ _).trans ?_
    rw [View.readCov_unit_zero (S := S64x64) _ hz3, View.readCov_unit_zero (S := S64x1) _ hz3]
    simp only [View.readAt_eq_ld, View.ld_unit_zero (S := S10000x1) hz3, View.ld_unit_zero (S := S10000x64) hz3, View.ld_unit_zero (S := S64x64) hz3, View.ld_unit_zero (S := S64x1) hz3, View.ld_unit_zero (S := S64x32) hz3, View.ld_unit_zero (S := S1x32) hz3]
  isplitl [H6]
  · iexists _; isplitr
    swap; · iexact H6
    ipureintro
    sl_unfold_words
    refine (View.read_writes_eq_canon _ _ _ (cov3_a _ _)).trans ?_
    refine (View.canon_cons_unit_zero (S := S64x64) hz3 _ _ _).trans ?_
    simp only [View.readAt_eq_ld, View.ld_unit_zero (S := S10000x1) hz3, View.ld_unit_zero (S := S10000x64) hz3, View.ld_unit_zero (S := S64x64) hz3]
  iexists _; isplitr
  swap; · iexact H7
  ipureintro
  sl_unfold_words
  refine (View.read_writes_eq_canon _ _ _ (cov3_n _ _)).trans ?_
  refine (View.canon_cons_unit_zero (S := S64x1) hz3 _ _ _).trans ?_
  simp only [View.readAt_eq_ld, View.ld_unit_zero (S := S10000x1) hz3, View.ld_unit_zero (S := S64x1) hz3]

set_option maxHeartbeats 1000000 in
/-- The body at any point, by the three cases of its two branches. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  by_cases h0 : t.val % 10 = 0
  · -- the first point: both carried buffers are zeroed, then this point's rows are added
    have hz : t.val = 0 := by omega
    have hAp : cond3_A (grid3.coords t) := (hcond3_A t).mpr h0
    have hCn : ¬cond3_C (grid3.coords t) := fun h => by have := (hcond3_C t).mp h; omega
    rw [Dat.leavesExact_idle (dat3 V c) 4 t (idleAt3_4 t hCn) (noFlush3_4 t hCn)]
    rw [acc3_fst_zero V c t hz, acc3_snd_zero V c t hz]
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, H4⟩
    iapply (run3_A c Set.univ (grid3.coords t) hAp hCn _ _ _ _ _ _ _ _ _ _ _ _ _ _ (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hAn : ¬cond3_A (grid3.coords t) := fun h => h0 ((hcond3_A t).mp h)
    by_cases h1 : t.val % 10 = 9
    · -- the last point: this point's rows are added, then the result is computed and stored
      have hCp : cond3_C (grid3.coords t) := (hcond3_C t).mpr h1
      rw [show (dat3 V c).leavesExact 4 t = owns (c : Thread nD τ) (st3_4 t) fullShare ((dat3 V c).after 4 t) from by
        unfold Dat.leavesExact; rw [liveAt3_4 t hCp], after3_4]
      unfold out3_4
      rw [acc3_fst_pos V c t hz, acc3_snd_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, ⟨%d4, H4⟩⟩
      iapply (run3_C c Set.univ (grid3.coords t) hAn hCp _ _ _ _ _ _ _ _ _ _ _ _ _ _ (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · -- a middle point: this point's rows are added; the result's buffer is handed back untouched
      have hCn : ¬cond3_C (grid3.coords t) := fun h => h1 ((hcond3_C t).mp h)
      rw [Dat.leavesExact_idle (dat3 V c) 4 t (idleAt3_4 t hCn) (noFlush3_4 t hCn)]
      rw [acc3_fst_pos V c t hz, acc3_snd_pos V c t hz]
      rw [PhiS3_castSucc V c t, PhiS3_pos V c _ _ hz]
      iintro ⟨⟨⟨HS0, HS1⟩, Hrest, Hg⟩, Ho, ⟨%d0, H0⟩, ⟨%d1, H1⟩, ⟨%d2, H2⟩, ⟨%d3, H3⟩, H4⟩
      iapply (run3_B c Set.univ (grid3.coords t) hAn hCn _ _ _ _ _ _ _ _ _ _ _ _ _ _ (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the carried contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 10 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HS1⟩, Hrest, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KIRun.lean ====
/-
  The whole program as a chain of segments: three stretches of host operations (the degree normalisation,
  its where-select, the gathers of the edge weights and the reshapes), the first launch, the first propagation,
  the second launch, the second propagation, the third launch and the fourth. Between two segments the core holds
  every unscoped buffer at known contents: a fold from the launch memory (W0 … W9).
-/
import proofs.«413494_j10737418240589_3_alg».proof.Proof.KIReg0
import proofs.«413494_j10737418240589_3_alg».proof.Proof.KIReg1
import proofs.«413494_j10737418240589_3_alg».proof.Proof.KIReg2
import proofs.«413494_j10737418240589_3_alg».proof.Proof.KIReg3
import proofs.«413494_j10737418240589_3_alg».proof.Proof.Gen.KernelIdeal.Regions

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => m (c, b)
/-- After the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h

/-- After the host stretch hostOps0_1. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c r = W1 m c r :=
  StableHlo.after_of_writes_sub hostOps0_1 _ hostOps0_1_writes h

/-- After the host stretch hostOps0_2. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c r = W2 m c r :=
  StableHlo.after_of_writes_sub hostOps0_2 _ hostOps0_2_writes h

/-- After launch 0: its arrays at what the write-backs leave (the inputs as entered), every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- An input window's array is as entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch hostOps1. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h

/-- After launch 1: its arrays at what the write-backs leave (the inputs as entered), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- An input window's array is as entered. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the host stretch hostOps2. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
theorem W7_of (c : Dev nD) (r : Ref sig .tc) (h : r ∉ hostOps2_W) : W7 m c r = W6 m c r :=
  StableHlo.after_of_writes_sub hostOps2 _ hostOps2_writes h

/-- After launch 2: its arrays at what the write-backs leave (the inputs as entered), every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- An input window's array is as entered. -/
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After launch 3: its arrays at what the write-backs leave (the inputs as entered), every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- An input window's array is as entered. -/
theorem W9_in (c : Dev nD) (w : Fin cfg3.W) (hw : (cfg3.win w).isOut = false) :
    W9 m c (Proc.devRef .tc (Pipeline.arrRef spec3 w)) = W8 m c (Proc.devRef .tc (Pipeline.arrRef spec3 w)) :=
  (W9_arr m c w).trans (((dat3 (V8 m) c).arrAt_in w hw _).trans (A_eq3 (V8 m) c w))
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-! ## The arguments end as launched -/

theorem W9_main_arg0 (c : Dev nD) : W9 m c (Proc.devRef .tc main_arg0) = m ((c : Thread nD τ).loc main_arg0) :=
  (W9_of_ne m c main_arg0 (by decide)).trans <| (W8_of_ne m c main_arg0 (by decide)).trans <| (W7_of m c main_arg0 (by decide)).trans <| (W6_in m c 0 rfl).trans <|
    (W5_of m c main_arg0 (by decide)).trans <| (W4_in m c 0 rfl).trans <| (W3_of m c main_arg0 (by decide)).trans <|
    (W2_of m c main_arg0 (by decide)).trans <| (W1_of m c main_arg0 (by decide)).trans rfl
theorem W9_main_arg1 (c : Dev nD) : W9 m c (Proc.devRef .tc main_arg1) = m ((c : Thread nD τ).loc main_arg1) :=
  (W9_of_ne m c main_arg1 (by decide)).trans <| (W8_of_ne m c main_arg1 (by decide)).trans <| (W7_of m c main_arg1 (by decide)).trans <| (W6_of_ne m c main_arg1 (by decide)).trans <|
    (W5_of m c main_arg1 (by decide)).trans <| (W4_of_ne m c main_arg1 (by decide)).trans <| (W3_of m c main_arg1 (by decide)).trans <|
    (W2_of m c main_arg1 (by decide)).trans <| (W1_of m c main_arg1 (by decide)).trans rfl
theorem W9_main_arg2 (c : Dev nD) : W9 m c (Proc.devRef .tc main_arg2) = m ((c : Thread nD τ).loc main_arg2) :=
  (W9_of_ne m c main_arg2 (by decide)).trans <| (W8_of_ne m c main_arg2 (by decide)).trans <| (W7_of m c main_arg2 (by decide)).trans <| (W6_of_ne m c main_arg2 (by decide)).trans <|
    (W5_of m c main_arg2 (by decide)).trans <| (W4_of_ne m c main_arg2 (by decide)).trans <| (W3_of m c main_arg2 (by decide)).trans <|
    (W2_of m c main_arg2 (by decide)).trans <| (W1_of m c main_arg2 (by decide)).trans rfl
theorem W9_main_arg3 (c : Dev nD) : W9 m c (Proc.devRef .tc main_arg3) = m ((c : Thread nD τ).loc main_arg3) :=
  (W9_of_ne m c main_arg3 (by decide)).trans <| (W8_of_ne m c main_arg3 (by decide)).trans <| (W7_of m c main_arg3 (by decide)).trans <| (W6_of_ne m c main_arg3 (by decide)).trans <|
    (W5_of m c main_arg3 (by decide)).trans <| (W4_in m c 1 rfl).trans <| (W3_of m c main_arg3 (by decide)).trans <|
    (W2_of m c main_arg3 (by decide)).trans <| (W1_of m c main_arg3 (by decide)).trans rfl
theorem W9_main_arg4 (c : Dev nD) : W9 m c (Proc.devRef .tc main_arg4) = m ((c : Thread nD τ).loc main_arg4) :=
  (W9_of_ne m c main_arg4 (by decide)).trans <| (W8_of_ne m c main_arg4 (by decide)).trans <| (W7_of m c main_arg4 (by decide)).trans <| (W6_in m c 2 rfl).trans <|
    (W5_of m c main_arg4 (by decide)).trans <| (W4_of_ne m c main_arg4 (by decide)).trans <| (W3_of m c main_arg4 (by decide)).trans <|
    (W2_of m c main_arg4 (by decide)).trans <| (W1_of m c main_arg4 (by decide)).trans rfl
theorem W9_main_arg5 (c : Dev nD) : W9 m c (Proc.devRef .tc main_arg5) = m ((c : Thread nD τ).loc main_arg5) :=
  (W9_of_ne m c main_arg5 (by decide)).trans <| (W8_of_ne m c main_arg5 (by decide)).trans <| (W7_of m c main_arg5 (by decide)).trans <| (W6_of_ne m c main_arg5 (by decide)).trans <|
    (W5_of m c main_arg5 (by decide)).trans <| (W4_of_ne m c main_arg5 (by decide)).trans <| (W3_of m c main_arg5 (by decide)).trans <|
    (W2_of m c main_arg5 (by decide)).trans <| (W1_of m c main_arg5 (by decide)).trans rfl
theorem W9_main_arg6 (c : Dev nD) : W9 m c (Proc.devRef .tc main_arg6) = m ((c : Thread nD τ).loc main_arg6) :=
  (W9_of_ne m c main_arg6 (by decide)).trans <| (W8_of_ne m c main_arg6 (by decide)).trans <| (W7_of m c main_arg6 (by decide)).trans <| (W6_in m c 4 rfl).trans <|
    (W5_of m c main_arg6 (by decide)).trans <| (W4_of_ne m c main_arg6 (by decide)).trans <| (W3_of m c main_arg6 (by decide)).trans <|
    (W2_of m c main_arg6 (by decide)).trans <| (W1_of m c main_arg6 (by decide)).trans rfl
theorem W9_main_arg7 (c : Dev nD) : W9 m c (Proc.devRef .tc main_arg7) = m ((c : Thread nD τ).loc main_arg7) :=
  (W9_of_ne m c main_arg7 (by decide)).trans <| (W8_of_ne m c main_arg7 (by decide)).trans <| (W7_of m c main_arg7 (by decide)).trans <| (W6_in m c 5 rfl).trans <|
    (W5_of m c main_arg7 (by decide)).trans <| (W4_of_ne m c main_arg7 (by decide)).trans <| (W3_of m c main_arg7 (by decide)).trans <|
    (W2_of m c main_arg7 (by decide)).trans <| (W1_of m c main_arg7 (by decide)).trans rfl
theorem W9_main_arg8 (c : Dev nD) : W9 m c (Proc.devRef .tc main_arg8) = m ((c : Thread nD τ).loc main_arg8) :=
  (W9_of_ne m c main_arg8 (by decide)).trans <| (W8_of_ne m c main_arg8 (by decide)).trans <| (W7_of m c main_arg8 (by decide)).trans <| (W6_of_ne m c main_arg8 (by decide)).trans <|
    (W5_of m c main_arg8 (by decide)).trans <| (W4_of_ne m c main_arg8 (by decide)).trans <| (W3_of m c main_arg8 (by decide)).trans <|
    (W2_of m c main_arg8 (by decide)).trans <| (W1_of m c main_arg8 (by decide)).trans rfl
theorem W9_main_arg9 (c : Dev nD) : W9 m c (Proc.devRef .tc main_arg9) = m ((c : Thread nD τ).loc main_arg9) :=
  (W9_in m c 2 rfl).trans <| (W8_of_ne m c main_arg9 (by decide)).trans <| (W7_of m c main_arg9 (by decide)).trans <| (W6_of_ne m c main_arg9 (by decide)).trans <|
    (W5_of m c main_arg9 (by decide)).trans <| (W4_of_ne m c main_arg9 (by decide)).trans <| (W3_of m c main_arg9 (by decide)).trans <|
    (W2_of m c main_arg9 (by decide)).trans <| (W1_of m c main_arg9 (by decide)).trans rfl
theorem W9_main_arg10 (c : Dev nD) : W9 m c (Proc.devRef .tc main_arg10) = m ((c : Thread nD τ).loc main_arg10) :=
  (W9_of_ne m c main_arg10 (by decide)).trans <| (W8_of_ne m c main_arg10 (by decide)).trans <| (W7_of m c main_arg10 (by decide)).trans <| (W6_of_ne m c main_arg10 (by decide)).trans <|
    (W5_of m c main_arg10 (by decide)).trans <| (W4_of_ne m c main_arg10 (by decide)).trans <| (W3_of m c main_arg10 (by decide)).trans <|
    (W2_of m c main_arg10 (by decide)).trans <| (W1_of m c main_arg10 (by decide)).trans rfl

/-! ## The proof data family and the thread state -/

/-- Every launch's proof data, each at its entry contents. -/
def hpdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V8 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W9 m c) ∗ ∃ r, prngReg c r)

/-! ## The launches as segments -/

/-- The fourth launch's class invariant, handed back at its exit, split as the launch theorem takes it. -/
theorem phiA3_out (c : Dev nD) : (Pipeline.ΦA spec3 c : sProp 𝕄) ⊢ iprop((∃ r, prngReg c r) ∗ BI.emp ∗ Pipeline.scopedRest spec3 c) := by
  unfold Pipeline.ΦA
  iintro ⟨Hr, Hp⟩
  isplitl [Hp]; · iexact Hp
  isplitr; · iempintro
  iexact Hr

set_option backward.isDefEq.respectTransparency.types false in
/-- Launch 0 as a segment: entered with every unscoped buffer at the contents before it, left with the launch's
    arrays at what its write-backs made of them and every other buffer as entered. -/
def reg0 : Pipeline.RegionSeg (pcfgs (F := F)) adm (hpdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (hpdats m) launch0.win launch0.arr_whole c
      ((hpdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hpdats m) ((hpdats m 0 c).share_full fun _ => rfl)
      (V3 m c) (V4 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at the contents before it, left with the launch's
    arrays at what its write-backs made of them and every other buffer as entered. -/
def reg1 : Pipeline.RegionSeg (pcfgs (F := F)) adm (hpdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (hpdats m) launch1.win launch1.arr_whole c
      ((hpdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hpdats m) ((hpdats m 1 c).share_full fun _ => rfl)
      (V5 m c) (V6 m c) ((hpdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at the contents before it, left with the launch's
    arrays at what its write-backs made of them and every other buffer as entered. -/
def reg2 : Pipeline.RegionSeg (pcfgs (F := F)) adm (hpdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (hpdats m) launch2.win launch2.arr_whole c
      ((hpdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hpdats m) ((hpdats m 2 c).share_full fun _ => rfl)
      (V7 m c) (V8 m c) ((hpdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: entered with every unscoped buffer at the contents before it, left with the launch's
    arrays at what its write-backs made of them and every other buffer as entered. -/
def reg3 : Pipeline.RegionSeg (pcfgs (F := F)) adm (hpdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (hpdats m) launch3.win launch3.arr_whole c
      ((hpdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    exact (hout3 (V8 m) c).trans (phiA3_out c)
  hexit c := by
    have hjoin := Pipeline.unscopedBufs_of_arrays (p := 3) (pcfgs (F := F)) adm (Ix := Unit) (Name := ℕ) (U := UR sig nD τ) (Lvl := ℕ)
      launch3.win launch3.arr_whole c (hpdats m) ((hpdats m 3 c).share_full fun _ => rfl)
      (V8 m c) (V9 m c) ((hpdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev hsegs : List (Pipeline.Seg (pcfgs (F := F)) adm (hpdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .region (reg3 m) ]

set_option backward.isDefEq.respectTransparency.types false in
/-- Every weakly fair execution of the program from memory m terminates, nothing faulting, and every final memory
    holds every unscoped buffer at the last boundary's contents W9. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (hpdats m) () cellOf_inj emb₁ defs₀ 𝒱₀ L lv m ρ main (hsegs m)
    (fun c Q => by
      rewrite [main_chain c, Pipeline.Seg.run_eq_chain,
        show (hsegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c)⟩) (run_all m ρ)

end Cert.KernelIdeal.Hand

end
-- ==== Proof.Spec.lean ====
/-
  The network as plain functions of extended reals, index by index, over literal shapes:
  100000 nodes with 64 features, 64 graphs, 32 outputs.
-/
import Idealize.ShloMosaic.PureOps.Ideal
import Idealize.ShloMosaic.Lib.ValueIdx

noncomputable section

namespace Cert.Spec

open Idealize.ShloMosaic Idealize.ShloMosaic.ValueIdx

abbrev Sn64 : Shape := ⟨2, ![100000, 64]⟩
abbrev Sn1 : Shape := ⟨2, ![100000, 1]⟩
abbrev S6464 : Shape := ⟨2, ![64, 64]⟩
abbrev S164 : Shape := ⟨2, ![1, 64]⟩
abbrev S6432 : Shape := ⟨2, ![64, 32]⟩
abbrev S132 : Shape := ⟨2, ![1, 32]⟩

/-- Node rows times a 64 x 64 matrix: entry (n, j) is the sum over k of x (n, k) · w (k, j). -/
def mm (x : Sn64.Idx → EReal) (w : S6464.Idx → EReal) : Sn64.Idx → EReal :=
  fun i => ∑ k : Fin 64, x (ix2 (i 0) k) * w (ix2 k (i 1))

/-- One layer's combination: max (agg + x · w_root + b) 0, the bias a 1 x 64 row. -/
def layer (agg x : Sn64.Idx → EReal) (wr : S6464.Idx → EReal) (b : S164.Idx → EReal) : Sn64.Idx → EReal :=
  fun i => max (agg i + mm x wr i + b (ix2 (0 : Fin 1) (i 1))) 0

/-- The second layer's combination from an already projected root term: max (agg + s + b) 0. -/
def layer2 (agg s : Sn64.Idx → EReal) (b : S164.Idx → EReal) : Sn64.Idx → EReal :=
  fun i => max (agg i + s i + b (ix2 (0 : Fin 1) (i 1))) 0

/-- 1 where node n belongs to graph g (its id, a 32-bit word, is g), else 0. -/
def onehot (b : Sn1.Idx → BitVec 32) (n : Fin 100000) (g : Fin 64) : EReal :=
  if b (ix2 n (0 : Fin 1)) = BitVec.ofNat 32 g.val then 1 else 0

/-- Feature d summed over graph g's nodes. -/
def poolSum (h : Sn64.Idx → EReal) (b : Sn1.Idx → BitVec 32) (g d : Fin 64) : EReal :=
  ∑ n : Fin 100000, onehot b n g * h (ix2 n d)

/-- The number of graph g's nodes. -/
def poolCnt (b : Sn1.Idx → BitVec 32) (g : Fin 64) : EReal :=
  ∑ n : Fin 100000, onehot b n g

/-- The result: each graph's mean row (sum over max count 1) times the final weight, plus the bias row. -/
def poolOut (h : Sn64.Idx → EReal) (b : Sn1.Idx → BitVec 32) (fcw : S6432.Idx → EReal) (fcb : S132.Idx → EReal) : S6432.Idx → EReal :=
  fun i => (∑ d : Fin 64, Ideal.div (poolSum h b (i 0) d) (max (poolCnt b (i 0)) 1) * fcw (ix2 d (i 1))) + fcb (ix2 (0 : Fin 1) (i 1))

end Cert.Spec

end
-- ==== Proof.KIVal0.lean ====
/-
  The first launch's value at the ideal instance (floats are extended reals, every operation exact).
  The output array after the launch is the product of the node features with the weight matrix:
  entry (n, j) is the sum over k of x (n, k) · w (k, j). First the product tile at an index (a matrix product
  into a zero accumulator is the plain sum over the contracted axis; narrowing is the identity), then what each
  grid point writes back as a block of that one whole-array function, then the cover: row r lies in block r / 10000.
-/
import proofs.«413494_j10737418240589_3_alg».proof.Proof.KIReg0
import proofs.«413494_j10737418240589_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
/-! ## The product tile at an index -/

theorem lhs_tile_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_tile_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_tile_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_tile_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of the product tile: the sum over k of x0 (p, k) · x1 (k, q). The narrowing of both operands is
    the identity on extended reals and the accumulator is zero. -/
theorem pay_tile_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]
  rfl

variable (V : (c : Dev nD) → (b : Ref sig .tc) → Buf (Elt Ideal) ((c : Thread nD τ).loc b))

/-- The same at any index of the tile. -/
theorem pay_tile_apply' (x0 : Vec Ideal S10000x64 .f32) (x1 : Vec Ideal S64x64 .f32) (j : S10000x64.Idx) :
    k0_pay1 x0 x1 j = ∑ k : Fin 64, x0 (ix2 (j 0) k) * x1 (ix2 k (j 1)) := by
  obtain ⟨p, q, rfl⟩ : ∃ (p : Fin 10000) (q : Fin 64), j = ix2 p q := ⟨j 0, j 1, eq_ix2 j⟩
  exact pay_tile_apply x0 x1 p q

/-! ## From the tiles to the array -/

theorem hz0 : (![0, 0] : Fin 2 → Nat) = fun _ => 0 := funext fun a => by fin_cases a <;> rfl

/-- The printed index maps over the grid: the feature tile and the product tile are block (t, 0), the weight block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature tile at point t is rows 10000 t … 10000 t + 9999 of the features. -/
theorem iblk0_0_apply (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_arg0 : S100000x64.Idx → EReal) i := by
  obtain ⟨e0, e1, -⟩ := idx_facts0 t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The weight's block at every point is the weight. -/
theorem iblk0_1_apply (c : Dev nD) (t : Fin cfg0.N) (y : S64x64.Idx) :
    (iblk0 V c 1 t : Vec Ideal S64x64 .f32) y = (V c main_arg3 : S64x64.Idx → EReal) y := by
  obtain ⟨-, -, e2, e3, -⟩ := idx_facts0 t
  unfold iblk0
  rw [View.read_apply]
  show V c main_arg3 (((cfg0.win 1).blk t).view.emb y) = V c main_arg3 y
  congr 1
  funext a
  apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- What point t writes back is block t of the product of the two whole arrays. -/
theorem flushed0_eq (c : Dev nD) (t : Fin cfg0.N) :
    (dat0 (F := Ideal) V c).flushed 2 t = ((cfg0.win 2).blk t).view.read (Elt Ideal) (Spec.mm (V c main_arg0) (V c main_arg3)) := by
  show (cfg0.win 2).cut (grid0.coords t) ((dat0 V c).after 2 t) = _
  rw [after0_2]
  unfold out0_2
  rw [View.canon_unit_zero hz0]
  simp only [View.ld_unit_zero (S := S10000x64) hz0, View.ld_unit_zero (S := S64x64) hz0]
  obtain ⟨-, -, -, -, e4, e5⟩ := idx_facts0 t
  funext j
  show k0_pay1 (iblk0 V c 0 t) (iblk0 V c 1 t) j = Spec.mm (V c main_arg0) (V c main_arg3) (((cfg0.win 2).blk t).view.emb j)
  refine (pay_tile_apply' _ _ j).trans ?_
  unfold Spec.mm
  refine Finset.sum_congr rfl fun k _ => ?_
  have hr : ((((cfg0.win 2).blk t).view.emb j) 0).val = 10000 * t.val + (j 0).val := by
    show win0_2.index t (0 : Fin 2) * 10000 + 1 * (j 0).val = _; omega
  have hc : ((((cfg0.win 2).blk t).view.emb j) 1).val = (j 1).val := by
    show win0_2.index t (1 : Fin 2) * 64 + 1 * (j 1).val = _; omega
  refine congrArg₂ (· * ·) (iblk0_0_apply V c t _ _ hr rfl) ((iblk0_1_apply V c t _).trans (congrArg _ ?_))
  funext a
  match a with
  | ⟨0, _⟩ => rfl
  | ⟨1, _⟩ => exact Fin.ext hc.symm

/-- An index of the array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Row r is in the block of point r / 10000, and every point writes back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the launch: entry (n, j) is the sum over k of x (n, k) · w (k, j). -/
theorem final0 (c : Dev nD) :
    ((dat0 (F := Ideal) V c).arrAt 2 cfg0.N : Spec.Sn64.Idx → EReal) = Spec.mm (V c main_arg0) (V c main_arg3) :=
  (dat0 (F := Ideal) V c).arrAt_eq_of_cover 2 (Spec.mm (V c main_arg0) (V c main_arg3)) (fun t _ => flushed0_eq V c t) (cover0)

end Cert.KernelIdeal.Hand

end
-- ==== Proof.KIVal1.lean ====
/-
  The second launch's values at the ideal instance, index by index.
  With h (n, j) = max (agg (n, j) + (∑ k, x (n, k) · w_root (k, j)) + b (0, j)) 0 over the arrays the launch finds,
  its two output arrays end holding h · w2_init and h · w2_root.
  A 10000 x 64 tile times a 64 x 64 matrix is read at an index as the sum over the contracted coordinate; a row of a
  tile depends on that row of the inputs only, so point t's tile is rows [10000 t, 10000 (t+1)) of the whole product;
  the ten tiles cover the array.
-/
import proofs.«413494_j10737418240589_3_alg».proof.Proof.KIReg1
import proofs.«413494_j10737418240589_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val1

/-! ## A tile times a 64 x 64 matrix, read at an index -/

theorem lhs_tile_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_tile_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_tile_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_tile_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000 x 64 tile times a 64 x 64 matrix into the zero accumulator: entry (p, q) is the sum over k of
    x (p, k) · w (k, q), whatever the operands' formats. -/
theorem mm_tile_apply {φ₁ φ₂ : FTy} (x : FVec Ideal S10000x64 φ₁) (w : FVec Ideal S64x64 φ₂) (p : Fin 10000) (q : Fin 64) :
    matmul (F := Ideal) dot_S10000x64_S64x64_S10000x64_1_0_0_1_n_n none x w (constant S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]

/-! ## The first layer's rows -/

theorem hz : (![0, 0] : Fin 2 → Nat) = fun _ => 0 := funext fun a => by fin_cases a <;> rfl

/-- The bias row broadcast down a tile reads the row's entry of the same column. -/
theorem bias_bcast_apply (b : S1x64.Idx → EReal) (h : S1x64.Broadcasts S10000x64) (p : Fin 10000) (q : Fin 64) :
    broadcastTo S10000x64 b h (ix2 p q) = b (ix2 (0 : Fin 1) q) := by
  refine broadcastTo_apply b h (ix2 p q) (ix2 (0 : Fin 1) q) fun a => ?_
  match a with
  | ⟨0, _⟩ => rfl
  | ⟨1, _⟩ => rfl

/-- Entry (p, q) of the first layer's tile: max (agg + x · w_root + b) 0 on that row. -/
theorem pay1_apply (v0 : Vec Ideal S10000x64 .f32) (v2 : Vec Ideal S64x64 .f32) (v5 : Vec Ideal S10000x64 .f32) (v8 : Vec Ideal S1x64 .f32)
    (p : Fin 10000) (q : Fin 64) :
    k1_pay1 (F := Ideal) v0 v2 v5 v8 (ix2 p q)
      = max (v5 (ix2 p q) + (∑ k : Fin 64, v0 (ix2 p k) * v2 (ix2 k q)) + v8 (ix2 (0 : Fin 1) q)) 0 := by
  unfold k1_pay1
  simp only [truncf_apply, maximumf_apply, addf_apply, broadcast_apply, shapeCast_self, bias_bcast_apply, mm_tile_apply,
    Ideal.ofBits_def, Ideal.ofBits_zero_f32]

/-- Entry (p, q) of a projected tile: the first layer's row p against column q of the weight. -/
theorem pay2_apply (v0 : Vec Ideal S10000x64 .f32) (v2 : Vec Ideal S64x64 .f32) (v5 : Vec Ideal S10000x64 .f32) (v8 : Vec Ideal S1x64 .f32)
    (v15 : Vec Ideal S64x64 .f32) (p : Fin 10000) (q : Fin 64) :
    k1_pay2 (F := Ideal) v0 v2 v5 v8 v15 (ix2 p q) = ∑ k : Fin 64, k1_pay1 (F := Ideal) v0 v2 v5 v8 (ix2 p k) * v15 (ix2 k q) := by
  unfold k1_pay2
  simp only [mm_tile_apply, truncf_apply]

/-- The two projections are one function of their weight. -/
theorem pay3_eq_pay2 (v0 : Vec Ideal S10000x64 .f32) (v2 : Vec Ideal S64x64 .f32) (v5 : Vec Ideal S10000x64 .f32) (v8 : Vec Ideal S1x64 .f32)
    (v17 : Vec Ideal S64x64 .f32) : k1_pay3 (F := Ideal) v0 v2 v5 v8 v17 = k1_pay2 (F := Ideal) v0 v2 v5 v8 v17 := rfl

/-! ## A tile of the network's function -/

theorem mm_ix2 (f : Spec.Sn64.Idx → EReal) (w : Spec.S6464.Idx → EReal) (a : Fin 100000) (q : Fin 64) :
    Spec.mm f w (ix2 a q) = ∑ k : Fin 64, f (ix2 a k) * w (ix2 k q) := rfl
theorem layer_ix2 (agg x : Spec.Sn64.Idx → EReal) (wr : Spec.S6464.Idx → EReal) (b : Spec.S164.Idx → EReal) (a : Fin 100000) (q : Fin 64) :
    Spec.layer agg x wr b (ix2 a q) = max (agg (ix2 a q) + (∑ k : Fin 64, x (ix2 a k) * wr (ix2 k q)) + b (ix2 (0 : Fin 1) q)) 0 := rfl

/-- A row of a tile depends on that row of the inputs only: when the tile's rows are the rows r p of the arrays, the projected
    tile is the rows r p of the projected first layer. -/
theorem tile_mm_layer (agg x : Spec.Sn64.Idx → EReal) (wr : Spec.S6464.Idx → EReal) (b : Spec.S164.Idx → EReal) (w : Spec.S6464.Idx → EReal)
    (v0 v5 : Vec Ideal S10000x64 .f32) (v2 : Vec Ideal S64x64 .f32) (v8 : Vec Ideal S1x64 .f32) (v15 : Vec Ideal S64x64 .f32)
    (r : Fin 10000 → Fin 100000)
    (h0 : ∀ p k, v0 (ix2 p k) = x (ix2 (r p) k)) (h5 : ∀ p k, v5 (ix2 p k) = agg (ix2 (r p) k))
    (h2 : ∀ k q, v2 (ix2 k q) = wr (ix2 k q)) (h8 : ∀ q, v8 (ix2 (0 : Fin 1) q) = b (ix2 (0 : Fin 1) q))
    (h15 : ∀ k q, v15 (ix2 k q) = w (ix2 k q)) (p : Fin 10000) (q : Fin 64) :
    k1_pay2 (F := Ideal) v0 v2 v5 v8 v15 (ix2 p q) = Spec.mm (Spec.layer agg x wr b) w (ix2 (r p) q) := by
  rw [pay2_apply, mm_ix2]
  refine Finset.sum_congr rfl fun k _ => ?_
  rw [pay1_apply, layer_ix2, h5, h8, h15]
  simp only [h0, h2]

/-! ## From the tiles to the arrays -/

variable (V : (c : Dev nD) → (b : Ref sig .tc) → Buf (Elt Ideal) ((c : Thread nD τ).loc b))

/-- The windows' block indices over the grid: the row tiles move with the point, the weights and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem lt_N1 (t : Fin cfg1.N) : t.val < 10 := lt_of_lt_of_eq t.isLt N_1

/-- Row p of point t's tile is row 10000 t + p of the array. -/
def rowOf (t : Fin cfg1.N) (p : Fin 10000) : Fin 100000 :=
  ⟨t.val * 10000 + p.val, by have := lt_N1 t; have := p.isLt; omega⟩

theorem iblk1_0_apply (c : Dev nD) (t : Fin cfg1.N) (p : Fin 10000) (k : Fin 64) :
    (iblk1 V c 0 t : Vec Ideal S10000x64 .f32) (ix2 p k) = V c main_arg0 (ix2 (rowOf t p) k) := by
  obtain ⟨e00, e01, -⟩ := idx_facts1 t
  show V c main_arg0 (((cfg1.win 0).blk t).view.emb (ix2 p k)) = V c main_arg0 (ix2 (rowOf t p) k)
  refine congrArg (V c main_arg0) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

theorem iblk1_1_apply (c : Dev nD) (t : Fin cfg1.N) (p : Fin 10000) (k : Fin 64) :
    (iblk1 V c 1 t : Vec Ideal S10000x64 .f32) (ix2 p k) = V c main_v46 (ix2 (rowOf t p) k) := by
  obtain ⟨-, -, e10, e11, -⟩ := idx_facts1 t
  show V c main_v46 (((cfg1.win 1).blk t).view.emb (ix2 p k)) = V c main_v46 (ix2 (rowOf t p) k)
  refine congrArg (V c main_v46) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

theorem iblk1_2_apply (c : Dev nD) (t : Fin cfg1.N) (k q : Fin 64) :
    (iblk1 V c 2 t : Vec Ideal S64x64 .f32) (ix2 k q) = V c main_arg4 (ix2 k q) := by
  obtain ⟨-, -, -, -, e20, e21, -⟩ := idx_facts1 t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

theorem iblk1_3_apply (c : Dev nD) (t : Fin cfg1.N) (q : Fin 64) :
    (iblk1 V c 3 t : Vec Ideal S1x64 .f32) (ix2 (0 : Fin 1) q) = V c main_v29 (ix2 (0 : Fin 1) q) := by
  obtain ⟨-, -, -, -, -, -, e30, e31, -⟩ := idx_facts1 t
  show V c main_v29 (((cfg1.win 3).blk t).view.emb (ix2 (0 : Fin 1) q)) = V c main_v29 (ix2 (0 : Fin 1) q)
  refine congrArg (V c main_v29) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

theorem iblk1_4_apply (c : Dev nD) (t : Fin cfg1.N) (k q : Fin 64) :
    (iblk1 V c 4 t : Vec Ideal S64x64 .f32) (ix2 k q) = V c main_arg6 (ix2 k q) := by
  obtain ⟨-, -, -, -, -, -, -, -, e40, e41, -⟩ := idx_facts1 t
  show V c main_arg6 (((cfg1.win 4).blk t).view.emb (ix2 k q)) = V c main_arg6 (ix2 k q)
  refine congrArg (V c main_arg6) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

theorem iblk1_5_apply (c : Dev nD) (t : Fin cfg1.N) (k q : Fin 64) :
    (iblk1 V c 5 t : Vec Ideal S64x64 .f32) (ix2 k q) = V c main_arg7 (ix2 k q) := by
  obtain ⟨-, -, -, -, -, -, -, -, -, -, e50, e51, -⟩ := idx_facts1 t
  show V c main_arg7 (((cfg1.win 5).blk t).view.emb (ix2 k q)) = V c main_arg7 (ix2 k q)
  refine congrArg (V c main_arg7) (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-- The first layer of the arrays the launch finds, projected by a weight. -/
abbrev proj1 (c : Dev nD) (w : Spec.S6464.Idx → EReal) : Spec.Sn64.Idx → EReal :=
  Spec.mm (Spec.layer (V c main_v46) (V c main_arg0) (V c main_arg4) (V c main_v29)) w

/-- Point t's projected tile, at any index of the tile, is the projected first layer at that index's row of the array. -/
theorem tile1_apply (c : Dev nD) (t : Fin cfg1.N) (w : Spec.S6464.Idx → EReal) (v15 : Vec Ideal S64x64 .f32)
    (h15 : ∀ k q, v15 (ix2 k q) = w (ix2 k q)) (y : S10000x64.Idx) :
    k1_pay2 (F := Ideal) (iblk1 V c 0 t) (iblk1 V c 2 t) (iblk1 V c 1 t) (iblk1 V c 3 t) v15 y
      = proj1 V c w (ix2 (rowOf t (y 0)) (y 1)) := by
  obtain ⟨p, q, rfl⟩ : ∃ (p : Fin 10000) (q : Fin 64), y = ix2 p q := ⟨y 0, y 1, eq_ix2 y⟩
  exact tile_mm_layer (V c main_v46) (V c main_arg0) (V c main_arg4) (V c main_v29) w _ _ _ _ v15 (rowOf t)
    (iblk1_0_apply V c t) (iblk1_1_apply V c t) (iblk1_2_apply V c t) (iblk1_3_apply V c t) h15 p q

/-- What point t writes back to window 6's array is its tile of the projected first layer. -/
theorem flushed1_6_eq (c : Dev nD) (t : Fin cfg1.N) :
    (dat1 (F := Ideal) V c).flushed 6 t = ((cfg1.win 6).blk t).view.read (Elt Ideal) (proj1 V c (V c main_arg6)) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  obtain ⟨-, -, -, -, -, -, -, -, -, -, -, -, e60, e61, e70, e71⟩ := idx_facts1 t
  funext j
  show k1_pay2 (F := Ideal) (iblk1 V c 0 t) (iblk1 V c 2 t) (iblk1 V c 1 t) (iblk1 V c 3 t) (iblk1 V c 4 t) j
    = proj1 V c (V c main_arg6) (((cfg1.win 6).blk t).view.emb j)
  refine (tile1_apply V c t (V c main_arg6) (iblk1 V c 4 t) (iblk1_4_apply V c t) j).trans ?_
  refine congrArg (proj1 V c (V c main_arg6)) (funext fun a => Fin.ext ?_)
  match a with
  | ⟨0, _⟩ => show t.val * 10000 + (j 0).val = win1_6.index t (0 : Fin 2) * 10000 + 1 * (j 0).val; omega
  | ⟨1, _⟩ => show (j 1).val = win1_6.index t (1 : Fin 2) * 64 + 1 * (j 1).val; omega

/-- An index of the array is in point t's tile iff each coordinate is in the tile's range on its axis. -/
theorem mem_blk1_6 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v47_0).slice (win1_6.rect t)).set ↔ _
  rw [View.set_slice_whole, Rect.mem_set_unit]
  exact Iff.rfl

/-- The ten tiles cover the array: row n is in the tile of point n / 10000. -/
theorem cover1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega : (i 0).val / 10000 < 10) N_1.symm⟩, rfl⟩
  obtain ⟨-, -, -, -, -, -, -, -, -, -, -, -, e60, e61, e70, e71⟩ := idx_facts1 t
  refine ⟨t, flush1_6 t, ?_⟩
  rw [mem_blk1_6]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- What point t writes back to window 7's array is its tile of the projected first layer. -/
theorem flushed1_7_eq (c : Dev nD) (t : Fin cfg1.N) :
    (dat1 (F := Ideal) V c).flushed 7 t = ((cfg1.win 7).blk t).view.read (Elt Ideal) (proj1 V c (V c main_arg7)) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x64) hz, View.ld_unit_zero (S := S1x64) hz]
  obtain ⟨-, -, -, -, -, -, -, -, -, -, -, -, e60, e61, e70, e71⟩ := idx_facts1 t
  funext j
  show k1_pay2 (F := Ideal) (iblk1 V c 0 t) (iblk1 V c 2 t) (iblk1 V c 1 t) (iblk1 V c 3 t) (iblk1 V c 5 t) j
    = proj1 V c (V c main_arg7) (((cfg1.win 7).blk t).view.emb j)
  refine (tile1_apply V c t (V c main_arg7) (iblk1 V c 5 t) (iblk1_5_apply V c t) j).trans ?_
  refine congrArg (proj1 V c (V c main_arg7)) (funext fun a => Fin.ext ?_)
  match a with
  | ⟨0, _⟩ => show t.val * 10000 + (j 0).val = win1_7.index t (0 : Fin 2) * 10000 + 1 * (j 0).val; omega
  | ⟨1, _⟩ => show (j 1).val = win1_7.index t (1 : Fin 2) * 64 + 1 * (j 1).val; omega

/-- An index of the array is in point t's tile iff each coordinate is in the tile's range on its axis. -/
theorem mem_blk1_7 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v47_1).slice (win1_7.rect t)).set ↔ _
  rw [View.set_slice_whole, Rect.mem_set_unit]
  exact Iff.rfl

/-- The ten tiles cover the array: row n is in the tile of point n / 10000. -/
theorem cover1_7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega : (i 0).val / 10000 < 10) N_1.symm⟩, rfl⟩
  obtain ⟨-, -, -, -, -, -, -, -, -, -, -, -, e60, e61, e70, e71⟩ := idx_facts1 t
  refine ⟨t, flush1_7 t, ?_⟩
  rw [mem_blk1_7]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 64 ≤ (i 1).val ∧ (i 1).val < win1_7.index t (1 : Fin 2) * 64 + 64; omega

end Val1

open Val1

/-! ## The two output arrays after the launch -/

variable (V : (c : Dev nD) → (b : Ref sig .tc) → Buf (Elt Ideal) ((c : Thread nD τ).loc b))

/-- Window 6's array after the launch: the first layer of the arrays the launch finds, times the second layer's initial weight. -/
theorem final1_6 (c : Dev nD) :
    ((dat1 (F := Ideal) V c).arrAt 6 cfg1.N : Spec.Sn64.Idx → EReal)
      = Spec.mm (Spec.layer (V c main_v46) (V c main_arg0) (V c main_arg4) (V c main_v29)) (V c main_arg6) :=
  (dat1 (F := Ideal) V c).arrAt_eq_of_cover 6 (proj1 V c (V c main_arg6)) (fun t _ => flushed1_6_eq V c t) (cover1_6)

/-- Window 7's array after the launch: the first layer of the arrays the launch finds, times the second layer's root weight. -/
theorem final1_7 (c : Dev nD) :
    ((dat1 (F := Ideal) V c).arrAt 7 cfg1.N : Spec.Sn64.Idx → EReal)
      = Spec.mm (Spec.layer (V c main_v46) (V c main_arg0) (V c main_arg4) (V c main_v29)) (V c main_arg7) :=
  (dat1 (F := Ideal) V c).arrAt_eq_of_cover 7 (proj1 V c (V c main_arg7)) (fun t _ => flushed1_7_eq V c t) (cover1_7)

end Cert.KernelIdeal.Hand

end
-- ==== Proof.KIVal2.lean ====
/-
  The third launch at the ideal values: what it leaves in its output array, index by index.
  Entry (n, j) of the written array is max (agg (n, j) + s (n, j) + b (0, j)) 0, where agg, s, b are the second
  aggregate, the root projection and the bias row as the launch finds them: every operation of the body is pointwise
  but the bias row's broadcast over the rows, the 10 tiles of 10000 rows fill the array, and tile t of the result is
  the body's tile at point t.
-/
import proofs.«413494_j10737418240589_3_alg».proof.Proof.KIReg2
import proofs.«413494_j10737418240589_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The body's tile at an index -/

theorem zeros2 : (![0, 0] : Fin 2 → Nat) = fun _ => 0 := funext fun a => by fin_cases a <;> rfl

/-- The tile at (p, q): the two row tiles added, the bias row's entry q added, the maximum with 0. The casts to the
    same shape are identities, the broadcast of the 1 x 64 row reads its one row, the literal is the real 0. -/
theorem pay2_apply (x0 x1 : Vec Ideal S10000x64 .f32) (x2 : Vec Ideal S1x64 .f32) (p : Fin 10000) (q : Fin 64) :
    k2_pay1 x0 x1 x2 (ix2 p q) = max (x0 (ix2 p q) + x1 (ix2 p q) + x2 (ix2 (0 : Fin 1) q)) 0 := by
  unfold k2_pay1
  rw [maximumf_apply, addf_apply, addf_apply, broadcast_apply, shapeCast_self, shapeCast_self, shapeCast_self,
    broadcastTo_1b_ab_apply]
  rw [show (Scalar.ofBits .f32 0x00000000#32 : Ideal .f32) = 0 from Ideal.ofBits_zero_f32]

/-! ## The windows' blocks as rows of their arrays -/

/-- The printed index maps over the grid: the row tiles sit at block (t, 0), the bias row at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregate's block at point t is rows 10000 t … 10000 t + 9999 of the aggregate. -/
theorem iblk2_0_apply (c : Dev nD) (t : Fin cfg2.N) (y : S10000x64.Idx) (k : S100000x64.Idx)
    (hk0 : (k 0).val = t.val * 10000 + (y 0).val) (hk1 : (k 1).val = (y 1).val) :
    (iblk2 V c 0 t : Vec Ideal S10000x64 .f32) y = (V c main_v60 : S100000x64.Idx → EReal) k := by
  obtain ⟨e0, e1, -⟩ := idx_facts2 t
  unfold iblk2
  show V c main_v60 (((cfg2.win 0).blk t).view.emb y) = V c main_v60 k
  congr 1
  funext a; apply Fin.ext
  match a with
  | ⟨0, _⟩ => show win2_0.index t (0 : Fin 2) * 10000 + 1 * (y 0).val = (k 0).val; omega
  | ⟨1, _⟩ => show win2_0.index t (1 : Fin 2) * 64 + 1 * (y 1).val = (k 1).val; omega

/-- The root projection's block at point t is the same rows of the root projection. -/
theorem iblk2_1_apply (c : Dev nD) (t : Fin cfg2.N) (y : S10000x64.Idx) (k : S100000x64.Idx)
    (hk0 : (k 0).val = t.val * 10000 + (y 0).val) (hk1 : (k 1).val = (y 1).val) :
    (iblk2 V c 1 t : Vec Ideal S10000x64 .f32) y = (V c main_v47_1 : S100000x64.Idx → EReal) k := by
  obtain ⟨-, -, e0, e1, -⟩ := idx_facts2 t
  unfold iblk2
  show V c main_v47_1 (((cfg2.win 1).blk t).view.emb y) = V c main_v47_1 k
  congr 1
  funext a; apply Fin.ext
  match a with
  | ⟨0, _⟩ => show win2_1.index t (0 : Fin 2) * 10000 + 1 * (y 0).val = (k 0).val; omega
  | ⟨1, _⟩ => show win2_1.index t (1 : Fin 2) * 64 + 1 * (y 1).val = (k 1).val; omega

/-- The bias row's block at every point is the bias row. -/
theorem iblk2_2_apply (c : Dev nD) (t : Fin cfg2.N) (y : S1x64.Idx) (k : S1x64.Idx)
    (hk0 : (k 0).val = (y 0).val) (hk1 : (k 1).val = (y 1).val) :
    (iblk2 V c 2 t : Vec Ideal S1x64 .f32) y = (V c main_v30 : S1x64.Idx → EReal) k := by
  obtain ⟨-, -, -, -, e0, e1, -⟩ := idx_facts2 t
  unfold iblk2
  show V c main_v30 (((cfg2.win 2).blk t).view.emb y) = V c main_v30 k
  congr 1
  funext a; apply Fin.ext
  match a with
  | ⟨0, _⟩ => show win2_2.index t (0 : Fin 2) * 1 + 1 * (y 0).val = (k 0).val; omega
  | ⟨1, _⟩ => show win2_2.index t (1 : Fin 2) * 64 + 1 * (y 1).val = (k 1).val; omega

/-! ## What each point writes back -/

/-- Point t writes back block t of the layer's function of the three arrays. -/
theorem flushed2_3_eq (c : Dev nD) (t : Fin cfg2.N) :
    (dat2 V c).flushed 3 t
      = ((cfg2.win 3).blk t).view.read (Elt Ideal) (Spec.layer2 (V c main_v60) (V c main_v47_1) (V c main_v30)) := by
  show (cfg2.win 3).cut (grid2.coords t) ((dat2 V c).after 3 t) = _
  rw [after2_3]
  unfold out2_3
  rw [View.canon_unit_zero zeros2]
  simp only [View.ld_unit_zero (S := S10000x64) zeros2, View.ld_unit_zero (S := S1x64) zeros2]
  obtain ⟨-, -, -, -, -, -, e0, e1⟩ := idx_facts2 t
  funext j
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (ix2 p q)
    = Spec.layer2 (V c main_v60) (V c main_v47_1) (V c main_v30) (((cfg2.win 3).blk t).view.emb (ix2 p q))
  refine (pay2_apply (iblk2 V c 0 t) (iblk2 V c 1 t) (iblk2 V c 2 t) p q).trans ?_
  have r0 : ((((cfg2.win 3).blk t).view.emb (ix2 p q)) 0).val = t.val * 10000 + p.val := by
    show win2_3.index t (0 : Fin 2) * 10000 + 1 * p.val = _; omega
  have r1 : ((((cfg2.win 3).blk t).view.emb (ix2 p q)) 1).val = q.val := by
    show win2_3.index t (1 : Fin 2) * 64 + 1 * q.val = _; omega
  have h0 := iblk2_0_apply V c t (ix2 p q) (((cfg2.win 3).blk t).view.emb (ix2 p q)) r0 r1
  have h1 := iblk2_1_apply V c t (ix2 p q) (((cfg2.win 3).blk t).view.emb (ix2 p q)) r0 r1
  have h2 := iblk2_2_apply V c t (ix2 (0 : Fin 1) q) (ix2 (0 : Fin 1) ((((cfg2.win 3).blk t).view.emb (ix2 p q)) 1)) rfl r1
  unfold Spec.layer2
  rw [h0, h1, h2]

/-! ## The tiles fill the array -/

/-- An index of the array is in point t's block iff each coordinate is in the block's range on its axis. -/
theorem mem_blk2_3 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v61).slice (win2_3.rect t)).set ↔ _
  rw [View.set_slice_whole, Rect.mem_set_unit]
  exact Iff.rfl

/-- Row r is in the block of point r / 10000, and every point writes back. -/
theorem cover2_3 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, e0, e1⟩ := idx_facts2 t
  refine ⟨t, flush2_3 t, ?_⟩
  rw [mem_blk2_3]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-! ## The array after the launch -/

/-- The output array after the launch is the second layer's combination of the three arrays the launch finds. -/
theorem final2 (c : Dev nD) :
    ((dat2 (F := Ideal) V c).arrAt 3 cfg2.N : Spec.Sn64.Idx → EReal)
      = Spec.layer2 (V c main_v60) (V c main_v47_1) (V c main_v30) :=
  (dat2 V c).arrAt_eq_of_cover 3 (Spec.layer2 (V c main_v60) (V c main_v47_1) (V c main_v30))
    (fun t _ => flushed2_3_eq V c t) cover2_3

end Cert.KernelIdeal.Hand

end
-- ==== Proof.KIVal3Pay.lean ====
/-
  The fourth launch's payloads at the exact (extended-real) instance, read index by index:
  the one-hot matrix of a tile's graph ids (1 where row k's id is g, else 0); the zeroed sum and count;
  the sum's step (what it held plus the one-hot matrix, transposed, times the tile's rows); the count's step
  (what it held plus the one-hot matrix, transposed, times a column of ones); the finish (sum over max count 1,
  times the final weight, plus the bias row). Each contraction is a plain finite sum; the casts between float
  formats are the identity here, and a cast to the same shape is the identity.
-/
import proofs.«413494_j10737418240589_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.Tactic
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The one-hot matrix of a tile's graph ids -/

/-- A comparison's bit, widened to a word and converted signed, is 1 where the words agree and 0 elsewhere. -/
theorem sitofp_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  rw [toInt_setWidth_bit]
  by_cases h : x = y
  · subst h
    rw [if_pos rfl, show IntOp.cmpi .eq x x = 1#1 by simp [IntOp.cmpi]]
    norm_num
  · rw [if_neg h, show IntOp.cmpi .eq x y = 0#1 by
      unfold IntOp.cmpi
      rw [show (x == y) = false from beq_eq_false_iff_ne.mpr h]; rfl]
    norm_num

/-- Entry (k, g) of the one-hot matrix: 1 where row k's graph id is g, else 0. -/
theorem onehot_apply (b : Vec Ideal S10000x1 .i32) (k : Fin 10000) (g : Fin 64) :
    (k3_pay3 (F := Ideal) b) (ix2 k g) = if b (ix2 k (0 : Fin 1)) = BitVec.ofNat 32 g.val then 1 else 0 := by
  unfold k3_pay3
  dsimp only
  rw [truncf_apply, sitofp_apply, extui_apply]
  show FloatOps.sitofp (F := Ideal) .f32 ((IntOp.cmpi .eq (broadcastTo S10000x64 (shapeCast S10000x1 b shapeCasts_S10000x1_S10000x1) broadcasts_S10000x1_S10000x64 (ix2 k g)) (iota .tc S10000x64 32 [1] iota_S10000x64_d1_w32 (ix2 k g))).setWidth 32) = _
  rw [shapeCast_self, iota_single_apply, broadcastTo_apply b broadcasts_S10000x1_S10000x64 (ix2 k g) (ix2 k (0 : Fin 1)) (fun a => by
    match a with
    | ⟨0, _⟩ => rfl
    | ⟨1, _⟩ => rfl)]
  exact sitofp_cmpi_eq _ _

/-! ## The two zeroed buffers -/

theorem zeroSum_apply (i : S64x64.Idx) : (k3_pay1 (F := Ideal)) i = 0 := by
  unfold k3_pay1
  rw [shapeCast_self]
  show Ideal.ofBits .f32 0x00000000#32 = 0
  exact Ideal.ofBits_zero_f32

theorem zeroCnt_apply (i : S64x1.Idx) : (k3_pay2 (F := Ideal)) i = 0 := by
  unfold k3_pay2
  rw [shapeCast_self]
  show Ideal.ofBits .f32 0x00000000#32 = 0
  exact Ideal.ofBits_zero_f32

/-! ## A product contracting both operands' rows, read at an index -/

theorem lhs_rowsum_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs_rowsum_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs_rowsum_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs_rowsum_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- Entry (g, d) of the product of a 10000 x 64 matrix, transposed, with a 10000 x 64 matrix: the sum over rows. -/
theorem rowsum_matmul_apply (A B : FVec Ideal S10000x64 .bf16) (g d : Fin 64) :
    (matmul dot_S10000x64_S10000x64_S64x64_0_0_1_1_n_n none A B (constant S64x64 .f32 0x00000000#32)) (ix2 g d)
      = ∑ k : Fin 10000, A (ix2 k g) * B (ix2 k d) := by
  simp only [matmul]
  rw [Ideal.matmul_constant_zero_apply, ← Equiv.sum_comp (contrEquiv1 dot_S10000x64_S10000x64_S64x64_0_0_1_1_n_n 10000 rfl rfl).symm]
  refine Finset.sum_congr rfl fun k _ => ?_
  have hk := contrEquiv1_symm_val dot_S10000x64_S10000x64_S64x64_0_0_1_1_n_n 10000 rfl rfl k
  have el : dot_S10000x64_S10000x64_S64x64_0_0_1_1_n_n.lhsIdx (ix2 g d) ((contrEquiv1 dot_S10000x64_S10000x64_S64x64_0_0_1_1_n_n 10000 rfl rfl).symm k) = ix2 k g := funext fun a => Fin.ext (by
    match a with
    | ⟨0, _⟩ => exact (lhs_rowsum_0 _ _).trans hk
    | ⟨1, _⟩ => exact lhs_rowsum_1 _ _)
  have er : dot_S10000x64_S10000x64_S64x64_0_0_1_1_n_n.rhsIdx (ix2 g d) ((contrEquiv1 dot_S10000x64_S10000x64_S64x64_0_0_1_1_n_n 10000 rfl rfl).symm k) = ix2 k d := funext fun a => Fin.ext (by
    match a with
    | ⟨0, _⟩ => exact (rhs_rowsum_0 _ _).trans hk
    | ⟨1, _⟩ => exact rhs_rowsum_1 _ _)
  rw [el, er]

/-- The sum buffer after a point: what it held plus, per graph and feature, the tile's rows of that graph summed. -/
theorem sumStep_apply (b : Vec Ideal S10000x1 .i32) (h : Vec Ideal S10000x64 .f32) (a : Vec Ideal S64x64 .f32) (g d : Fin 64) :
    (k3_pay4 (F := Ideal) b h a) (ix2 g d) = a (ix2 g d) + ∑ k : Fin 10000, (k3_pay3 (F := Ideal) b) (ix2 k g) * h (ix2 k d) := by
  unfold k3_pay4
  rw [shapeCast_self, addf_apply, rowsum_matmul_apply, shapeCast_self]
  rfl

/-! ## The count: the one-hot matrix, transposed, times a column of ones -/

theorem lhs_cnt_0 (i : S64x1.Idx) (q : dot_S10000x64_S10000x1_S64x1_0_0_1_1_n_n.contr.Idx) :
    (dot_S10000x64_S10000x1_S64x1_0_0_1_1_n_n.lhsIdx i q 0).val = (q ⟨0, by decide⟩).val :=
  dot_S10000x64_S10000x1_S64x1_0_0_1_1_n_n.lhsIdx_val_of_single rfl i q
theorem lhs_cnt_1 (i : S64x1.Idx) (q : dot_S10000x64_S10000x1_S64x1_0_0_1_1_n_n.contr.Idx) :
    (dot_S10000x64_S10000x1_S64x1_0_0_1_1_n_n.lhsIdx i q 1).val = (i 0).val := by
  unfold DotDims.lhsIdx
  rw [dif_neg (show ¬(1 : Fin S10000x64.rank) ∈ dot_S10000x64_S10000x1_S64x1_0_0_1_1_n_n.lhsBatch by decide), dif_pos (show (1 : Fin S10000x64.rank) ∈ dot_S10000x64_S10000x1_S64x1_0_0_1_1_n_n.lhsNonContracting by decide)]
  rfl
theorem rhs_cnt_0 (i : S64x1.Idx) (q : dot_S10000x64_S10000x1_S64x1_0_0_1_1_n_n.contr.Idx) :
    (dot_S10000x64_S10000x1_S64x1_0_0_1_1_n_n.rhsIdx i q 0).val = (q ⟨0, by decide⟩).val :=
  dot_S10000x64_S10000x1_S64x1_0_0_1_1_n_n.rhsIdx_val_of_single rfl i q
theorem rhs_cnt_1 (i : S64x1.Idx) (q : dot_S10000x64_S10000x1_S64x1_0_0_1_1_n_n.contr.Idx) :
    (dot_S10000x64_S10000x1_S64x1_0_0_1_1_n_n.rhsIdx i q 1).val = (i 1).val := by
  unfold DotDims.rhsIdx
  rw [dif_neg (show ¬(1 : Fin S10000x1.rank) ∈ dot_S10000x64_S10000x1_S64x1_0_0_1_1_n_n.rhsBatch by decide), dif_pos (show (1 : Fin S10000x1.rank) ∈ dot_S10000x64_S10000x1_S64x1_0_0_1_1_n_n.rhsNonContracting by decide)]
  rfl

/-- Entry (g, z) of the product of a 10000 x 64 matrix, transposed, with a 10000 x 1 column: the sum over rows. -/
theorem cnt_matmul_apply (A : FVec Ideal S10000x64 .bf16) (B : FVec Ideal S10000x1 .bf16) (g : Fin 64) (z : Fin 1) :
    (matmul dot_S10000x64_S10000x1_S64x1_0_0_1_1_n_n none A B (constant S64x1 .f32 0x00000000#32)) (ix2 g z)
      = ∑ k : Fin 10000, A (ix2 k g) * B (ix2 k z) := by
  simp only [matmul]
  rw [Ideal.matmul_constant_zero_apply, ← Equiv.sum_comp (contrEquiv1 dot_S10000x64_S10000x1_S64x1_0_0_1_1_n_n 10000 rfl rfl).symm]
  refine Finset.sum_congr rfl fun k _ => ?_
  have hk := contrEquiv1_symm_val dot_S10000x64_S10000x1_S64x1_0_0_1_1_n_n 10000 rfl rfl k
  have el : dot_S10000x64_S10000x1_S64x1_0_0_1_1_n_n.lhsIdx (ix2 g z) ((contrEquiv1 dot_S10000x64_S10000x1_S64x1_0_0_1_1_n_n 10000 rfl rfl).symm k) = ix2 k g := funext fun a => Fin.ext (by
    match a with
    | ⟨0, _⟩ => exact (lhs_cnt_0 _ _).trans hk
    | ⟨1, _⟩ => exact lhs_cnt_1 _ _)
  have er : dot_S10000x64_S10000x1_S64x1_0_0_1_1_n_n.rhsIdx (ix2 g z) ((contrEquiv1 dot_S10000x64_S10000x1_S64x1_0_0_1_1_n_n 10000 rfl rfl).symm k) = ix2 k z := funext fun a => Fin.ext (by
    match a with
    | ⟨0, _⟩ => exact (rhs_cnt_0 _ _).trans hk
    | ⟨1, _⟩ => exact rhs_cnt_1 _ _)
  rw [el, er]

/-- The count buffer after a point: what it held plus, per graph, the number of the tile's rows of that graph. -/
theorem cntStep_apply (b : Vec Ideal S10000x1 .i32) (n : Vec Ideal S64x1 .f32) (g : Fin 64) :
    (k3_pay5 (F := Ideal) b n) (ix2 g (0 : Fin 1)) = n (ix2 g (0 : Fin 1)) + ∑ k : Fin 10000, (k3_pay3 (F := Ideal) b) (ix2 k g) := by
  unfold k3_pay5
  rw [shapeCast_self, addf_apply, cnt_matmul_apply]
  refine congrArg (n (ix2 g (0 : Fin 1)) + ·) (Finset.sum_congr rfl fun k _ => ?_)
  rw [broadcast_apply]
  show _ * Ideal.ofBits .bf16 0x3F80#16 = _
  rw [Ideal.ofBits_one_bf16, mul_one]

/-! ## The finish: mean rows times the final weight, plus the bias row -/

theorem lhs_fc_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem lhs_fc_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
theorem rhs_fc_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
theorem rhs_fc_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- Entry (g, o) of a 64 x 64 matrix times a 64 x 32 matrix. -/
theorem fc_matmul_apply (A : FVec Ideal S64x64 .bf16) (B : FVec Ideal S64x32 .bf16) (g : Fin 64) (o : Fin 32) :
    (matmul dot_S64x64_S64x32_S64x32_1_0_0_1_n_n none A B (constant S64x32 .f32 0x00000000#32)) (ix2 g o)
      = ∑ d : Fin 64, A (ix2 g d) * B (ix2 d o) := by
  simp only [matmul]
  rw [Ideal.matmul_constant_zero_apply, ← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have el : dot_S64x64_S64x32_S64x32_1_0_0_1_n_n.lhsIdx (ix2 g o) ((contrEquiv1 dot_S64x64_S64x32_S64x32_1_0_0_1_n_n 64 rfl rfl).symm k) = ix2 g k := funext fun a => Fin.ext (by
    match a with
    | ⟨0, _⟩ => exact lhs_fc_0 _ _
    | ⟨1, _⟩ => exact (lhs_fc_1 _ _).trans hk)
  have er : dot_S64x64_S64x32_S64x32_1_0_0_1_n_n.rhsIdx (ix2 g o) ((contrEquiv1 dot_S64x64_S64x32_S64x32_1_0_0_1_n_n 64 rfl rfl).symm k) = ix2 k o := funext fun a => Fin.ext (by
    match a with
    | ⟨0, _⟩ => exact (rhs_fc_0 _ _).trans hk
    | ⟨1, _⟩ => exact rhs_fc_1 _ _)
  rw [el, er]

/-- The stored result at (g, o): graph g's sum row over max count 1, times the weight's column o, plus the bias. -/
theorem finish_apply (s : Vec Ideal S64x64 .f32) (n : Vec Ideal S64x1 .f32) (fcw : Vec Ideal S64x32 .f32) (fcb : Vec Ideal S1x32 .f32)
    (g : Fin 64) (o : Fin 32) :
    (k3_pay6 (F := Ideal) s n fcw fcb) (ix2 g o)
      = (∑ d : Fin 64, Ideal.div (s (ix2 g d)) (max (n (ix2 g (0 : Fin 1))) 1) * fcw (ix2 d o)) + fcb (ix2 (0 : Fin 1) o) := by
  unfold k3_pay6
  rw [addf_apply, fc_matmul_apply, shapeCast_self, broadcastTo_1b_ab_apply]
  refine congrArg (· + fcb (ix2 (0 : Fin 1) o)) (Finset.sum_congr rfl fun d _ => ?_)
  rw [truncf_apply, truncf_apply, divf_apply, broadcastTo_apply _ broadcasts_S64x1_S64x64 (ix2 g d) (ix2 g (0 : Fin 1)) (fun a => by
    match a with
    | ⟨0, _⟩ => rfl
    | ⟨1, _⟩ => rfl), maximumf_apply, broadcast_apply]
  show Ideal.div _ (max _ (Ideal.ofBits .f32 0x3F800000#32)) * _ = _
  rw [Ideal.ofBits_one_f32]

end Cert.KernelIdeal.Hand

end
-- ==== Proof.KIVal3.lean ====
/-
  The fourth launch's result array as a plain function of the arrays the launch finds, at the exact
  (extended-real) instance: the pooled result (each graph's mean row, sum over max count 1, times the final
  weight, plus the bias row).
  Row k of a tile at point t is row 10000 t + k of its array; the weight, the bias and the result are one block.
  After point n the sum and the count hold the contributions of the nodes below 10000 (n + 1): by induction on
  the point, a finite sum over a range split at 10000 (n + 1); only 0 + x = x and the splitting of a sum over a
  range are used of the extended reals. After the last point every node has been seen; the last point stores
  and writes back the whole 64 x 32 result.
-/
import proofs.«413494_j10737418240589_3_alg».proof.Proof.KIReg3
import proofs.«413494_j10737418240589_3_alg».proof.Proof.KIVal3Pay
import proofs.«413494_j10737418240589_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The blocks as rows of the arrays -/

/-- The printed index maps over the grid: the row tiles move one block per point, the weight, the bias and the
    result stay at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row k of the row tile at point t is row 10000 t + k of the node rows. -/
theorem rowBlk_apply (c : Dev nD) (t : Fin cfg3.N) (k : Fin 10000) (d : Fin 64) (m : Fin 100000)
    (hm : m.val = 10000 * t.val + k.val) :
    (iblk3 V c 0 t : Vec Ideal S10000x64 .f32) (ix2 k d) = (V c main_v61 : S100000x64.Idx → EReal) (ix2 m d) := by
  obtain ⟨e0, e1, -⟩ := idx_facts3 t
  unfold iblk3
  rw [View.read_apply]
  show V c main_v61 _ = V c main_v61 _
  congr 1
  funext a
  apply Fin.ext
  match a with
  | ⟨0, _⟩ => show win3_0.index t (0 : Fin 2) * 10000 + 1 * k.val = m.val; rw [e0, hm]; omega
  | ⟨1, _⟩ => show win3_0.index t (1 : Fin 2) * 64 + 1 * d.val = d.val; rw [e1]; omega

/-- Row k of the id tile at point t is row 10000 t + k of the graph ids. -/
theorem idBlk_apply (c : Dev nD) (t : Fin cfg3.N) (k : Fin 10000) (m : Fin 100000)
    (hm : m.val = 10000 * t.val + k.val) :
    (iblk3 V c 1 t : Vec Ideal S10000x1 .i32) (ix2 k (0 : Fin 1)) = (V c main_v32 : S100000x1.Idx → BitVec 32) (ix2 m (0 : Fin 1)) := by
  obtain ⟨-, -, e0, e1, -⟩ := idx_facts3 t
  unfold iblk3
  rw [View.read_apply]
  show V c main_v32 _ = V c main_v32 _
  congr 1
  funext a
  apply Fin.ext
  match a with
  | ⟨0, _⟩ => show win3_1.index t (0 : Fin 2) * 10000 + 1 * k.val = m.val; rw [e0, hm]; omega
  | ⟨1, _⟩ => show win3_1.index t (1 : Fin 2) * 1 + 1 * 0 = 0; rw [e1]

/-- The weight's block is the whole weight at every point. -/
theorem fcwBlk_apply (c : Dev nD) (t : Fin cfg3.N) (d : Fin 64) (o : Fin 32) :
    (iblk3 V c 2 t : Vec Ideal S64x32 .f32) (ix2 d o) = (V c main_arg9 : S64x32.Idx → EReal) (ix2 d o) := by
  obtain ⟨-, -, -, -, e0, e1, -⟩ := idx_facts3 t
  unfold iblk3
  rw [View.read_apply]
  show V c main_arg9 _ = V c main_arg9 _
  congr 1
  funext a
  apply Fin.ext
  match a with
  | ⟨0, _⟩ => show win3_2.index t (0 : Fin 2) * 64 + 1 * d.val = d.val; rw [e0]; omega
  | ⟨1, _⟩ => show win3_2.index t (1 : Fin 2) * 32 + 1 * o.val = o.val; rw [e1]; omega

/-- The bias row's block is the whole row at every point. -/
theorem fcbBlk_apply (c : Dev nD) (t : Fin cfg3.N) (o : Fin 32) :
    (iblk3 V c 3 t : Vec Ideal S1x32 .f32) (ix2 (0 : Fin 1) o) = (V c main_v31 : S1x32.Idx → EReal) (ix2 (0 : Fin 1) o) := by
  obtain ⟨-, -, -, -, -, -, e0, e1, -⟩ := idx_facts3 t
  unfold iblk3
  rw [View.read_apply]
  show V c main_v31 _ = V c main_v31 _
  congr 1
  funext a
  apply Fin.ext
  match a with
  | ⟨0, _⟩ => show win3_3.index t (0 : Fin 2) * 1 + 1 * 0 = 0; rw [e0]
  | ⟨1, _⟩ => show win3_3.index t (1 : Fin 2) * 32 + 1 * o.val = o.val; rw [e1]; omega

/-! ## The sum and the count, tile by tile -/

/-- Node m's contribution to graph g's feature d (nothing past the last node). -/
def sumTerm (c : Dev nD) (g d : Fin 64) (m : ℕ) : EReal :=
  if hm : m < 100000 then Spec.onehot (V c main_v32) ⟨m, hm⟩ g * (V c main_v61 : Spec.Sn64.Idx → EReal) (ix2 ⟨m, hm⟩ d) else 0

/-- Node m's contribution to graph g's count. -/
def cntTerm (c : Dev nD) (g : Fin 64) (m : ℕ) : EReal :=
  if hm : m < 100000 then Spec.onehot (V c main_v32) ⟨m, hm⟩ g else 0

/-- The one-hot matrix of the id tile at point t, at (k, g), is node 10000 t + k's membership of graph g. -/
theorem onehotBlk_apply (c : Dev nD) (t : Fin cfg3.N) (k : Fin 10000) (g : Fin 64) (hm : 10000 * t.val + k.val < 100000) :
    (k3_pay3 (F := Ideal) (iblk3 V c 1 t)) (ix2 k g) = Spec.onehot (V c main_v32) ⟨10000 * t.val + k.val, hm⟩ g := by
  refine (onehot_apply (iblk3 V c 1 t) k g).trans ?_
  rw [idBlk_apply V c t k ⟨_, hm⟩ rfl]
  rfl

/-- A tile's contribution to the sum is its 10000 nodes' contributions. -/
theorem sumTile_eq (c : Dev nD) (t : Fin cfg3.N) (g d : Fin 64) :
    ∑ k : Fin 10000, (k3_pay3 (F := Ideal) (iblk3 V c 1 t)) (ix2 k g) * (iblk3 V c 0 t : Vec Ideal S10000x64 .f32) (ix2 k d)
      = ∑ k ∈ Finset.range 10000, sumTerm V c g d (10000 * t.val + k) := by
  rw [Finset.sum_range]
  refine Finset.sum_congr rfl fun k _ => ?_
  have hm : 10000 * t.val + k.val < 100000 := by
    have h1 := t.isLt; have hN : cfg3.N = 10 := N_3; have h2 := k.isLt; omega
  rw [onehotBlk_apply V c t k g hm, rowBlk_apply V c t k d ⟨_, hm⟩ rfl]
  unfold sumTerm
  rw [dif_pos hm]

/-- A tile's contribution to the count. -/
theorem cntTile_eq (c : Dev nD) (t : Fin cfg3.N) (g : Fin 64) :
    ∑ k : Fin 10000, (k3_pay3 (F := Ideal) (iblk3 V c 1 t)) (ix2 k g)
      = ∑ k ∈ Finset.range 10000, cntTerm V c g (10000 * t.val + k) := by
  rw [Finset.sum_range]
  refine Finset.sum_congr rfl fun k _ => ?_
  have hm : 10000 * t.val + k.val < 100000 := by
    have h1 := t.isLt; have hN : cfg3.N = 10 := N_3; have h2 := k.isLt; omega
  rw [onehotBlk_apply V c t k g hm]
  unfold cntTerm
  rw [dif_pos hm]

/-- After point n the sum buffer holds the contributions of the nodes below 10000 (n + 1). -/
theorem sumAcc (c : Dev nD) (g d : Fin 64) : ∀ (n : ℕ) (hn : n < cfg3.N),
    (acc3 (F := Ideal) V c n hn).1 (ix2 g d) = ∑ m ∈ Finset.range (10000 * (n + 1)), sumTerm V c g d m
  | 0, hn => by
    rw [acc3_zero]
    refine (sumStep_apply (iblk3 V c 1 ⟨0, hn⟩) (iblk3 V c 0 ⟨0, hn⟩) (k3_pay1 (F := Ideal)) g d).trans ?_
    rw [zeroSum_apply, zero_add, sumTile_eq V c ⟨0, hn⟩ g d]
    show ∑ k ∈ Finset.range 10000, sumTerm V c g d (10000 * 0 + k) = ∑ m ∈ Finset.range 10000, sumTerm V c g d m
    simp only [Nat.mul_zero, Nat.zero_add]
  | n + 1, hn => by
    rw [acc3_succ]
    refine (sumStep_apply (iblk3 V c 1 ⟨n + 1, hn⟩) (iblk3 V c 0 ⟨n + 1, hn⟩) (acc3 V c n (Nat.lt_of_succ_lt hn)).1 g d).trans ?_
    rw [sumAcc c g d n (Nat.lt_of_succ_lt hn), sumTile_eq V c ⟨n + 1, hn⟩ g d,
      show 10000 * (n + 1 + 1) = 10000 * (n + 1) + 10000 by omega, Finset.sum_range_add]

/-- After point n the count buffer holds the memberships of the nodes below 10000 (n + 1). -/
theorem cntAcc (c : Dev nD) (g : Fin 64) : ∀ (n : ℕ) (hn : n < cfg3.N),
    (acc3 (F := Ideal) V c n hn).2 (ix2 g (0 : Fin 1)) = ∑ m ∈ Finset.range (10000 * (n + 1)), cntTerm V c g m
  | 0, hn => by
    rw [acc3_zero]
    refine (cntStep_apply (iblk3 V c 1 ⟨0, hn⟩) (k3_pay2 (F := Ideal)) g).trans ?_
    rw [zeroCnt_apply, zero_add, cntTile_eq V c ⟨0, hn⟩ g]
    show ∑ k ∈ Finset.range 10000, cntTerm V c g (10000 * 0 + k) = ∑ m ∈ Finset.range 10000, cntTerm V c g m
    simp only [Nat.mul_zero, Nat.zero_add]
  | n + 1, hn => by
    rw [acc3_succ]
    refine (cntStep_apply (iblk3 V c 1 ⟨n + 1, hn⟩) (acc3 V c n (Nat.lt_of_succ_lt hn)).2 g).trans ?_
    rw [cntAcc c g n (Nat.lt_of_succ_lt hn), cntTile_eq V c ⟨n + 1, hn⟩ g,
      show 10000 * (n + 1 + 1) = 10000 * (n + 1) + 10000 by omega, Finset.sum_range_add]

/-- All 100000 nodes' contributions are the pooled sum. -/
theorem sumAll (c : Dev nD) (g d : Fin 64) :
    ∑ m ∈ Finset.range 100000, sumTerm V c g d m = Spec.poolSum (V c main_v61) (V c main_v32) g d := by
  rw [Finset.sum_range]
  unfold Spec.poolSum
  refine Finset.sum_congr rfl fun m _ => ?_
  unfold sumTerm
  rw [dif_pos m.isLt]

/-- All 100000 nodes' memberships are the pooled count. -/
theorem cntAll (c : Dev nD) (g : Fin 64) :
    ∑ m ∈ Finset.range 100000, cntTerm V c g m = Spec.poolCnt (V c main_v32) g := by
  rw [Finset.sum_range]
  unfold Spec.poolCnt
  refine Finset.sum_congr rfl fun m _ => ?_
  unfold cntTerm
  rw [dif_pos m.isLt]

/-! ## The result -/

/-- The pooled result of the arrays the launch finds. -/
abbrev result3 (c : Dev nD) : Spec.S6432.Idx → EReal :=
  Spec.poolOut (V c main_v61) (V c main_v32) (V c main_arg9) (V c main_v31)

/-- What the last point stores is the pooled result: by then the sum and the count have seen every node. -/
theorem out_last (c : Dev nD) (t : Fin cfg3.N) (h9 : t.val = 9) (g : Fin 64) (o : Fin 32) :
    (out3_4 (F := Ideal) V c t) (ix2 g o) = result3 V c (ix2 g o) := by
  unfold out3_4
  refine (finish_apply (acc3 V c t.val t.isLt).1 (acc3 V c t.val t.isLt).2 (iblk3 V c 2 t) (iblk3 V c 3 t) g o).trans ?_
  show _ = (∑ d : Fin 64, Ideal.div (Spec.poolSum (V c main_v61) (V c main_v32) g d) (max (Spec.poolCnt (V c main_v32) g) 1)
      * (V c main_arg9 : S64x32.Idx → EReal) (ix2 d o)) + (V c main_v31 : S1x32.Idx → EReal) (ix2 (0 : Fin 1) o)
  have e10 : 10000 * (t.val + 1) = 100000 := by omega
  rw [fcbBlk_apply V c t o, cntAcc V c g t.val t.isLt, e10, cntAll]
  refine congrArg (· + (V c main_v31 : S1x32.Idx → EReal) (ix2 (0 : Fin 1) o)) (Finset.sum_congr rfl fun d _ => ?_)
  rw [sumAcc V c g d t.val t.isLt, e10, sumAll, fcwBlk_apply V c t d o]

/-- The one write-back, at the last point, writes the pooled result: the block is the whole array. -/
theorem flushed3_eq (c : Dev nD) (t : Fin cfg3.N) (hf : (cfg3.win 4).flush t = true) :
    (dat3 (F := Ideal) V c).flushed 4 t = ((cfg3.win 4).blk t).view.read (Elt Ideal) (result3 V c) := by
  have h9 : t.val = 9 := by
    have h1 := (flush3_4 t).mp hf; have h2 := t.isLt; have hN : cfg3.N = 10 := N_3; omega
  obtain ⟨-, -, -, -, -, -, -, -, e0, e1⟩ := idx_facts3 t
  show (cfg3.win 4).cut (grid3.coords t) ((dat3 V c).after 4 t) = _
  rw [after3_4]
  have hz' : (fun a => win3_4.index t a * main_v62.ty.shape.size a) = fun _ => 0 := funext fun a => by
    match a with
    | ⟨0, _⟩ => show win3_4.index t (0 : Fin 2) * _ = 0; rw [e0, Nat.zero_mul]
    | ⟨1, _⟩ => show win3_4.index t (1 : Fin 2) * _ = 0; rw [e1, Nat.zero_mul]
  refine Eq.trans ?_ (Memref.read_access_unit_zero (Elt Ideal) main_v62 hz' (fun a => by rw [congrFun hz' a]; simp) (result3 V c)).symm
  show (out3_4 (F := Ideal) V c t : S64x32.Idx → EReal) = result3 V c
  funext j
  obtain ⟨g, o, rfl⟩ : ∃ (g : Fin 64) (o : Fin 32), j = ix2 g o := ⟨j 0, j 1, eq_ix2 j⟩
  exact out_last V c t h9 g o

/-- The result array after the launch: the pooled result of the arrays the launch finds (the last point's block
    covers the whole array). -/
theorem final3 (c : Dev nD) :
    ((dat3 (F := Ideal) V c).arrAt 4 cfg3.N : Spec.S6432.Idx → EReal)
      = Spec.poolOut (V c main_v61) (V c main_v32) (V c main_arg9) (V c main_v31) :=
  (dat3 V c).arrAt_eq_of_cover 4 (result3 V c) (flushed3_eq V c) fun i =>
    ⟨t3_9, (flush3_4 t3_9).mpr rfl, by
      show i ∈ ((View.whole main_v62).slice (win3_4.rect t3_9)).set
      rw [View.set_slice_whole, Rect.mem_set_unit]
      intro a
      have h0 : (i 0 : Nat) < 64 := (i 0).isLt
      have h1 : (i 1 : Nat) < 32 := (i 1).isLt
      match a with
      | ⟨0, _⟩ => show win3_4.index t3_9 0 * win3_4.size 0 ≤ (i 0 : Nat) ∧ (i 0 : Nat) < win3_4.index t3_9 0 * win3_4.size 0 + win3_4.xsize (grid3.coords t3_9) 0
                  rw [show win3_4.index t3_9 0 * win3_4.size 0 = 0 from by decide +kernel, show win3_4.xsize (grid3.coords t3_9) 0 = 64 from by decide +kernel]; omega
      | ⟨1, _⟩ => show win3_4.index t3_9 1 * win3_4.size 1 ≤ (i 1 : Nat) ∧ (i 1 : Nat) < win3_4.index t3_9 1 * win3_4.size 1 + win3_4.xsize (grid3.coords t3_9) 1
                  rw [show win3_4.index t3_9 1 * win3_4.size 1 = 0 from by decide +kernel, show win3_4.xsize (grid3.coords t3_9) 1 = 32 from by decide +kernel]; omega⟩

end Cert.KernelIdeal.Hand

end
-- ==== Proof.KIChain.lean ====
/-
  The four launches chained through the program's buffer contents, at the ideal values: each launch's output
  array as a function of the arguments and of what the host stretches left. A launch's output is its value
  lemma at the contents the launch finds; a buffer a segment does not write is carried back through it.
-/
import proofs.«413494_j10737418240589_3_alg».proof.Proof.KIRun
import proofs.«413494_j10737418240589_3_alg».proof.Proof.KIVal0
import proofs.«413494_j10737418240589_3_alg».proof.Proof.KIVal1
import proofs.«413494_j10737418240589_3_alg».proof.Proof.KIVal2
import proofs.«413494_j10737418240589_3_alg».proof.Proof.KIVal3
import proofs.«413494_j10737418240589_3_alg».proof.Proof.Spec

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The network's functions respect equal arguments -/

theorem chain_mm {x x' : Spec.Sn64.Idx → EReal} {w w' : Spec.S6464.Idx → EReal} (hx : x = x') (hw : w = w') :
    Spec.mm x w = Spec.mm x' w' := by rw [hx, hw]

theorem chain_layer {a a' x x' : Spec.Sn64.Idx → EReal} {w w' : Spec.S6464.Idx → EReal} {b b' : Spec.S164.Idx → EReal}
    (ha : a = a') (hx : x = x') (hw : w = w') (hb : b = b') : Spec.layer a x w b = Spec.layer a' x' w' b' := by
  rw [ha, hx, hw, hb]

theorem chain_layer2 {a a' s s' : Spec.Sn64.Idx → EReal} {b b' : Spec.S164.Idx → EReal}
    (ha : a = a') (hs : s = s') (hb : b = b') : Spec.layer2 a s b = Spec.layer2 a' s' b' := by
  rw [ha, hs, hb]

theorem chain_poolOut {h h' : Spec.Sn64.Idx → EReal} {g g' : Spec.Sn1.Idx → BitVec 32} {w w' : Spec.S6432.Idx → EReal}
    {b b' : Spec.S132.Idx → EReal} (hh : h = h') (hg : g = g') (hw : w = w') (hb : b = b') :
    Spec.poolOut h g w b = Spec.poolOut h' g' w' b' := by
  rw [hh, hg, hw, hb]

/-! ## Buffers no segment before a launch writes: as launched, or as the third host stretch left them -/

/-- The node features when the first launch is entered: as launched. -/
theorem V3_arg0 (c : Dev nD) : V3 m c main_arg0 = m ((c : Thread nD τ).loc main_arg0) :=
  (W3_of m c main_arg0 (by decide)).trans <| (W2_of m c main_arg0 (by decide)).trans <| (W1_of m c main_arg0 (by decide)).trans rfl
/-- The first layer's neighbour weight when the first launch is entered: as launched. -/
theorem V3_arg3 (c : Dev nD) : V3 m c main_arg3 = m ((c : Thread nD τ).loc main_arg3) :=
  (W3_of m c main_arg3 (by decide)).trans <| (W2_of m c main_arg3 (by decide)).trans <| (W1_of m c main_arg3 (by decide)).trans rfl
theorem V3_arg4 (c : Dev nD) : V3 m c main_arg4 = m ((c : Thread nD τ).loc main_arg4) :=
  (W3_of m c main_arg4 (by decide)).trans <| (W2_of m c main_arg4 (by decide)).trans <| (W1_of m c main_arg4 (by decide)).trans rfl
theorem V3_arg6 (c : Dev nD) : V3 m c main_arg6 = m ((c : Thread nD τ).loc main_arg6) :=
  (W3_of m c main_arg6 (by decide)).trans <| (W2_of m c main_arg6 (by decide)).trans <| (W1_of m c main_arg6 (by decide)).trans rfl
theorem V3_arg7 (c : Dev nD) : V3 m c main_arg7 = m ((c : Thread nD τ).loc main_arg7) :=
  (W3_of m c main_arg7 (by decide)).trans <| (W2_of m c main_arg7 (by decide)).trans <| (W1_of m c main_arg7 (by decide)).trans rfl
theorem V3_arg9 (c : Dev nD) : V3 m c main_arg9 = m ((c : Thread nD τ).loc main_arg9) :=
  (W3_of m c main_arg9 (by decide)).trans <| (W2_of m c main_arg9 (by decide)).trans <| (W1_of m c main_arg9 (by decide)).trans rfl

/-- When the second launch is entered: the node features (an input of the first launch) as launched. -/
theorem V5_arg0 (c : Dev nD) : V5 m c main_arg0 = m ((c : Thread nD τ).loc main_arg0) :=
  (W5_of m c main_arg0 (by decide)).trans <| (W4_in m c 0 rfl).trans (V3_arg0 m c)
theorem V5_arg4 (c : Dev nD) : V5 m c main_arg4 = m ((c : Thread nD τ).loc main_arg4) :=
  (W5_of m c main_arg4 (by decide)).trans <| (W4_of_ne m c main_arg4 (by decide)).trans (V3_arg4 m c)
theorem V5_arg6 (c : Dev nD) : V5 m c main_arg6 = m ((c : Thread nD τ).loc main_arg6) :=
  (W5_of m c main_arg6 (by decide)).trans <| (W4_of_ne m c main_arg6 (by decide)).trans (V3_arg6 m c)
theorem V5_arg7 (c : Dev nD) : V5 m c main_arg7 = m ((c : Thread nD τ).loc main_arg7) :=
  (W5_of m c main_arg7 (by decide)).trans <| (W4_of_ne m c main_arg7 (by decide)).trans (V3_arg7 m c)
/-- The first bias row when the second launch is entered: as the third host stretch left it. -/
theorem V5_v29 (c : Dev nD) : V5 m c main_v29 = V3 m c main_v29 :=
  (W5_of m c main_v29 (by decide)).trans (W4_of_ne m c main_v29 (by decide))

/-- The second bias row when the third launch is entered: as the third host stretch left it. -/
theorem V7_v30 (c : Dev nD) : V7 m c main_v30 = V3 m c main_v30 :=
  (W7_of m c main_v30 (by decide)).trans <| (W6_of_ne m c main_v30 (by decide)).trans <|
    (W5_of m c main_v30 (by decide)).trans (W4_of_ne m c main_v30 (by decide))
/-- The root projection when the third launch is entered: as the second launch left it. -/
theorem V7_v47_1 (c : Dev nD) : V7 m c main_v47_1 = V6 m c main_v47_1 :=
  W7_of m c main_v47_1 (by decide)

/-- The graph ids when the fourth launch is entered: as the third host stretch left them. -/
theorem V8_v32 (c : Dev nD) : V8 m c main_v32 = V3 m c main_v32 :=
  (W8_of_ne m c main_v32 (by decide)).trans <| (W7_of m c main_v32 (by decide)).trans <| (W6_of_ne m c main_v32 (by decide)).trans <|
    (W5_of m c main_v32 (by decide)).trans (W4_of_ne m c main_v32 (by decide))
/-- The final bias row when the fourth launch is entered: as the third host stretch left it. -/
theorem V8_v31 (c : Dev nD) : V8 m c main_v31 = V3 m c main_v31 :=
  (W8_of_ne m c main_v31 (by decide)).trans <| (W7_of m c main_v31 (by decide)).trans <| (W6_of_ne m c main_v31 (by decide)).trans <|
    (W5_of m c main_v31 (by decide)).trans (W4_of_ne m c main_v31 (by decide))
/-- The final weight when the fourth launch is entered: as launched. -/
theorem V8_arg9 (c : Dev nD) : V8 m c main_arg9 = m ((c : Thread nD τ).loc main_arg9) :=
  (W8_of_ne m c main_arg9 (by decide)).trans <| (W7_of m c main_arg9 (by decide)).trans <| (W6_of_ne m c main_arg9 (by decide)).trans <|
    (W5_of m c main_arg9 (by decide)).trans <| (W4_of_ne m c main_arg9 (by decide)).trans (V3_arg9 m c)

/-! ## The four launches' outputs -/

/-- After the first launch: the first layer's neighbour projection, x · w of the arguments. -/
theorem t1_eq (c : Dev nD) :
    (V4 m c main_v33 : Spec.Sn64.Idx → EReal)
      = Spec.mm (m ((c : Thread nD τ).loc main_arg0)) (m ((c : Thread nD τ).loc main_arg3)) :=
  (W4_arr m c 2).trans <| (final0 (V3 m) c).trans <| chain_mm (V3_arg0 m c) (V3_arg3 m c)

/-- After the second launch: the second layer's neighbour projection of the first layer's output. -/
theorem t2_eq (c : Dev nD) :
    (V6 m c main_v47_0 : Spec.Sn64.Idx → EReal)
      = Spec.mm (Spec.layer (V5 m c main_v46) (m ((c : Thread nD τ).loc main_arg0)) (m ((c : Thread nD τ).loc main_arg4)) (V3 m c main_v29))
          (m ((c : Thread nD τ).loc main_arg6)) :=
  (W6_arr m c 6).trans <| (final1_6 (V5 m) c).trans <|
    chain_mm (chain_layer rfl (V5_arg0 m c) (V5_arg4 m c) (V5_v29 m c)) (V5_arg6 m c)

/-- After the second launch: the second layer's root projection of the first layer's output. -/
theorem s2_eq (c : Dev nD) :
    (V6 m c main_v47_1 : Spec.Sn64.Idx → EReal)
      = Spec.mm (Spec.layer (V5 m c main_v46) (m ((c : Thread nD τ).loc main_arg0)) (m ((c : Thread nD τ).loc main_arg4)) (V3 m c main_v29))
          (m ((c : Thread nD τ).loc main_arg7)) :=
  (W6_arr m c 7).trans <| (final1_7 (V5 m) c).trans <|
    chain_mm (chain_layer rfl (V5_arg0 m c) (V5_arg4 m c) (V5_v29 m c)) (V5_arg7 m c)

/-- After the third launch: the second layer's output. -/
theorem h2_eq (c : Dev nD) :
    (V8 m c main_v61 : Spec.Sn64.Idx → EReal)
      = Spec.layer2 (V7 m c main_v60) (V6 m c main_v47_1) (V3 m c main_v30) :=
  (W8_arr m c 3).trans <| (final2 (V7 m) c).trans <| chain_layer2 rfl (V7_v47_1 m c) (V7_v30 m c)

/-- After the fourth launch: the pooled rows through the final layer. -/
theorem out_eq (c : Dev nD) :
    (W9 m c (Proc.devRef .tc main_v62) : Spec.S6432.Idx → EReal)
      = Spec.poolOut (V8 m c main_v61) (V3 m c main_v32) (m ((c : Thread nD τ).loc main_arg9)) (V3 m c main_v31) :=
  (W9_arr m c 4).trans <| (final3 (V8 m) c).trans <| chain_poolOut rfl (V8_v32 m c) (V8_arg9 m c) (V8_v31 m c)

end Cert.KernelIdeal.Hand

end
-- ==== Proof.KIHost.lean ====
/-
  What the host stretches of the program (the operations between the launches) leave in their result buffers,
  as the same pure terms the reference's stage functions are: the edges' sources and targets, the edge weights
  (the symmetric degree normalisation), the reshaped biases and graph ids, and the two propagations as one
  function of the array they are applied to. Generic in the float family.
-/
import proofs.«413494_j10737418240589_3_alg».proof.Proof.KIRun
import proofs.«413494_j10737418240589_3_alg».proof.Proof.RefReadP
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The dimension records of the two programs are the same records -/

theorem scatter_deg_eq : scatter_S100000_S1600000x1_S1600000_n_0_0_1 = Cert.ReferenceIdeal.scatter_S100000_S1600000x1_S1600000_n_0_0_1 := rfl
theorem gather_vec_eq : gather_S100000_S1600000x1_S1600000_n_0_n_n_0_1_1 = Cert.ReferenceIdeal.gather_S100000_S1600000x1_S1600000_n_0_n_n_0_1_1 := rfl
theorem gather_rows_eq : gather_S100000x64_S1600000x1_S1600000x64_1_0_n_n_0_1_164 = Cert.ReferenceIdeal.gather_S100000x64_S1600000x1_S1600000x64_1_0_n_n_0_1_164 := rfl
theorem scatter_rows_eq : scatter_S100000x64_S1600000x1_S1600000x64_1_0_0_1 = Cert.ReferenceIdeal.scatter_S100000x64_S1600000x1_S1600000x64_1_0_0_1 := rfl

/-! ## The first stretch: edge rows and columns, the degree, its comparison with zero and its inverse square root -/

/-- The edges' first row (the sources). -/
theorem host1_v1 (c : Dev nD) : V1 m c main_v1 = Cert.ReferenceIdeal.ReadP.val_main_v1 (F := F) (m ((c : Thread nD τ).loc main_arg1)) := by
  dsimp only [V1, W1, W0, hostOps0]
  after_results
  rfl
/-- The edges' second row (the targets). -/
theorem host1_v3 (c : Dev nD) : V1 m c main_v3 = Cert.ReferenceIdeal.ReadP.val_main_v3 (F := F) (m ((c : Thread nD τ).loc main_arg1)) := by
  dsimp only [V1, W1, W0, hostOps0]
  after_results
  rfl
/-- Where the degree (ones added at the targets) is positive. -/
theorem host1_v9 (c : Dev nD) : V1 m c main_v9 = Cert.ReferenceIdeal.ReadP.val_main_v9 (F := F) (m ((c : Thread nD τ).loc main_arg1)) := by
  dsimp only [V1, W1, W0, hostOps0]
  after_results
  rfl
/-- The inverse square root of the degree, the degree taken at least one. -/
theorem host1_v12 (c : Dev nD) : V1 m c main_v12 = Cert.ReferenceIdeal.ReadP.val_main_v12 (F := F) (m ((c : Thread nD τ).loc main_arg1)) := by
  dsimp only [V1, W1, W0, hostOps0]
  after_results
  rfl
/-- The zero the where-select falls back to. -/
theorem host1_cst3 (c : Dev nD) : V1 m c main_cst_3 = Cert.ReferenceIdeal.ReadP.val_main_cst_3 (F := F) := by
  dsimp only [V1, W1, W0, hostOps0]
  after_results
  rfl

/-! ## The second stretch: the where-select -/

/-- The normalisation vector: the inverse square root where the degree is positive, zero elsewhere. -/
theorem host2_v13 (c : Dev nD) : V2 m c main_v13 = Cert.ReferenceIdeal.ReadP.val_main_v13 (F := F) (m ((c : Thread nD τ).loc main_arg1)) := by
  have e9 : W1 m c (Proc.devRef .tc main_v9) = _ := host1_v9 m c
  have e12 : W1 m c (Proc.devRef .tc main_v12) = _ := host1_v12 m c
  have e3 : W1 m c (Proc.devRef .tc main_cst_3) = _ := host1_cst3 m c
  show StableHlo.after hostOps0_1 (W1 m c) (Proc.devRef .tc main_v13) = _
  generalize W1 m c = Wp at e9 e12 e3 ⊢
  dsimp only [hostOps0_1]
  after_results
  rw [e9, e12, e3]
  rfl
theorem host2_v1 (c : Dev nD) : V2 m c main_v1 = Cert.ReferenceIdeal.ReadP.val_main_v1 (F := F) (m ((c : Thread nD τ).loc main_arg1)) :=
  (W2_of m c main_v1 (by decide)).trans (host1_v1 m c)
theorem host2_v3 (c : Dev nD) : V2 m c main_v3 = Cert.ReferenceIdeal.ReadP.val_main_v3 (F := F) (m ((c : Thread nD τ).loc main_arg1)) :=
  (W2_of m c main_v3 (by decide)).trans (host1_v3 m c)

/-! ## The third stretch: the edge weights, and the reshapes of the biases and of the graph ids -/

set_option maxHeartbeats 1000000 in
/-- The edge weights: the normalisation vector at each edge's source times the same at its target. -/
theorem host3_v28 (c : Dev nD) : V3 m c main_v28 = Cert.ReferenceIdeal.ReadP.val_main_v28 (F := F) (m ((c : Thread nD τ).loc main_arg1)) := by
  have e1 : W2 m c (Proc.devRef .tc main_v1) = _ := host2_v1 m c
  have e3 : W2 m c (Proc.devRef .tc main_v3) = _ := host2_v3 m c
  have e13 : W2 m c (Proc.devRef .tc main_v13) = _ := host2_v13 m c
  show StableHlo.after hostOps0_2 (W2 m c) (Proc.devRef .tc main_v28) = _
  generalize W2 m c = Wp at e1 e3 e13 ⊢
  dsimp only [hostOps0_2]
  after_results_simp
  rw [e1, e3, e13, gather_vec_eq]
  rfl
/-- The sources, as the launches find them. -/
theorem host_row (c : Dev nD) : V3 m c main_v1 = Cert.ReferenceIdeal.ReadP.val_main_v1 (F := F) (m ((c : Thread nD τ).loc main_arg1)) :=
  (W3_of m c main_v1 (by decide)).trans (host2_v1 m c)
/-- The targets, as the launches find them. -/
theorem host_col (c : Dev nD) : V3 m c main_v3 = Cert.ReferenceIdeal.ReadP.val_main_v3 (F := F) (m ((c : Thread nD τ).loc main_arg1)) :=
  (W3_of m c main_v3 (by decide)).trans (host2_v3 m c)
/-- The edge weights, as the launches find them. -/
theorem host_norm (c : Dev nD) : V3 m c main_v28 = Cert.ReferenceIdeal.ReadP.val_main_v28 (F := F) (m ((c : Thread nD τ).loc main_arg1)) := host3_v28 m c

theorem W2_main_arg5 (c : Dev nD) : W2 m c (Proc.devRef .tc main_arg5) = m ((c : Thread nD τ).loc main_arg5) :=
  (W2_of m c main_arg5 (by decide)).trans ((W1_of m c main_arg5 (by decide)).trans rfl)
theorem W2_main_arg8 (c : Dev nD) : W2 m c (Proc.devRef .tc main_arg8) = m ((c : Thread nD τ).loc main_arg8) :=
  (W2_of m c main_arg8 (by decide)).trans ((W1_of m c main_arg8 (by decide)).trans rfl)
theorem W2_main_arg10 (c : Dev nD) : W2 m c (Proc.devRef .tc main_arg10) = m ((c : Thread nD τ).loc main_arg10) :=
  (W2_of m c main_arg10 (by decide)).trans ((W1_of m c main_arg10 (by decide)).trans rfl)
theorem W2_main_arg2 (c : Dev nD) : W2 m c (Proc.devRef .tc main_arg2) = m ((c : Thread nD τ).loc main_arg2) :=
  (W2_of m c main_arg2 (by decide)).trans ((W1_of m c main_arg2 (by decide)).trans rfl)

/-- The first layer's bias as a one-row matrix. -/
theorem host_b1 (c : Dev nD) : V3 m c main_v29 = shapeCast S1x64 (m ((c : Thread nD τ).loc main_arg5)) shapeCasts_S64_S1x64 := by
  have e := W2_main_arg5 m c
  show StableHlo.after hostOps0_2 (W2 m c) (Proc.devRef .tc main_v29) = _
  generalize W2 m c = Wp at e ⊢
  dsimp only [hostOps0_2]
  after_results
  rw [e]
  rfl
/-- The second layer's bias as a one-row matrix. -/
theorem host_b2 (c : Dev nD) : V3 m c main_v30 = shapeCast S1x64 (m ((c : Thread nD τ).loc main_arg8)) shapeCasts_S64_S1x64 := by
  have e := W2_main_arg8 m c
  show StableHlo.after hostOps0_2 (W2 m c) (Proc.devRef .tc main_v30) = _
  generalize W2 m c = Wp at e ⊢
  dsimp only [hostOps0_2]
  after_results
  rw [e]
  rfl
/-- The output bias as a one-row matrix. -/
theorem host_b3 (c : Dev nD) : V3 m c main_v31 = shapeCast S1x32 (m ((c : Thread nD τ).loc main_arg10)) shapeCasts_S32_S1x32 := by
  have e := W2_main_arg10 m c
  show StableHlo.after hostOps0_2 (W2 m c) (Proc.devRef .tc main_v31) = _
  generalize W2 m c = Wp at e ⊢
  dsimp only [hostOps0_2]
  after_results
  rw [e]
  rfl
/-- The graph ids as a one-column matrix. -/
theorem host_ids (c : Dev nD) : V3 m c main_v32 = shapeCast S100000x1 (m ((c : Thread nD τ).loc main_arg2)) shapeCasts_S100000_S100000x1 := by
  have e := W2_main_arg2 m c
  show StableHlo.after hostOps0_2 (W2 m c) (Proc.devRef .tc main_v32) = _
  generalize W2 m c = Wp at e ⊢
  dsimp only [hostOps0_2]
  after_results
  rw [e]
  rfl

/-! ## The propagation, in the reference's terms -/

/-- One propagation of an array t of node rows along the edges: the rows of t at the (re-normalised) sources, each times
    its edge's weight, added at the targets into zeros. -/
def propR (t : (⟨Cert.ReferenceIdeal.S100000x64, .f32⟩ : BufTy).Contents (Elt F)) (x1 : (⟨Cert.ReferenceIdeal.S2x1600000, .i32⟩ : BufTy).Contents (Elt F)) :
    (⟨Cert.ReferenceIdeal.S100000x64, .f32⟩ : BufTy).Contents (Elt F) :=
  Host.scatterAdd Cert.ReferenceIdeal.scatter_S100000x64_S1600000x1_S1600000x64_1_0_0_1 (Cert.ReferenceIdeal.ReadP.val_main_v40 (F := F)) (Cert.ReferenceIdeal.ReadP.val_main_v41 (F := F) x1)
    (mulf (Host.gather Cert.ReferenceIdeal.gather_S100000x64_S1600000x1_S1600000x64_1_0_n_n_0_1_164 t (Cert.ReferenceIdeal.ReadP.val_main_v35 (F := F) x1)) (Cert.ReferenceIdeal.ReadP.val_main_v38 (F := F) x1))

/-- The reference's first propagation is the propagation of its first projection. -/
theorem ref_prop1 (x0 : (⟨Cert.ReferenceIdeal.S100000x64, .f32⟩ : BufTy).Contents (Elt F)) (x1 : (⟨Cert.ReferenceIdeal.S2x1600000, .i32⟩ : BufTy).Contents (Elt F))
    (x3 : (⟨Cert.ReferenceIdeal.S64x64, .f32⟩ : BufTy).Contents (Elt F)) :
    Cert.ReferenceIdeal.ReadP.val_main_v42 (F := F) x0 x1 x3 = propR (Cert.ReferenceIdeal.ReadP.val_main_v29 (F := F) x0 x3) x1 := rfl

/-- The reference's second propagation is the propagation of its second projection. -/
theorem ref_prop2 (x0 : (⟨Cert.ReferenceIdeal.S100000x64, .f32⟩ : BufTy).Contents (Elt F)) (x1 : (⟨Cert.ReferenceIdeal.S2x1600000, .i32⟩ : BufTy).Contents (Elt F))
    (x3 x4 : (⟨Cert.ReferenceIdeal.S64x64, .f32⟩ : BufTy).Contents (Elt F)) (x5 : (⟨Cert.ReferenceIdeal.S64, .f32⟩ : BufTy).Contents (Elt F))
    (x6 : (⟨Cert.ReferenceIdeal.S64x64, .f32⟩ : BufTy).Contents (Elt F)) :
    Cert.ReferenceIdeal.ReadP.val_main_v62 (F := F) x0 x1 x3 x4 x5 x6 = propR (Cert.ReferenceIdeal.ReadP.val_main_v49 (F := F) x0 x1 x3 x4 x5 x6) x1 := rfl

/-! ## The fourth and fifth stretches: the two propagations -/

theorem W4_v1 (c : Dev nD) : W4 m c (Proc.devRef .tc main_v1) = Cert.ReferenceIdeal.ReadP.val_main_v1 (F := F) (m ((c : Thread nD τ).loc main_arg1)) :=
  (W4_of_ne m c main_v1 (by decide)).trans (host_row m c)
theorem W4_v3 (c : Dev nD) : W4 m c (Proc.devRef .tc main_v3) = Cert.ReferenceIdeal.ReadP.val_main_v3 (F := F) (m ((c : Thread nD τ).loc main_arg1)) :=
  (W4_of_ne m c main_v3 (by decide)).trans (host_col m c)
theorem W4_v28 (c : Dev nD) : W4 m c (Proc.devRef .tc main_v28) = Cert.ReferenceIdeal.ReadP.val_main_v28 (F := F) (m ((c : Thread nD τ).loc main_arg1)) :=
  (W4_of_ne m c main_v28 (by decide)).trans (host_norm m c)

set_option maxHeartbeats 1000000 in
/-- After the first launch: the propagation of the launch's product array. -/
theorem host_prop1 (c : Dev nD) : V5 m c main_v46 = propR (V4 m c main_v33) (m ((c : Thread nD τ).loc main_arg1)) := by
  have e1 := W4_v1 m c
  have e3 := W4_v3 m c
  have e28 := W4_v28 m c
  show StableHlo.after hostOps1 (W4 m c) (Proc.devRef .tc main_v46) = propR (W4 m c (Proc.devRef .tc main_v33)) _
  generalize W4 m c = Wp at e1 e3 e28 ⊢
  dsimp only [hostOps1]
  after_results_simp
  rw [e1, e3, e28, gather_rows_eq, scatter_rows_eq]
  rfl

theorem W6_v1 (c : Dev nD) : W6 m c (Proc.devRef .tc main_v1) = Cert.ReferenceIdeal.ReadP.val_main_v1 (F := F) (m ((c : Thread nD τ).loc main_arg1)) :=
  (W6_of_ne m c main_v1 (by decide)).trans ((W5_of m c main_v1 (by decide)).trans (W4_v1 m c))
theorem W6_v3 (c : Dev nD) : W6 m c (Proc.devRef .tc main_v3) = Cert.ReferenceIdeal.ReadP.val_main_v3 (F := F) (m ((c : Thread nD τ).loc main_arg1)) :=
  (W6_of_ne m c main_v3 (by decide)).trans ((W5_of m c main_v3 (by decide)).trans (W4_v3 m c))
theorem W6_v28 (c : Dev nD) : W6 m c (Proc.devRef .tc main_v28) = Cert.ReferenceIdeal.ReadP.val_main_v28 (F := F) (m ((c : Thread nD τ).loc main_arg1)) :=
  (W6_of_ne m c main_v28 (by decide)).trans ((W5_of m c main_v28 (by decide)).trans (W4_v28 m c))

set_option maxHeartbeats 1000000 in
/-- After the second launch: the propagation of the launch's projected array. -/
theorem host_prop2 (c : Dev nD) : V7 m c main_v60 = propR (V6 m c main_v47_0) (m ((c : Thread nD τ).loc main_arg1)) := by
  have e1 := W6_v1 m c
  have e3 := W6_v3 m c
  have e28 := W6_v28 m c
  show StableHlo.after hostOps2 (W6 m c) (Proc.devRef .tc main_v60) = propR (W6 m c (Proc.devRef .tc main_v47_0)) _
  generalize W6 m c = Wp at e1 e3 e28 ⊢
  dsimp only [hostOps2]
  after_results_simp
  rw [e1, e3, e28, gather_rows_eq, scatter_rows_eq]
  rfl

end Cert.KernelIdeal.Hand

end
-- ==== Proof.RefSpec.lean ====
/-
  The reference network's stages at the ideal instance (floats extended reals, operations exact), index by index, as the
  plain functions of Spec: the four projections are matrix products, each layer is max (aggregate + root term + bias) 0
  with the aggregate kept as a stage, and the result is each graph's mean row times the final weight plus the bias row.
  The two pooling scatters are read at an index: update row n lands on row (graph number of n), the number read as a
  signed 32-bit integer, which for a number below 64 is the test "the word is that number".
-/
import proofs.«413494_j10737418240589_3_alg».proof.Proof.RefReadP
import proofs.«413494_j10737418240589_3_alg».proof.Proof.Spec
import Idealize.ShloMosaic.Lib.ValueIdx
import Idealize.ShloMosaic.Lib.IdealHost
import Idealize.ShloMosaic.PureOps.Ideal.Laws

noncomputable section

namespace Cert.RefSpec

open Cert.ReferenceIdeal Cert.ReferenceIdeal.Gen Cert.ReferenceIdeal.ReadP Idealize.ShloMosaic Idealize.ShloMosaic.ValueIdx
open scoped BigOperators

/-! ## Index identifications: a rank-2 index is the pair of its coordinates -/

/-- A rank-2 index with coordinates a and b is ix2 a b. -/
theorem idx2_of {n0 n1 : Nat} (f : (⟨2, ![n0, n1]⟩ : Shape).Idx) (a : Fin n0) (b : Fin n1) (h0 : f 0 = a) (h1 : f 1 = b) :
    f = ix2 a b := by
  funext d
  match d with
  | ⟨0, _⟩ => exact h0
  | ⟨1, _⟩ => exact h1

/-- A rank-1 index with coordinate a is ix1 a. -/
theorem idx1_of {n : Nat} (f : (⟨1, ![n]⟩ : Shape).Idx) (a : Fin n) (h0 : f 0 = a) : f = ix1 a := by
  funext d
  match d with
  | ⟨0, _⟩ => exact h0

/-! ## The two layers -/

/-- The first layer's propagated projection: x · w1_init. -/
theorem ref_t1 (x0 : (⟨S100000x64, .f32⟩ : BufTy).Contents (Elt Ideal)) (x3 : (⟨S64x64, .f32⟩ : BufTy).Contents (Elt Ideal)) :
    val_main_v29 (F := Ideal) x0 x3 = Spec.mm x0 x3 := by
  funext i
  rw [val_main_v29_apply]
  refine Finset.sum_congr rfl fun k _ => ?_
  rw [idx2_of (lidx_main_v29 i k) (i 0) k rfl rfl, idx2_of (ridx_main_v29 i k) k (i 1) rfl rfl]

/-- The first layer's root projection: x · w1_root. -/
theorem ref_r1 (x0 : (⟨S100000x64, .f32⟩ : BufTy).Contents (Elt Ideal)) (x4 : (⟨S64x64, .f32⟩ : BufTy).Contents (Elt Ideal)) :
    val_main_v43 (F := Ideal) x0 x4 = Spec.mm x0 x4 := by
  funext i
  rw [val_main_v43_apply]
  refine Finset.sum_congr rfl fun k _ => ?_
  rw [idx2_of (lidx_main_v43 i k) (i 0) k rfl rfl, idx2_of (ridx_main_v43 i k) k (i 1) rfl rfl]

/-- The first layer: max (agg + x · w1_root + b1) 0, the aggregate kept opaque. -/
theorem ref_h1 (x0 : (⟨S100000x64, .f32⟩ : BufTy).Contents (Elt Ideal)) (x1 : (⟨S2x1600000, .i32⟩ : BufTy).Contents (Elt Ideal)) (x3 x4 : (⟨S64x64, .f32⟩ : BufTy).Contents (Elt Ideal)) (x5 : (⟨S64, .f32⟩ : BufTy).Contents (Elt Ideal)) :
    val_main_v48 (F := Ideal) x0 x1 x3 x4 x5
      = Spec.layer (val_main_v42 (F := Ideal) x0 x1 x3) x0 x4 (fun j => x5 (ix1 (j 1))) := by
  funext i
  rw [val_main_v48_apply, val_main_v47_apply, val_main_v44_apply, val_main_v46_apply, val_main_v45_apply,
    val_main_call1_v0_apply, val_main_call1_cst_apply, ref_r1]
  generalize val_main_v42 (F := Ideal) x0 x1 x3 = agg
  rw [idx1_of (idx_main_v45 (idx_main_v46 i)) (i 1) rfl]
  simp only [Ideal.maximumf_def, Ideal.addf_def, Ideal.ofBits_def, Ideal.ofBits_zero_f32]
  rfl

/-- The second layer's propagated projection: h1 · w2_init. -/
theorem ref_t2 (x0 : (⟨S100000x64, .f32⟩ : BufTy).Contents (Elt Ideal)) (x1 : (⟨S2x1600000, .i32⟩ : BufTy).Contents (Elt Ideal)) (x3 x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v49 (F := Ideal) x0 x1 x3 x4 x5 x6 = Spec.mm (val_main_v48 (F := Ideal) x0 x1 x3 x4 x5) x6 := by
  funext i
  rw [val_main_v49_apply]
  generalize val_main_v48 (F := Ideal) x0 x1 x3 x4 x5 = h
  refine Finset.sum_congr rfl fun k _ => ?_
  rw [idx2_of (lidx_main_v49 i k) (i 0) k rfl rfl, idx2_of (ridx_main_v49 i k) k (i 1) rfl rfl]

/-- The second layer's root projection: h1 · w2_root. -/
theorem ref_s2 (x0 : (⟨S100000x64, .f32⟩ : BufTy).Contents (Elt Ideal)) (x1 : (⟨S2x1600000, .i32⟩ : BufTy).Contents (Elt Ideal)) (x3 x4 : (⟨S64x64, .f32⟩ : BufTy).Contents (Elt Ideal)) (x5 : (⟨S64, .f32⟩ : BufTy).Contents (Elt Ideal)) (x7 : (⟨S64x64, .f32⟩ : BufTy).Contents (Elt Ideal)) :
    val_main_v63 (F := Ideal) x0 x1 x3 x4 x5 x7 = Spec.mm (val_main_v48 (F := Ideal) x0 x1 x3 x4 x5) x7 := by
  funext i
  rw [val_main_v63_apply]
  generalize val_main_v48 (F := Ideal) x0 x1 x3 x4 x5 = h
  refine Finset.sum_congr rfl fun k _ => ?_
  rw [idx2_of (lidx_main_v63 i k) (i 0) k rfl rfl, idx2_of (ridx_main_v63 i k) k (i 1) rfl rfl]

/-- The second layer: max (agg + s + b2) 0, the aggregate and the root projection kept as stages. -/
theorem ref_h2 (x0 : (⟨S100000x64, .f32⟩ : BufTy).Contents (Elt Ideal)) (x1 : (⟨S2x1600000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) :
    val_main_v68 (F := Ideal) x0 x1 x3 x4 x5 x6 x7 x8
      = Spec.layer2 (val_main_v62 (F := Ideal) x0 x1 x3 x4 x5 x6) (val_main_v63 (F := Ideal) x0 x1 x3 x4 x5 x7)
          (fun j => x8 (ix1 (j 1))) := by
  funext i
  rw [val_main_v68_apply, val_main_v67_apply, val_main_v64_apply, val_main_v66_apply, val_main_v65_apply,
    val_main_call2_v0_apply, val_main_call2_cst_apply]
  generalize val_main_v62 (F := Ideal) x0 x1 x3 x4 x5 x6 = agg
  generalize val_main_v63 (F := Ideal) x0 x1 x3 x4 x5 x7 = s
  rw [idx1_of (idx_main_v65 (idx_main_v66 i)) (i 1) rfl]
  simp only [Ideal.maximumf_def, Ideal.addf_def, Ideal.ofBits_def, Ideal.ofBits_zero_f32]
  rfl

/-! ## A scatter read at an index

The pooling scatters add row n of the updates into row (batch n) of the result, the row number read as a SIGNED
32-bit integer; a row whose number is outside the result lands nowhere. -/

/-- An update lands on element i exactly when, on every axis, window start plus window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have h1 := h a
      rw [← e]
      show d.start j idx a + (d.window j a : Int) = (((d.start j idx a + (d.window j a : Int)).toNat : Nat) : Int)
      omega
    · intro e
      funext a
      apply Fin.ext
      have h1 := e a
      have h2 := h a
      show (d.start j idx a + (d.window j a : Int)).toNat = (i a).val
      omega
  · rename_i h
    constructor
    · intro e; cases e
    · intro e
      exact absurd (fun a => by have h1 := e a; have h2 := (i a).isLt; constructor <;> omega) h

/-- A 32-bit word read signed is g (below 64) exactly when it is the word of g. -/
theorem toInt_eq_iff (w : BitVec 32) (g : Fin 64) : w.toInt = (g.val : Int) ↔ w = BitVec.ofNat 32 g.val := by
  have hg := g.isLt
  constructor
  · intro h
    apply BitVec.eq_of_toNat_eq
    rw [BitVec.toNat_ofNat]
    rw [BitVec.toInt_eq_toNat_cond] at h
    have hw := w.isLt
    split at h <;> omega
  · intro h
    subst h
    rw [BitVec.toInt_eq_toNat_cond, BitVec.toNat_ofNat]
    split <;> omega

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter
variable (idx : S100000x1.Idx → BitVec 32)

/-! The row scatter (64 x 64 result, updates 100000 x 64): the window starts at (batch n, 0) and spans the row. -/

theorem start2_0 (j : S100000x64.Idx) :
    scatter_S64x64_S100000x1_S100000x64_1_0_0_1.start j idx 0 = (idx (ix2 (j 0) (0 : Fin 1))).toInt := by
  unfold ScatterDims.start
  rw [dif_pos (show (0 : Fin S64x64.rank) ∈ scatter_S64x64_S100000x1_S100000x64_1_0_0_1.scatterDimsToOperandDims from List.mem_singleton.mpr rfl)]
  congr 2
  funext b
  refine Fin.ext ?_
  match b with
  | ⟨0, _⟩ => rfl
  | ⟨1, _⟩ => rfl

theorem start2_1 (j : S100000x64.Idx) :
    scatter_S64x64_S100000x1_S100000x64_1_0_0_1.start j idx 1 = 0 := by
  unfold ScatterDims.start
  rw [dif_neg (show ¬ (1 : Fin S64x64.rank) ∈ scatter_S64x64_S100000x1_S100000x64_1_0_0_1.scatterDimsToOperandDims by decide)]

theorem window2_0 (j : S100000x64.Idx) :
    scatter_S64x64_S100000x1_S100000x64_1_0_0_1.window j 0 = 0 := by
  unfold ScatterDims.window
  rw [dif_neg (show ¬ (0 : Fin S64x64.rank) ∈ scatter_S64x64_S100000x1_S100000x64_1_0_0_1.sKept by decide)]

theorem window2_1 (j : S100000x64.Idx) :
    scatter_S64x64_S100000x1_S100000x64_1_0_0_1.window j 1 = (j 1).val := by
  unfold ScatterDims.window
  rw [dif_pos (show (1 : Fin S64x64.rank) ∈ scatter_S64x64_S100000x1_S100000x64_1_0_0_1.sKept by decide)]
  rfl

/-- Update (n, b) lands on (g, d) exactly when node n's graph number, read signed, is g and b is d. -/
theorem lands2 (n : Fin 100000) (b g d : Fin 64) :
    scatter_S64x64_S100000x1_S100000x64_1_0_0_1.resultIdx? (ix2 n b) idx = some (ix2 g d)
      ↔ ((idx (ix2 n (0 : Fin 1))).toInt = (g.val : Int) ∧ b = d) := by
  rw [resultIdx?_eq_some_iff]
  have e0 : scatter_S64x64_S100000x1_S100000x64_1_0_0_1.start (ix2 n b) idx 0
      + ((scatter_S64x64_S100000x1_S100000x64_1_0_0_1.window (ix2 n b) 0 : Nat) : Int) = (idx (ix2 n (0 : Fin 1))).toInt := by
    rw [start2_0, window2_0, Nat.cast_zero, add_zero]
  have e1 : scatter_S64x64_S100000x1_S100000x64_1_0_0_1.start (ix2 n b) idx 1
      + ((scatter_S64x64_S100000x1_S100000x64_1_0_0_1.window (ix2 n b) 1 : Nat) : Int) = (b.val : Int) := by
    rw [start2_1, window2_1, zero_add]
  constructor
  · intro h
    have h0 := h 0
    have h1 := h 1
    rw [e0] at h0
    rw [e1] at h1
    exact ⟨h0, Fin.ext (Int.ofNat_inj.mp h1)⟩
  · rintro ⟨h0, h1⟩ a
    match a with
    | ⟨0, _⟩ => exact e0.trans h0
    | ⟨1, _⟩ => exact e1.trans (congrArg (fun t : Fin 64 => (t.val : Int)) h1)

/-- The row scatter at (g, d): the operand there plus the updates' column d over the nodes whose graph number is g. -/
theorem scatter2_apply (x : S64x64.Idx → EReal) (upd : S100000x64.Idx → EReal) (g d : Fin 64) :
    Ideal.hostScatterAdd scatter_S64x64_S100000x1_S100000x64_1_0_0_1 x idx upd (ix2 g d)
      = x (ix2 g d) + ∑ n : Fin 100000, (if (idx (ix2 n (0 : Fin 1))).toInt = (g.val : Int) then upd (ix2 n d) else 0) := by
  unfold Ideal.hostScatterAdd
  refine congrArg (x (ix2 g d) + ·) ?_
  rw [Finset.sum_filter, sum_idx2]
  refine Finset.sum_congr rfl fun n _ => ?_
  rw [Finset.sum_congr rfl (fun b _ => if_congr (lands2 idx n b g d) rfl rfl)]
  by_cases hA : (idx (ix2 n (0 : Fin 1))).toInt = (g.val : Int)
  · simp only [hA, true_and, if_true]
    rw [Finset.sum_ite_eq' Finset.univ d (fun b => upd (ix2 n b)), if_pos (Finset.mem_univ d)]
  · simp only [hA, false_and, if_false]
    exact Finset.sum_const_zero

/-! The count scatter (64 results, updates 100000): update n goes to element (batch n). -/

theorem start1_0 (j : S100000.Idx) :
    scatter_S64_S100000x1_S100000_n_0_0_1.start j idx 0 = (idx (ix2 (j 0) (0 : Fin 1))).toInt := by
  unfold ScatterDims.start
  rw [dif_pos (show (0 : Fin S64.rank) ∈ scatter_S64_S100000x1_S100000_n_0_0_1.scatterDimsToOperandDims from List.mem_singleton.mpr rfl)]
  congr 2
  funext b
  refine Fin.ext ?_
  match b with
  | ⟨0, _⟩ => rfl
  | ⟨1, _⟩ => rfl

theorem window1_0 (j : S100000.Idx) :
    scatter_S64_S100000x1_S100000_n_0_0_1.window j 0 = 0 := by
  unfold ScatterDims.window
  rw [dif_neg (show ¬ (0 : Fin S64.rank) ∈ scatter_S64_S100000x1_S100000_n_0_0_1.sKept by decide)]

/-- Update n lands on g exactly when node n's graph number, read signed, is g. -/
theorem lands1 (n : Fin 100000) (g : Fin 64) :
    scatter_S64_S100000x1_S100000_n_0_0_1.resultIdx? (ix1 n) idx = some (ix1 g)
      ↔ (idx (ix2 n (0 : Fin 1))).toInt = (g.val : Int) := by
  rw [resultIdx?_eq_some_iff]
  have e0 : scatter_S64_S100000x1_S100000_n_0_0_1.start (ix1 n) idx 0
      + ((scatter_S64_S100000x1_S100000_n_0_0_1.window (ix1 n) 0 : Nat) : Int) = (idx (ix2 n (0 : Fin 1))).toInt := by
    rw [start1_0, window1_0, Nat.cast_zero, add_zero]
  constructor
  · intro h
    have h0 := h 0
    rw [e0] at h0
    exact h0
  · intro h0 a
    match a with
    | ⟨0, _⟩ => exact e0.trans h0

/-- The count scatter at g: the operand there plus the updates over the nodes whose graph number is g. -/
theorem scatter1_apply (x : S64.Idx → EReal) (upd : S100000.Idx → EReal) (g : Fin 64) :
    Ideal.hostScatterAdd scatter_S64_S100000x1_S100000_n_0_0_1 x idx upd (ix1 g)
      = x (ix1 g) + ∑ n : Fin 100000, (if (idx (ix2 n (0 : Fin 1))).toInt = (g.val : Int) then upd (ix1 n) else 0) := by
  unfold Ideal.hostScatterAdd
  refine congrArg (x (ix1 g) + ·) ?_
  rw [Finset.sum_filter, sum_idx1]
  exact Finset.sum_congr rfl (fun n _ => if_congr (lands1 idx n g) rfl rfl)

end Scatter

/-! ## The pooling stage -/

/-- The count scatter: element g is the number of graph g's nodes. -/
theorem ref_cnt (x2 : (⟨S100000, .i32⟩ : BufTy).Contents (Elt Ideal)) (g : Fin 64) :
    val_main_v72 (F := Ideal) x2 (ix1 g) = Spec.poolCnt (fun j => x2 (ix1 (j 0))) g := by
  unfold val_main_v72 Host.scatterAdd
  rw [Ideal.hostScatterAdd_def, scatter1_apply, val_main_v70_apply, val_main_cst_14_apply]
  simp only [Ideal.ofBits_def, Ideal.ofBits_zero_f32, zero_add]
  unfold Spec.poolCnt
  refine Finset.sum_congr rfl fun n _ => ?_
  rw [val_main_v69_apply, val_main_cst_13_apply, val_main_v71_apply, idx1_of (idx_main_v71 (ix2 n (0 : Fin 1))) n rfl]
  simp only [Ideal.ofBits_def, Ideal.ofBits_one_f32]
  show (if (x2 (ix1 n)).toInt = (g.val : Int) then (1 : EReal) else 0) = (if x2 (ix1 n) = BitVec.ofNat 32 g.val then 1 else 0)
  exact if_congr (toInt_eq_iff _ g) rfl rfl

/-- The row scatter: element (g, d) is feature d of the second layer summed over graph g's nodes. -/
theorem ref_sum (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (g d : Fin 64) :
    val_main_v75 (F := Ideal) x0 x1 x2 x3 x4 x5 x6 x7 x8 (ix2 g d)
      = Spec.poolSum (val_main_v68 (F := Ideal) x0 x1 x3 x4 x5 x6 x7 x8) (fun j => x2 (ix1 (j 0))) g d := by
  unfold val_main_v75 Host.scatterAdd
  generalize val_main_v68 (F := Ideal) x0 x1 x3 x4 x5 x6 x7 x8 = h
  rw [Ideal.hostScatterAdd_def, scatter2_apply, val_main_v73_apply, val_main_cst_15_apply]
  simp only [Ideal.ofBits_def, Ideal.ofBits_zero_f32, zero_add]
  unfold Spec.poolSum
  refine Finset.sum_congr rfl fun n _ => ?_
  rw [val_main_v74_apply, idx1_of (idx_main_v74 (ix2 n (0 : Fin 1))) n rfl]
  show (if (x2 (ix1 n)).toInt = (g.val : Int) then h (ix2 n d) else 0)
      = (if x2 (ix1 n) = BitVec.ofNat 32 g.val then (1 : EReal) else 0) * h (ix2 n d)
  by_cases hc : x2 (ix1 n) = BitVec.ofNat 32 g.val
  · rw [if_pos ((toInt_eq_iff _ g).mpr hc), if_pos hc, one_mul]
  · rw [if_neg (fun e => hc ((toInt_eq_iff _ g).mp e)), if_neg hc, zero_mul]

/-- The result: each graph's mean row times the final weight plus the bias row. -/
theorem ref_out (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal))
    (x9 : (⟨S64x32, .f32⟩ : BufTy).Contents (Elt Ideal)) (x10 : (⟨S32, .f32⟩ : BufTy).Contents (Elt Ideal)) :
    val_main_v84 (F := Ideal) x0 x1 x2 x3 x4 x5 x6 x7 x8 x9 x10
      = Spec.poolOut (val_main_v68 (F := Ideal) x0 x1 x3 x4 x5 x6 x7 x8) (fun j => x2 (ix1 (j 0))) x9
          (fun j => x10 (ix1 (j 1))) := by
  funext i
  obtain ⟨g, o, rfl⟩ : ∃ (g : Fin 64) (o : Fin 32), i = ix2 g o := ⟨i 0, i 1, eq_ix2 i⟩
  rw [val_main_v84_apply, val_main_v81_apply, val_main_v83_apply, val_main_v82_apply,
    idx1_of (idx_main_v82 (idx_main_v83 (ix2 g o))) o rfl]
  simp only [Ideal.addf_def]
  unfold Spec.poolOut
  refine congrArg₂ (· + ·) (Finset.sum_congr rfl fun k _ => ?_) rfl
  rw [val_main_v80_apply, val_main_v79_apply, val_main_v78_apply, val_main_v77_apply, val_main_v76_apply,
    val_main_cst_16_apply, idx2_of (lidx_main_v81 (ix2 g o) k) g k rfl rfl,
    idx2_of (ridx_main_v81 (ix2 g o) k) k o rfl rfl, idx1_of (idx_main_v78 (idx_main_v79 (ix2 g k))) g rfl, ref_sum, ref_cnt]
  simp only [Ideal.hostDivf_def, Ideal.maximumf_def, Ideal.ofBits_def, Ideal.ofBits_one_f32]

end Cert.RefSpec

end
-- ==== Proof.LibReshapeRows.lean ====
/-
  A one-axis array given a unit axis: the same elements, read at an index of the two-axis shape.
  An [a] array cast to the row [1, a] reads its operand at the index's column; cast to the column [a, 1], at the
  index's row. Stated for any element type, over any proof of the cast's side condition, at a general extent and at
  the literal extents 64, 32 and 100000.
-/
import Idealize.ShloMosaic.Lib.Pipeline.Value
import Idealize.ShloMosaic.Lib.ValueIdx
import Idealize.ShloMosaic.Lib.ValueLayout

namespace Cert.LibReshapeRows

open Idealize.ShloMosaic Idealize.ShloMosaic.ValueIdx

variable {α : Type}

/-- An `[a]` array cast to the one-row shape `[1, a]` is, index by index, the operand at the index's column:
    the row-major position of `(u, i)` in `[1, a]` is `i`. -/
theorem reshape_row {a : ℕ} (x : (⟨1, ![a]⟩ : Shape).Idx → α) (h : (⟨1, ![a]⟩ : Shape).ShapeCasts ⟨2, ![1, a]⟩) :
    shapeCast ⟨2, ![1, a]⟩ x h = fun j => x (ix1 (j 1)) := by
  funext j
  obtain ⟨u, i, rfl⟩ : ∃ (u : Fin 1) (i : Fin a), j = ix2 u i := ⟨j 0, j 1, eq_ix2 j⟩
  exact shapeCast_a_1a_apply x h u i

/-- An `[a]` array cast to the one-column shape `[a, 1]` is, index by index, the operand at the index's row:
    the row-major position of `(i, u)` in `[a, 1]` is `i · 1 + u` with `u = 0`. -/
theorem reshape_column {a : ℕ} (x : (⟨1, ![a]⟩ : Shape).Idx → α) (h : (⟨1, ![a]⟩ : Shape).ShapeCasts ⟨2, ![a, 1]⟩) :
    shapeCast ⟨2, ![a, 1]⟩ x h = fun j => x (ix1 (j 0)) := by
  funext j
  refine shapeCast_apply x h j (ix1 (j 0)) ?_
  rw [Shape.rowMajor_val_two, Shape.rowMajor_val_one]
  have h1 : (j 1).val < 1 := idx2_lt1 j
  show (j 0).val = (j 0).val * 1 + (j 1).val
  omega

/-- A 64-element array as the row `[1, 64]`: entry `(u, i)` is element `i`. -/
theorem reshape_row64 (x : (⟨1, ![64]⟩ : Shape).Idx → α) (h : (⟨1, ![64]⟩ : Shape).ShapeCasts ⟨2, ![1, 64]⟩) :
    shapeCast ⟨2, ![1, 64]⟩ x h = fun j => x (ix1 (j 1)) := reshape_row x h

/-- A 32-element array as the row `[1, 32]`: entry `(u, i)` is element `i`. -/
theorem reshape_row32 (x : (⟨1, ![32]⟩ : Shape).Idx → α) (h : (⟨1, ![32]⟩ : Shape).ShapeCasts ⟨2, ![1, 32]⟩) :
    shapeCast ⟨2, ![1, 32]⟩ x h = fun j => x (ix1 (j 1)) := reshape_row x h

/-- A 100000-element array as the column `[100000, 1]`: entry `(i, u)` is element `i`. -/
theorem reshape_col (x : (⟨1, ![100000]⟩ : Shape).Idx → α) (h : (⟨1, ![100000]⟩ : Shape).ShapeCasts ⟨2, ![100000, 1]⟩) :
    shapeCast ⟨2, ![100000, 1]⟩ x h = fun j => x (ix1 (j 0)) := reshape_column x h

end Cert.LibReshapeRows
-- ==== Proof.SpecNet.lean ====
/-
  The whole network over a propagation step P left abstract: both programs apply the same propagation
  (gather the source rows, scale by the edge weight, add into the target rows) to a projected feature array,
  so the comparison never opens it.
-/
import proofs.«413494_j10737418240589_3_alg».proof.Proof.Spec

noncomputable section

namespace Cert.Spec

open Idealize.ShloMosaic Idealize.ShloMosaic.ValueIdx

/-- Two layers, the mean over each graph, the final linear map. -/
def net (P : (Sn64.Idx → EReal) → Sn64.Idx → EReal)
    (x : Sn64.Idx → EReal) (w1i w1r : S6464.Idx → EReal) (b1 : S164.Idx → EReal)
    (w2i w2r : S6464.Idx → EReal) (b2 : S164.Idx → EReal)
    (batch : Sn1.Idx → BitVec 32) (fcw : S6432.Idx → EReal) (fcb : S132.Idx → EReal) : S6432.Idx → EReal :=
  poolOut (layer2 (P (mm (layer (P (mm x w1i)) x w1r b1) w2i)) (mm (layer (P (mm x w1i)) x w1r b1) w2r) b2) batch fcw fcb

end Cert.Spec

end
-- ==== Proof.Final.lean ====
/-
  The two programs compute one function. On the kernel's side the four launches' outputs, chained through the
  buffers' contents and the two host propagations, are the network of SpecNet over the propagation step; on the
  reference's side the stage functions are the same network over the same step. From memories agreeing on the
  arguments the results are therefore equal, element by element.
-/
import proofs.«413494_j10737418240589_3_alg».proof.Defs
import proofs.«413494_j10737418240589_3_alg».proof.Proof.KIChain
import proofs.«413494_j10737418240589_3_alg».proof.Proof.KIHost
import proofs.«413494_j10737418240589_3_alg».proof.Proof.RefSpec
import proofs.«413494_j10737418240589_3_alg».proof.Proof.LibReshapeRows
import proofs.«413494_j10737418240589_3_alg».proof.Proof.SpecNet
import proofs.«413494_j10737418240589_3_alg».proof.Proof.Gen.Pre_finite_inputs

set_option maxRecDepth 16384

noncomputable section

namespace Cert.Final

open Idealize.ShloMosaic Idealize.ShloMosaic.TcCoe Idealize.SL.Sem Idealize.ShloMosaic.ValueIdx
open Cert.KernelIdeal Cert.KernelIdeal.Gen Cert.KernelIdeal.Hand

/-- The propagation respects equal arrays. -/
theorem propR_congr {t t' : (⟨Cert.ReferenceIdeal.S100000x64, .f32⟩ : BufTy).Contents (Elt Ideal)}
    (x1 : (⟨Cert.ReferenceIdeal.S2x1600000, .i32⟩ : BufTy).Contents (Elt Ideal)) (h : t = t') :
    propR (F := Ideal) t x1 = propR (F := Ideal) t' x1 := by rw [h]

/-! ## The reference is the network -/

theorem ref_net
    (x0 : (⟨Cert.ReferenceIdeal.S100000x64, .f32⟩ : BufTy).Contents (Elt Ideal)) (x1 : (⟨Cert.ReferenceIdeal.S2x1600000, .i32⟩ : BufTy).Contents (Elt Ideal))
    (x2 : (⟨Cert.ReferenceIdeal.S100000, .i32⟩ : BufTy).Contents (Elt Ideal)) (x3 x4 : (⟨Cert.ReferenceIdeal.S64x64, .f32⟩ : BufTy).Contents (Elt Ideal))
    (x5 : (⟨Cert.ReferenceIdeal.S64, .f32⟩ : BufTy).Contents (Elt Ideal)) (x6 x7 : (⟨Cert.ReferenceIdeal.S64x64, .f32⟩ : BufTy).Contents (Elt Ideal))
    (x8 : (⟨Cert.ReferenceIdeal.S64, .f32⟩ : BufTy).Contents (Elt Ideal)) (x9 : (⟨Cert.ReferenceIdeal.S64x32, .f32⟩ : BufTy).Contents (Elt Ideal))
    (x10 : (⟨Cert.ReferenceIdeal.S32, .f32⟩ : BufTy).Contents (Elt Ideal)) :
    Cert.ReferenceIdeal.ReadP.val_main_v84 (F := Ideal) x0 x1 x2 x3 x4 x5 x6 x7 x8 x9 x10
      = Spec.net (fun t => propR (F := Ideal) t x1) x0 x3 x4 (fun j => x5 (ix1 (j 1))) x6 x7 (fun j => x8 (ix1 (j 1)))
          (fun j => x2 (ix1 (j 0))) x9 (fun j => x10 (ix1 (j 1))) := by
  have hH1 : Cert.ReferenceIdeal.ReadP.val_main_v48 (F := Ideal) x0 x1 x3 x4 x5
      = Spec.layer (propR (F := Ideal) (Spec.mm x0 x3) x1) x0 x4 (fun j => x5 (ix1 (j 1))) :=
    (Cert.RefSpec.ref_h1 x0 x1 x3 x4 x5).trans <| chain_layer
      ((ref_prop1 (F := Ideal) x0 x1 x3).trans (propR_congr x1 (Cert.RefSpec.ref_t1 x0 x3))) rfl rfl rfl
  have hT2 : Cert.ReferenceIdeal.ReadP.val_main_v49 (F := Ideal) x0 x1 x3 x4 x5 x6
      = Spec.mm (Spec.layer (propR (F := Ideal) (Spec.mm x0 x3) x1) x0 x4 (fun j => x5 (ix1 (j 1)))) x6 :=
    (Cert.RefSpec.ref_t2 x0 x1 x3 x4 x5 x6).trans <| chain_mm hH1 rfl
  have hS2 : Cert.ReferenceIdeal.ReadP.val_main_v63 (F := Ideal) x0 x1 x3 x4 x5 x7
      = Spec.mm (Spec.layer (propR (F := Ideal) (Spec.mm x0 x3) x1) x0 x4 (fun j => x5 (ix1 (j 1)))) x7 :=
    (Cert.RefSpec.ref_s2 x0 x1 x3 x4 x5 x7).trans <| chain_mm hH1 rfl
  have hH2 : Cert.ReferenceIdeal.ReadP.val_main_v68 (F := Ideal) x0 x1 x3 x4 x5 x6 x7 x8
      = Spec.layer2 (propR (F := Ideal) (Spec.mm (Spec.layer (propR (F := Ideal) (Spec.mm x0 x3) x1) x0 x4 (fun j => x5 (ix1 (j 1)))) x6) x1)
          (Spec.mm (Spec.layer (propR (F := Ideal) (Spec.mm x0 x3) x1) x0 x4 (fun j => x5 (ix1 (j 1)))) x7) (fun j => x8 (ix1 (j 1))) :=
    (Cert.RefSpec.ref_h2 x0 x1 x3 x4 x5 x6 x7 x8).trans <| chain_layer2
      ((ref_prop2 (F := Ideal) x0 x1 x3 x4 x5 x6).trans (propR_congr x1 hT2)) hS2 rfl
  exact (Cert.RefSpec.ref_out x0 x1 x2 x3 x4 x5 x6 x7 x8 x9 x10).trans <| chain_poolOut hH2 rfl rfl rfl

/-! ## The kernel is the network -/

variable (m : (ℓ : Loc Cert.KernelIdeal.nD Cert.KernelIdeal.τ Cert.KernelIdeal.sig) → Buf (Elt Ideal) ℓ)

set_option maxHeartbeats 2000000 in
theorem kernel_net (c : Dev Cert.KernelIdeal.nD) :
    (Hand.W9 m c (Proc.devRef .tc main_v62) : Spec.S6432.Idx → EReal)
      = Spec.net (fun t => propR (F := Ideal) t (m ((c : Thread Cert.KernelIdeal.nD Cert.KernelIdeal.τ).loc Cert.KernelIdeal.main_arg1))) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4))
          (fun j => (m ((c : Thread Cert.KernelIdeal.nD Cert.KernelIdeal.τ).loc Cert.KernelIdeal.main_arg5)) (ix1 (j 1))) (m ((c : Thread Cert.KernelIdeal.nD Cert.KernelIdeal.τ).loc Cert.KernelIdeal.main_arg6)) (m ((c : Thread Cert.KernelIdeal.nD Cert.KernelIdeal.τ).loc Cert.KernelIdeal.main_arg7)) (fun j => (m ((c : Thread Cert.KernelIdeal.nD Cert.KernelIdeal.τ).loc Cert.KernelIdeal.main_arg8)) (ix1 (j 1)))
          (fun j => (m ((c : Thread Cert.KernelIdeal.nD Cert.KernelIdeal.τ).loc Cert.KernelIdeal.main_arg2)) (ix1 (j 0))) (m ((c : Thread Cert.KernelIdeal.nD Cert.KernelIdeal.τ).loc Cert.KernelIdeal.main_arg9)) (fun j => (m ((c : Thread Cert.KernelIdeal.nD Cert.KernelIdeal.τ).loc Cert.KernelIdeal.main_arg10)) (ix1 (j 1))) := by
  have hb1 : (Hand.V3 m c main_v29 : Spec.S164.Idx → EReal) = fun j => (m ((c : Thread Cert.KernelIdeal.nD Cert.KernelIdeal.τ).loc Cert.KernelIdeal.main_arg5)) (ix1 (j 1)) :=
    (host_b1 m c).trans (Cert.LibReshapeRows.reshape_row64 _ _)
  have hb2 : (Hand.V3 m c main_v30 : Spec.S164.Idx → EReal) = fun j => (m ((c : Thread Cert.KernelIdeal.nD Cert.KernelIdeal.τ).loc Cert.KernelIdeal.main_arg8)) (ix1 (j 1)) :=
    (host_b2 m c).trans (Cert.LibReshapeRows.reshape_row64 _ _)
  have hb3 : (Hand.V3 m c main_v31 : Spec.S132.Idx → EReal) = fun j => (m ((c : Thread Cert.KernelIdeal.nD Cert.KernelIdeal.τ).loc Cert.KernelIdeal.main_arg10)) (ix1 (j 1)) :=
    (host_b3 m c).trans (Cert.LibReshapeRows.reshape_row32 _ _)
  have hids : (Hand.V3 m c main_v32 : Spec.Sn1.Idx → BitVec 32) = fun j => (m ((c : Thread Cert.KernelIdeal.nD Cert.KernelIdeal.τ).loc Cert.KernelIdeal.main_arg2)) (ix1 (j 0)) :=
    (host_ids m c).trans (Cert.LibReshapeRows.reshape_col _ _)
  have hagg1 : (Hand.V5 m c main_v46 : Spec.Sn64.Idx → EReal) = propR (F := Ideal) (Spec.mm (m ((c : Thread Cert.KernelIdeal.nD Cert.KernelIdeal.τ).loc Cert.KernelIdeal.main_arg0)) (m ((c : Thread Cert.KernelIdeal.nD Cert.KernelIdeal.τ).loc Cert.KernelIdeal.main_arg3))) (m ((c : Thread Cert.KernelIdeal.nD Cert.KernelIdeal.τ).loc Cert.KernelIdeal.main_arg1)) :=
    (host_prop1 m c).trans (propR_congr _ (t1_eq m c))
  have hH1 : Spec.layer (Hand.V5 m c main_v46) (m ((c : Thread Cert.KernelIdeal.nD Cert.KernelIdeal.τ).loc Cert.KernelIdeal.main_arg0)) (m ((c : Thread Cert.KernelIdeal.nD Cert.KernelIdeal.τ).loc Cert.KernelIdeal.main_arg4)) (Hand.V3 m c main_v29)
      = Spec.layer (propR (F := Ideal) (Spec.mm (m ((c : Thread Cert.KernelIdeal.nD Cert.KernelIdeal.τ).loc Cert.KernelIdeal.main_arg0)) (m ((c : Thread Cert.KernelIdeal.nD Cert.KernelIdeal.τ).loc Cert.KernelIdeal.main_arg3))) (m ((c : Thread Cert.KernelIdeal.nD Cert.KernelIdeal.τ).loc Cert.KernelIdeal.main_arg1))) (m ((c : Thread Cert.KernelIdeal.nD Cert.KernelIdeal.τ).loc Cert.KernelIdeal.main_arg0)) (m ((c : Thread Cert.KernelIdeal.nD Cert.KernelIdeal.τ).loc Cert.KernelIdeal.main_arg4)) (fun j => (m ((c : Thread Cert.KernelIdeal.nD Cert.KernelIdeal.τ).loc Cert.KernelIdeal.main_arg5)) (ix1 (j 1))) :=
    chain_layer hagg1 rfl rfl hb1
  have hT2 := (t2_eq m c).trans (chain_mm hH1 rfl)
  have hS2 := (s2_eq m c).trans (chain_mm hH1 rfl)
  have hagg2 := (host_prop2 m c).trans (propR_congr _ hT2)
  have hH2 := (h2_eq m c).trans (chain_layer2 hagg2 hS2 hb2)
  exact (out_eq m c).trans (chain_poolOut hH2 hids rfl hb3)

/-! ## The run with the result named -/

/-- The kernel program runs to the end with the result buffer at the last boundary's contents and the arguments as launched. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v62) = Hand.W9 m c (Proc.devRef .tc main_v62)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun r h c =>
    ⟨h c _ (mem_uc main_v62 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c)⟩) (run_all m ρ)

/-! ## Equal results -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Hand.W9 m c (Proc.devRef .tc main_v62), kernel_run m ρ, ?_⟩
  refine (θ_run Cert.ReferenceIdeal.defs _ _).mono (fun r h c => ⟨?_, (h c).2⟩) (Cert.ReferenceIdeal.ValueP.run (F := Ideal) m' ρ')
  obtain ⟨h0, h1, h2, h3, h4, h5, h6, h7, h8, h9, h10⟩ := hagree c
  refine (h c).1.trans ?_
  refine (Cert.ReferenceIdeal.ReadP.val_main_v84_eq (F := Ideal) m' c).trans ?_
  rw [h0, h1, h2, h3, h4, h5, h6, h7, h8, h9, h10]
  exact (ref_net _ _ _ _ _ _ _ _ _ _ _).trans (kernel_net m c).symm

end Cert.Final

end
-- ==== Proof.lean ====
/-
  A two-layer graph network on 100000 nodes (64 features), mean-pooled over 64 graphs and mapped to 32 outputs.
  The kernel computes it in four launches tiled over the nodes (a projection; the first layer's combination with
  both projections of the second; the second layer's combination; a one-hot pooling accumulated over the tiles,
  then the final linear map), with the edge propagation (gather, scale, add into target rows) between them on the
  host; the reference does everything on the host. Over the extended reals the two agree index by index: a tile of
  a matrix product is the product's rows of that tile, a sum over the tiles of one-hot-weighted rows is the sum
  over a graph's nodes, and both programs apply the same propagation to equal arrays. No law used needs the
  inputs finite (only commutativity and associativity of + and ·, 0 · x = 0, 1 · x = x, 0 + x = x).

  The three frames: each kernel program runs as a chain of host stretches and launches whose buffers' contents
  are tracked from boundary to boundary; the reference's frame is its run with the result dropped.
-/
import proofs.«413494_j10737418240589_3_alg».proof.Defs
import proofs.«413494_j10737418240589_3_alg».proof.Proof.Gen.Kernel
import proofs.«413494_j10737418240589_3_alg».proof.Proof.Gen.KernelIdeal
import proofs.«413494_j10737418240589_3_alg».proof.Proof.Gen.ReferenceIdeal
import proofs.«413494_j10737418240589_3_alg».proof.Proof.Gen.Pre_finite_inputs
import proofs.«413494_j10737418240589_3_alg».proof.Proof.KRun
import proofs.«413494_j10737418240589_3_alg».proof.Proof.KIRun
import proofs.«413494_j10737418240589_3_alg».proof.Proof.RefRunP
import proofs.«413494_j10737418240589_3_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  trivial,
  Cert.Final.algebraic⟩

end Cert.Proof

end
